-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_c_28 : IVec S_ 32 := constantI S_ 32 0#32
  let main_v74 : IVec S2x800000 32 := broadcastInDim S2x800000 ![] bcast_S_S2x800000 main_c_28
  let main_v75 : IVec S2x800000 1 := cmpi .sge main_arg1 main_v74
  let main_c_29 : IVec S_ 32 := constantI S_ 32 50000#32
  let main_v76 : IVec S2x800000 32 := broadcastInDim S2x800000 ![] bcast_S_S2x800000 main_c_29
  let main_v77 : IVec S2x800000 1 := cmpi .slt main_arg1 main_v76
  let main_v78 : IVec S2x800000 1 := andi main_v75 main_v77
  let main_c_30 : IVec S_ 1 := constantI S_ 1 1#1
  let main_v79 : IVec S_ 1 := (fun x v => Host.reduce IntOp.andi x v reducesTo_S2x800000_S_d0_1 h_S_) main_v78 main_c_30
  let main_v80 : IVec S_ 1 := andi main_v73 main_v79
  main_v80

def fn_part3 {F : FTy → Type} [FloatOps F] (main_arg1 : IVec S2x800000 32) (main_arg12 : FVec F S192x128 .f32) (main_arg13 : FVec F S128 .f32) (main_arg14 : FVec F S128x64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S192x128 .f32 := Host.absf main_arg12
  let main_cst_20 : FVec F S_ .f32 := constant S_ .f32 0x7F800000#32
  let main_v55 : FVec F S192x128 .f32 := broadcastInDim S192x128 ![] bcast_S_S192x128 main_cst_20
  let main_v56 : IVec S192x128 1 := cmpf .olt main_v54 main_v55
  let main_c_21 : IVec S_ 1 := constantI S_ 1 1#1
  let main_v57 : IVec S_ 1 := (fun x v => Host.reduce IntOp.andi x v reducesTo_S192x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg1 main_arg15 main_v63 main_v67

def fn_part2 {F : FTy → Type} [FloatOps F] (main_arg1 : IVec S2x800000 32) (main_arg8 : FVec F S192x128 .f32) (main_arg9 : FVec F S128 .f32) (main_arg10 : FVec F S128x64 .f32) (main_arg11 : FVec F S64 .f32) (main_arg12 : FVec F S192x128 .f32) (main_arg13 : FVec F S128 .f32) (main_arg14 : FVec F S128x64 .f32) (main_arg15 : FVec F S64 .f32) (main_v33 : IVec S_ 1) : IVec S_ 1 :=
  let main_v34 : FVec F S192x128 .f32 := Host.absf main_arg8
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_v48 main_v49 main_v50

def fn_part1 {F : FTy → Type} [FloatOps F] (main_arg1 : IVec S2x800000 32) (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) (main_arg12 : FVec F S192x128 .f32) (main_arg13 : FVec F S128 .f32) (main_arg14 : FVec F S128x64 .f32) (main_arg15 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000x64 .f32) (main_arg3 : FVec F S1x64 .f32) (main_arg4 : FVec F S256x128 .f32) (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) (main_arg12 : FVec F S192x128 .f32) (main_arg13 : FVec F S128 .f32) (main_arg14 : FVec F S128x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S64x128 : Shape := ⟨2, ![64, 128]⟩
abbrev S1x128 : Shape := ⟨2, ![1, 128]⟩
abbrev S40x8x64 : Shape := ⟨3, ![40, 8, 64]⟩
abbrev S20000x64 : Shape := ⟨2, ![20000, 64]⟩
abbrev S1x8x64 : Shape := ⟨3, ![1, 8, 64]⟩
abbrev S20000x128 : Shape := ⟨2, ![20000, 128]⟩
abbrev S1x1x64 : Shape := ⟨3, ![1, 1, 64]⟩
abbrev S320x64 : Shape := ⟨2, ![320, 64]⟩
abbrev S800000x65 : Shape := ⟨2, ![800000, 65]⟩
abbrev S50000x65 : Shape := ⟨2, ![50000, 65]⟩
abbrev S50000x1 : Shape := ⟨2, ![50000, 1]⟩
abbrev S2x8x64 : Shape := ⟨3, ![2, 8, 64]⟩
abbrev S25000x64 : Shape := ⟨2, ![25000, 64]⟩
abbrev S25000x128 : Shape := ⟨2, ![25000, 128]⟩
abbrev S16x64 : Shape := ⟨2, ![16, 64]⟩
abbrev S1x192 : Shape := ⟨2, ![1, 192]⟩

abbrev nBuf : Space → Nat
  | .hbm => 123
  | .vmem => 29
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S192x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x64, .f32⟩
  | .hbm, ⟨39, _⟩ => ⟨S800000x64, .i1⟩
  | .hbm, ⟨40, _⟩ => ⟨S_, .f32⟩
  | .hbm, ⟨41, _⟩ => ⟨S800000x64, .f32⟩
  | .hbm, ⟨42, _⟩ => ⟨S800000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x64, .f32⟩
  | .hbm, ⟨62, _⟩ => ⟨S800000x64, .i1⟩
  | .hbm, ⟨63, _⟩ => ⟨S_, .f32⟩
  | .hbm, ⟨64, _⟩ => ⟨S800000x64, .f32⟩
  | .hbm, ⟨65, _⟩ => ⟨S800000x64, .f32⟩
  | .hbm, ⟨66, _⟩ => ⟨S64x128, .f32⟩
  | .hbm, ⟨67, _⟩ => ⟨S64x128, .f32⟩
  | .hbm, ⟨68, _⟩ => ⟨S64x128, .f32⟩
  | .hbm, ⟨69, _⟩ => ⟨S64x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x64, .f32⟩
  | .hbm, ⟨74, _⟩ => ⟨S800000x64, .f32⟩
  | .hbm, ⟨75, _⟩ => ⟨S40x8x64, .f32⟩
  | .hbm, ⟨76, _⟩ => ⟨S320x64, .f32⟩
  | .hbm, ⟨77, _⟩ => ⟨S_, .f32⟩
  | .hbm, ⟨78, _⟩ => ⟨S64, .f32⟩
  | .hbm, ⟨79, _⟩ => ⟨S1x64, .f32⟩
  | .hbm, ⟨80, _⟩ => ⟨S_, .f32⟩
  | .hbm, ⟨81, _⟩ => ⟨S800000x1, .f32⟩
  | .hbm, ⟨82, _⟩ => ⟨S800000x65, .f32⟩
  | .hbm, ⟨83, _⟩ => ⟨S_, .f32⟩
  | .hbm, ⟨84, _⟩ => ⟨S50000x65, .f32⟩
  | .hbm, ⟨85, _⟩ => ⟨S800000x1, .i32⟩
  | .hbm, ⟨86, _⟩ => ⟨S50000x65, .f32⟩
  | .hbm, ⟨87, _⟩ => ⟨S50000x64, .f32⟩
  | .hbm, ⟨88, _⟩ => ⟨S50000x1, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S50000x64, .f32⟩
  | .hbm, ⟨93, _⟩ => ⟨S50000x64, .f32⟩
  | .hbm, ⟨94, _⟩ => ⟨S64x128, .f32⟩
  | .hbm, ⟨95, _⟩ => ⟨S64x128, .f32⟩
  | .hbm, ⟨96, _⟩ => ⟨S64x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x64, .f32⟩
  | .hbm, ⟨101, _⟩ => ⟨S50000x64, .f32⟩
  | .hbm, ⟨102, _⟩ => ⟨S2x8x64, .f32⟩
  | .hbm, ⟨103, _⟩ => ⟨S16x64, .f32⟩
  | .hbm, ⟨104, _⟩ => ⟨S_, .f32⟩
  | .hbm, ⟨105, _⟩ => ⟨S64, .f32⟩
  | .hbm, ⟨106, _⟩ => ⟨S1x64, .f32⟩
  | .hbm, ⟨107, _⟩ => ⟨S_, .f32⟩
  | .hbm, ⟨108, _⟩ => ⟨S1x64, .f32⟩
  | .hbm, ⟨109, _⟩ => ⟨S1x64, .f32⟩
  | .hbm, ⟨110, _⟩ => ⟨S_, .f32⟩
  | .hbm, ⟨111, _⟩ => ⟨S1x64, .f32⟩
  | .hbm, ⟨112, _⟩ => ⟨S1x64, .f32⟩
  | .hbm, ⟨113, _⟩ => ⟨S1x192, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S_, .f32⟩
  | .hbm, ⟨118, _⟩ => ⟨S1x128, .f32⟩
  | .hbm, ⟨119, _⟩ => ⟨S1x128, .f32⟩
  | .hbm, ⟨120, _⟩ => ⟨S1x64, .f32⟩
  | .hbm, ⟨121, _⟩ => ⟨S1x64, .f32⟩
  | .hbm, ⟨122, _⟩ => ⟨S1x64, .f32⟩
  | .local _ .vmem, ⟨0, _⟩ => ⟨S20000x64, .f32⟩
  | .local _ .vmem, ⟨1, _⟩ => ⟨S20000x64, .f32⟩
  | .local _ .vmem, ⟨2, _⟩ => ⟨S20000x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S20000x64, .f32⟩
  | .local _ .vmem, ⟨13, _⟩ => ⟨S20000x64, .f32⟩
  | .local _ .vmem, ⟨14, _⟩ => ⟨S1x8x64, .f32⟩
  | .local _ .vmem, ⟨15, _⟩ => ⟨S1x8x64, .f32⟩
  | .local _ .vmem, ⟨16, _⟩ => ⟨S25000x64, .f32⟩
  | .local _ .vmem, ⟨17, _⟩ => ⟨S25000x64, .f32⟩
  | .local _ .vmem, ⟨18, _⟩ => ⟨S25000x64, .f32⟩
  | .local _ .vmem, ⟨19, _⟩ => ⟨S25000x64, .f32⟩
  | .local _ .vmem, ⟨20, _⟩ => ⟨S64x128, .f32⟩
  | .local _ .vmem, ⟨21, _⟩ => ⟨S64x128, .f32⟩
  | .local _ .vmem, ⟨22, _⟩ => ⟨S1x128, .f32⟩
  | .local _ .vmem, ⟨23, _⟩ => ⟨S128x64, .f32⟩
  | .local _ .vmem, ⟨24, _⟩ => ⟨S1x64, .f32⟩
  | .local _ .vmem, ⟨25, _⟩ => ⟨S25000x64, .f32⟩
  | .local _ .vmem, ⟨26, _⟩ => ⟨S25000x64, .f32⟩
  | .local _ .vmem, ⟨27, _⟩ => ⟨S1x8x64, .f32⟩
  | .local _ .vmem, ⟨28, _⟩ => ⟨S1x8x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14_0 : Ref sig .tc := ⟨.hbm, 74, rfl⟩
abbrev main_v14_1 : Ref sig .tc := ⟨.hbm, 75, rfl⟩
abbrev main_v15 : Ref sig .tc := ⟨.hbm, 76, rfl⟩
abbrev main_cst : Ref sig .tc := ⟨.hbm, 77, rfl⟩
abbrev main_v16 : Ref sig .tc := ⟨.hbm, 78, rfl⟩
abbrev main_v17 : Ref sig .tc := ⟨.hbm, 79, rfl⟩
abbrev main_cst_0 : Ref sig .tc := ⟨.hbm, 80, rfl⟩
abbrev main_v18 : Ref sig .tc := ⟨.hbm, 81, rfl⟩
abbrev main_v19 : Ref sig .tc := ⟨.hbm, 82, rfl⟩
abbrev main_cst_1 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_cst_2 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36_0 : Ref sig .tc := ⟨.hbm, 101, rfl⟩
abbrev main_v36_1 : Ref sig .tc := ⟨.hbm, 102, rfl⟩
abbrev main_v37 : Ref sig .tc := ⟨.hbm, 103, rfl⟩
abbrev main_cst_3 : Ref sig .tc := ⟨.hbm, 104, rfl⟩
abbrev main_v38 : Ref sig .tc := ⟨.hbm, 105, rfl⟩
abbrev main_v39 : Ref sig .tc := ⟨.hbm, 106, rfl⟩
abbrev main_cst_4 : Ref sig .tc := ⟨.hbm, 107, rfl⟩
abbrev main_v40 : Ref sig .tc := ⟨.hbm, 108, rfl⟩
abbrev main_v41 : Ref sig .tc := ⟨.hbm, 109, rfl⟩
abbrev main_cst_5 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_call2_cst : Ref sig .tc := ⟨.hbm, 117, rfl⟩
abbrev main_call2_v0 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S20000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S25000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S25000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S25000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S256x128_S64x128_0_0 : S256x128.Slices ![0, 0] S64x128
  slices_S256x128_S64x128_64_0 : S256x128.Slices ![64, 0] S64x128
  slices_S256x128_S64x128_128_0 : S256x128.Slices ![128, 0] S64x128
  slices_S256x128_S64x128_192_0 : S256x128.Slices ![192, 0] S64x128
  shapeCasts_S128_S1x128 : S128.ShapeCasts S1x128
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  reduces_S20000x64_S64 : S20000x64.Reduces [0] S64
  shapeCasts_S1x64_S1x1x64 : S1x64.ShapeCasts S1x1x64
  shapeCasts_S1x1x64_S1x1x64 : S1x1x64.ShapeCasts S1x1x64
  broadcasts_S1x1x64_S1x8x64 : S1x1x64.Broadcasts S1x8x64
  inb_S1x8x64_S1x8x64_0_0_0 : ∀ a, (![0, 0, 0] : Fin 3 → Nat) a + S1x8x64.size a ≤ S1x8x64.size a
  h_S1x8x64 : 0 < S1x8x64.numel
  shapeCasts_S40x8x64_S320x64 : S40x8x64.ShapeCasts S320x64
  reducesTo_S320x64_S64_d0 : S320x64.ReducesTo [0] S64
  bcast_S64_S1x64_1 : S64.BroadcastsInDim S1x64 (![1] : Fin 1 → Fin S1x64.rank)
  concatenates_S800000x64_S800000x1_S800000x65_d1 : Shape.Concatenates [S800000x64, S800000x1] S800000x65 1
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S192x128_S64x128_0_0 : S192x128.Slices ![0, 0] S64x128
  slices_S192x128_S64x128_64_0 : S192x128.Slices ![64, 0] S64x128
  slices_S192x128_S64x128_128_0 : S192x128.Slices ![128, 0] S64x128
  inb_S25000x64_S25000x64_0_0 : ∀ a, (![0, 0] : Fin 2 → Nat) a + S25000x64.size a ≤ S25000x64.size a
  h_S25000x64 : 0 < S25000x64.numel
  shapeCasts_S25000x64_S25000x64 : S25000x64.ShapeCasts S25000x64
  broadcasts_S1x128_S25000x128 : S1x128.Broadcasts S25000x128
  broadcasts_S1x64_S25000x64 : S1x64.Broadcasts S25000x64
  reduces_S25000x64_S64 : S25000x64.Reduces [0] S64
  shapeCasts_S2x8x64_S16x64 : S2x8x64.ShapeCasts S16x64
  reducesTo_S16x64_S64_d0 : S16x64.ReducesTo [0] S64
  bcast_S_S1x64 : S_.BroadcastsInDim S1x64 (![] : Fin 0 → Fin S1x64.rank)
  concatenates_S1x64_S1x64_S1x64_S1x192_d1 : Shape.Concatenates [S1x64, S1x64, S1x64] S1x192 1
  bcast_S128_S1x128_1 : S128.BroadcastsInDim S1x128 (![1] : Fin 1 → Fin S1x128.rank)
  bcast_S_S1x128 : S_.BroadcastsInDim S1x128 (![] : Fin 0 → Fin S1x128.rank)
  gather_S50000x64_S800000x1_S800000x64_1_0_n_n_0_1_164_wf : GatherDims.WF S50000x64 S800000x1 S800000x64 [1] [0] [] [0] [] 1 ![1, 64]
  dot_S1x64_S64x128_S1x128_1_0_0_1_n_n_wf : DotDims.WF S1x64 S64x128 S1x128 [1] [0] [0] [1] [] []
  dot_S20000x64_S64x128_S20000x128_1_0_0_1_n_n_wf : DotDims.WF S20000x64 S64x128 S20000x128 [1] [0] [0] [1] [] []
  dot_S20000x128_S128x64_S20000x64_1_0_0_1_n_n_wf : DotDims.WF S20000x128 S128x64 S20000x64 [1] [0] [0] [1] [] []
  scatter_S50000x65_S800000x1_S800000x65_1_0_0_1_wf : ScatterDims.WF S50000x65 S800000x1 S800000x65 [1] [0] [0] 1
  dot_S25000x64_S64x128_S25000x128_1_0_0_1_n_n_wf : DotDims.WF S25000x64 S64x128 S25000x128 [1] [0] [0] [1] [] []
  dot_S25000x128_S128x64_S25000x64_1_0_0_1_n_n_wf : DotDims.WF S25000x128 S128x64 S25000x64 [1] [0] [0] [1] [] []
  dot_S1x192_S192x128_S1x128_1_0_0_1_n_n_wf : DotDims.WF S1x192 S192x128 S1x128 [1] [0] [0] [1] [] []
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S800000x64.size a
  hwx0_0 : ∀ i : grid0.Coords, EltTy.bits .f32 = 32 ∨ (Rect.block (s := S800000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S800000x64.size a
  hwx0_1 : ∀ i : grid0.Coords, EltTy.bits .f32 = 32 ∨ (Rect.block (s := S800000x64) S20000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S800000x64.size a
  hwx0_2 : ∀ i : grid0.Coords, EltTy.bits .f32 = 32 ∨ (Rect.block (s := S800000x64) S20000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S20000x64.size a ≤ S800000x64.size a
  hwx0_9 : ∀ i : grid0.Coords, EltTy.bits .f32 = 32 ∨ (Rect.block (s := S800000x64) S20000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x64.size a ≤ S40x8x64.size a
  hwx0_10 : ∀ i : grid0.Coords, EltTy.bits .f32 = 32 ∨ (Rect.block (s := S40x8x64) S1x8x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x64.size a ≤ S50000x64.size a
  hwx1_0 : ∀ i : grid1.Coords, EltTy.bits .f32 = 32 ∨ (Rect.block (s := S50000x64) S25000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S25000x64.size a ≤ S50000x64.size a
  hwx1_1 : ∀ i : grid1.Coords, EltTy.bits .f32 = 32 ∨ (Rect.block (s := S50000x64) S25000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S25000x64.size a ≤ S50000x64.size a
  hwx1_7 : ∀ i : grid1.Coords, EltTy.bits .f32 = 32 ∨ (Rect.block (s := S50000x64) S25000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x64.size a ≤ S2x8x64.size a
  hwx1_8 : ∀ i : grid1.Coords, EltTy.bits .f32 = 32 ∨ (Rect.block (s := S2x8x64) S1x8x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S25000x64_S64x128_S25000x128_1_0_0_1_n_n : DotDims S25000x64 S64x128 S25000x128 where
  lhsContracting := [1]
  rhsContracting := [0]
  lhsNonContracting := [0]
  rhsNonContracting := [1]
  lhsBatch := []
  rhsBatch := []
  wf := dot_S25000x64_S64x128_S25000x128_1_0_0_1_n_n_wf
def dot_S25000x128_S128x64_S25000x64_1_0_0_1_n_n : DotDims S25000x128 S128x64 S25000x64 where
  lhsContracting := [1]
  rhsContracting := [0]
  lhsNonContracting := [0]
  rhsNonContracting := [1]
  lhsBatch := []
  rhsBatch := []
  wf := dot_S25000x128_S128x64_S25000x64_1_0_0_1_n_n_wf
def dot_S1x192_S192x128_S1x128_1_0_0_1_n_n : DotDims S1x192 S192x128 S1x128 where
  lhsContracting := [1]
  rhsContracting := [0]
  lhsNonContracting := [0]
  rhsNonContracting := [1]
  lhsBatch := []
  rhsBatch := []
  wf := dot_S1x192_S192x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_v4) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S20000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S1x8x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S25000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S25000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36_0) S25000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v36_1) S1x8x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S800000x128 : Shape := ⟨2, ![800000, 128]⟩
abbrev S1x128 : Shape := ⟨2, ![1, 128]⟩
abbrev S50000x1 : Shape := ⟨2, ![50000, 1]⟩
abbrev S50000x192 : Shape := ⟨2, ![50000, 192]⟩
abbrev S50000x128 : Shape := ⟨2, ![50000, 128]⟩
abbrev S1x192 : Shape := ⟨2, ![1, 192]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S192x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S800000x256, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S800000x64, .f32⟩
  | .hbm, ⟨48, _⟩ => ⟨S1x64, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S_, .f32⟩
  | .hbm, ⟨56, _⟩ => ⟨S800000x1, .f32⟩
  | .hbm, ⟨57, _⟩ => ⟨S_, .f32⟩
  | .hbm, ⟨58, _⟩ => ⟨S50000x1, .f32⟩
  | .hbm, ⟨59, _⟩ => ⟨S800000x1, .i32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S50000x192, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S64, .f32⟩
  | .hbm, ⟨81, _⟩ => ⟨S1x64, .f32⟩
  | .hbm, ⟨82, _⟩ => ⟨S_, .f32⟩
  | .hbm, ⟨83, _⟩ => ⟨S1x64, .f32⟩
  | .hbm, ⟨84, _⟩ => ⟨S1x64, .f32⟩
  | .hbm, ⟨85, _⟩ => ⟨S_, .f32⟩
  | .hbm, ⟨86, _⟩ => ⟨S64, .f32⟩
  | .hbm, ⟨87, _⟩ => ⟨S1x64, .f32⟩
  | .hbm, ⟨88, _⟩ => ⟨S_, .f32⟩
  | .hbm, ⟨89, _⟩ => ⟨S1x64, .f32⟩
  | .hbm, ⟨90, _⟩ => ⟨S1x64, .f32⟩
  | .hbm, ⟨91, _⟩ => ⟨S1x192, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S_, .f32⟩
  | .hbm, ⟨96, _⟩ => ⟨S1x128, .f32⟩
  | .hbm, ⟨97, _⟩ => ⟨S1x128, .f32⟩
  | .hbm, ⟨98, _⟩ => ⟨S1x64, .f32⟩
  | .hbm, ⟨99, _⟩ => ⟨S1x64, .f32⟩
  | .hbm, ⟨100, _⟩ => ⟨S1x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_cst : Ref sig .tc := ⟨.hbm, 44, rfl⟩
abbrev main_call0_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call2_cst : Ref sig .tc := ⟨.hbm, 95, rfl⟩
abbrev main_call2_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x64_S800000x256_d1 : Shape.Concatenates [S800000x64, S800000x64, S800000x64, S800000x64] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  concatenates_S50000x64_S50000x64_S50000x64_S50000x192_d1 : Shape.Concatenates [S50000x64, S50000x64, S50000x64] S50000x192 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x64_S64_d0 : S50000x64.ReducesTo [0] S64
  h_S_ : 0 < S_.numel
  bcast_S_S1x64 : S_.BroadcastsInDim S1x64 (![] : Fin 0 → Fin S1x64.rank)
  reducesTo_S800000x64_S64_d0 : S800000x64.ReducesTo [0] S64
  concatenates_S1x64_S1x64_S1x64_S1x192_d1 : Shape.Concatenates [S1x64, S1x64, S1x64] S1x192 1
  bcast_S_S1x128 : S_.BroadcastsInDim S1x128 (![] : Fin 0 → Fin S1x128.rank)
  gather_S50000x64_S800000x1_S800000x64_1_0_n_n_0_1_164_wf : GatherDims.WF S50000x64 S800000x1 S800000x64 [1] [0] [] [0] [] 1 ![1, 64]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []
  dot_S1x192_S192x128_S1x128_1_0_0_1_n_n_wf : DotDims.WF S1x192 S192x128 S1x128 [1] [0] [0] [1] [] []
  dot_S1x128_S128x64_S1x64_1_0_0_1_n_n_wf : DotDims.WF S1x128 S128x64 S1x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S1x192_S192x128_S1x128_1_0_0_1_n_n : DotDims S1x192 S192x128 S1x128 where
  lhsContracting := [1]
  rhsContracting := [0]
  lhsNonContracting := [0]
  rhsNonContracting := [1]
  lhsBatch := []
  rhsBatch := []
  wf := dot_S1x192_S192x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

class Facts : Prop extends Facts₀ where

variable [Facts]
-- ==== Proof.EdgeDefs.lean ====
/-
  Region 0's definitions: what the edge kernel's body stores, each window's block at a grid point, and the pipeline's
  proof data at the buffer contents `V` the region is entered with.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows the body stores into its first output buffer: the perceptron's rows of the block. -/
def edgeRows (x0 x1 x2 : Vec F S20000x64 .f32) (w3 w4 w5 : Vec F S64x128 .f32) (b6 : Vec F S1x128 .f32)
    (w7 : Vec F S128x64 .f32) (b8 : Vec F S1x64 .f32) : Vec F S20000x64 .f32 :=
  k0_pay2 x0 x1 x2 w3 w4 w5 b6 w7 b8

/-- What the body stores into its second output buffer: the block's column sums over eight, in eight rows. -/
def edgeTile (x0 x1 x2 : Vec F S20000x64 .f32) (w3 w4 w5 : Vec F S64x128 .f32) (b6 : Vec F S1x128 .f32)
    (w7 : Vec F S128x64 .f32) (b8 : Vec F S1x64 .f32) : Vec F S1x8x64 .f32 :=
  k0_pay1 (k0_pay3 x0 x1 x2 w3 w4 w5 b6 w7 b8) (Scalar.ofBits .f32 0x41000000#32)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core `c`: the arrays as the region finds them; after the body at point `t` each
    input's buffer holds its block and the two outputs' the block's new rows and the eighths of their column sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => edgeRows (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => edgeTile (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

theorem after0_9 (c : Dev nD) (t : Fin cfg0.N) : (dat0 V c).after 9 t
    = edgeRows (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

theorem after0_10 (c : Dev nD) (t : Fin cfg0.N) : (dat0 V c).after 10 t
    = edgeTile (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

end

end Cert.KernelIdeal.Hand

end
-- ==== Proof.NodeDefs.lean ====
/-
  Region 1's definitions: what the node kernel's body stores, each window's block at a grid point, and the pipeline's
  proof data at the buffer contents `V` the region is entered with.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows the body stores into its first output buffer: the perceptron's rows of the block. -/
def nodeRows (x0 x1 : Vec F S25000x64 .f32) (w2 w3 : Vec F S64x128 .f32) (b4 : Vec F S1x128 .f32)
    (w5 : Vec F S128x64 .f32) (b6 : Vec F S1x64 .f32) : Vec F S25000x64 .f32 :=
  k1_pay1 x0 x1 w2 w3 b4 w5 b6

/-- What the body stores into its second output buffer: the block's column sums over eight, in eight rows. -/
def nodeTile (x0 x1 : Vec F S25000x64 .f32) (w2 w3 : Vec F S64x128 .f32) (b4 : Vec F S1x128 .f32)
    (w5 : Vec F S128x64 .f32) (b6 : Vec F S1x64 .f32) : Vec F S1x8x64 .f32 :=
  k1_pay2 x0 x1 w2 w3 b4 w5 b6

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body at point `t` each
    input's buffer holds its block and the two outputs' the block's new rows and the eighths of their column sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => nodeRows (iblk1 V c 0 t) (iblk1 V c 1 t) (iblk1 V c 2 t) (iblk1 V c 3 t) (iblk1 V c 4 t) (iblk1 V c 5 t) (iblk1 V c 6 t)
    | ⟨8, _⟩ => nodeTile (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

theorem after1_7 (c : Dev nD) (t : Fin cfg1.N) : (dat1 V c).after 7 t
    = nodeRows (iblk1 V c 0 t) (iblk1 V c 1 t) (iblk1 V c 2 t) (iblk1 V c 3 t) (iblk1 V c 4 t) (iblk1 V c 5 t) (iblk1 V c 6 t) := by
  dsimp only [dat1]

theorem after1_8 (c : Dev nD) (t : Fin cfg1.N) : (dat1 V c).after 8 t
    = nodeTile (iblk1 V c 0 t) (iblk1 V c 1 t) (iblk1 V c 2 t) (iblk1 V c 3 t) (iblk1 V c 4 t) (iblk1 V c 5 t) (iblk1 V c 6 t) := by
  dsimp only [dat1]

end

end Cert.KernelIdeal.Hand

end
-- ==== Proof.RunDefs.lean ====
/-
  The buffer contents at every boundary of @main, as a fold from the launch memory: a host stretch applies its
  operations; a kernel region leaves its input arrays as they were and each output array at what the grid's
  write-backs leave.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.KernelIdeal.Regions
import proofs.«417691_j25598005084727_2_alg».proof.Proof.EdgeDefs
import proofs.«417691_j25598005084727_2_alg».proof.Proof.NodeDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ)

/-- Core `c`'s buffers at launch. -/
abbrev W0 (c : Dev nD) : Valuation τ sig (Elt F) := fun b => m (c, b)
/-- After the index rows are sliced out. -/
abbrev W1 (c : Dev nD) : Valuation τ sig (Elt F) := StableHlo.after hostOps0 (W0 m c)
/-- After the sender rows are taken. -/
abbrev W2 (c : Dev nD) : Valuation τ sig (Elt F) := StableHlo.after hostOps0_1 (W1 m c)
/-- After the receiver rows are taken. -/
abbrev W3 (c : Dev nD) : Valuation τ sig (Elt F) := StableHlo.after hostOps0_2 (W2 m c)
/-- After the edge weights are cut and the effective bias is made: region 0's entry. -/
abbrev W4 (c : Dev nD) : Valuation τ sig (Elt F) := StableHlo.after hostOps0_3 (W3 m c)
/-- The same read at the TensorCore's references. -/
abbrev V4 : (c : Dev nD) → (b : Ref sig .tc) → Buf (Elt F) ((c : Thread nD τ).loc b) := fun c b => W4 m c b
/-- At region 0's exit. -/
def W5 (c : Dev nD) : Valuation τ sig (Elt F) :=
  Pipeline.withArrays spec0 c (W4 m c) fun w => (dat0 (V4 m) c).arrAt w cfg0.N
/-- After the edge totals, the scatter-mean and the node weights: region 1's entry. -/
abbrev W6 (c : Dev nD) : Valuation τ sig (Elt F) := StableHlo.after hostOps1 (W5 m c)
/-- The same read at the TensorCore's references. -/
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
/-- After the node totals, the means and the global first layer. -/
abbrev W8 (c : Dev nD) : Valuation τ sig (Elt F) := StableHlo.after hostOps2 (W7 m c)
/-- After the global rectifier. -/
abbrev W9 (c : Dev nD) : Valuation τ sig (Elt F) := StableHlo.after hostOps2_1 (W8 m c)
/-- After the global second layer: the end of @main. -/
abbrev W10 (c : Dev nD) : Valuation τ sig (Elt F) := StableHlo.after hostOps2_2 (W9 m c)

/-! ### What each boundary keeps -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W6_of (c : Dev nD) (r : Ref sig .tc) (h : r ∉ hostOps1_W) : W6 m c r = W5 m c r :=
  StableHlo.after_of_writes_sub hostOps1 _ hostOps1_writes h
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h
theorem W10_of (c : Dev nD) (r : Ref sig .tc) (h : r ∉ hostOps2_2_W) : W10 m c r = W9 m c r :=
  StableHlo.after_of_writes_sub hostOps2_2 _ hostOps2_2_writes h

/-- Region 0 leaves window `w`'s array at what the grid's write-backs make of it. -/
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
/-- Region 0 leaves every other buffer as it found it. -/
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
/-- Region 1 leaves window `w`'s array at what the grid's write-backs make of it. -/
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
/-- Region 1 leaves every other buffer as it found it. -/
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- An input window's array is not changed by its region. -/
theorem W5_in (c : Dev nD) (w : Fin cfg0.W) (hw : (cfg0.win w).isOut = false) :
    W5 m c (Proc.devRef .tc (Pipeline.arrRef spec0 w)) = W4 m c (Proc.devRef .tc (Pipeline.arrRef spec0 w)) :=
  (W5_arr m c w).trans (((dat0 (V4 m) c).arrAt_in w hw _).trans (A_eq0 (V4 m) c w))
theorem W7_in (c : Dev nD) (w : Fin cfg1.W) (hw : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hw _).trans (A_eq1 (V6 m) c w))

end

end Cert.KernelIdeal.Hand

end
-- ==== Proof.EdgeBody.lean ====
/-
  The edge kernel's body on whole staging buffers: it reads its nine input blocks, stores the block's new edge rows
  (`edgeRows`) into the first output buffer and eight copies of an eighth of their column sums (`edgeTile`) into the
  second, and leaves the inputs as they were.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.EdgeDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-buffer access, as a constant function. -/
theorem zero_off2 : (![0, 0] : Fin 2 → ℕ) = fun _ => 0 := by
  funext a; fin_cases a <;> rfl

/-- The zero offsets of a rank-3 whole-buffer access, as a constant function. -/
theorem zero_off3 : (![0, 0, 0] : Fin 3 → ℕ) = fun _ => 0 := by
  funext a; fin_cases a <;> rfl

set_option maxHeartbeats 1000000 in
/-- The body's triple on whole staging memrefs. -/
theorem sound_edge (c : Dev nD) (E : Set ℕ) (i : grid0.Coords)
    (arg1 : Memref sig .tc .vmem S20000x64 .f32) (harg1 : arg1.IsWhole) (arg2 : Memref sig .tc .vmem S20000x64 .f32) (harg2 : arg2.IsWhole)
    (arg3 : Memref sig .tc .vmem S20000x64 .f32) (harg3 : arg3.IsWhole) (arg4 : Memref sig .tc .vmem S64x128 .f32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S1x128 .f32) (harg7 : arg7.IsWhole) (arg8 : Memref sig .tc .vmem S128x64 .f32) (harg8 : arg8.IsWhole)
    (arg9 : Memref sig .tc .vmem S1x64 .f32) (harg9 : arg9.IsWhole) (arg10 : Memref sig .tc .vmem S20000x64 .f32) (harg10 : arg10.IsWhole)
    (arg11 : Memref sig .tc .vmem S1x8x64 .f32) (harg11 : arg11.IsWhole)
    (x0 x1 x2 : Vec F S20000x64 .f32) (w3 w4 w5 : Vec F S64x128 .f32) (b6 : Vec F S1x128 .f32)
    (w7 : Vec F S128x64 .f32) (b8 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w3 ∗ owns (c : Thread nD τ) arg5 fullShare w4 ∗ owns (c : Thread nD τ) arg6 fullShare w5
        ∗ owns (c : Thread nD τ) arg7 fullShare b6 ∗ owns (c : Thread nD τ) arg8 fullShare w7 ∗ owns (c : Thread nD τ) arg9 fullShare b8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w3 ∗ owns (c : Thread nD τ) arg5 fullShare w4 ∗ owns (c : Thread nD τ) arg6 fullShare w5
            ∗ owns (c : Thread nD τ) arg7 fullShare b6 ∗ owns (c : Thread nD τ) arg8 fullShare w7 ∗ owns (c : Thread nD τ) arg9 fullShare b8
            ∗ owns (c : Thread nD τ) arg10 fullShare (edgeRows x0 x1 x2 w3 w4 w5 b6 w7 b8)
            ∗ owns (c : Thread nD τ) arg11 fullShare (edgeTile x0 x1 x2 w3 w4 w5 b6 w7 b8)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10 arg11 harg11) K := by
  simp only [cc0__edge_kernel_eq_skeleton]; unfold cc0__edge_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, Hk⟩
  subst hf1 hf2 hf3 hf4 hf5 hf6 hf7 hf8 hf9
  sl_exec
  sl_step
  iapply Hk
  -- the nine inputs come back as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  -- each output was stored whole, once: it holds the stored payload, whose arguments are the inputs read whole
  isplitl [H10]
  · iexists _; isplitr
    swap; · iexact H10
    ipureintro
    rw [View.read_writes_eq_canon _ _ _ (fun y => ⟨_, List.mem_singleton_self _, View.mem_set_unit_zero zero_off2 inb_S20000x64_S20000x64_0_0 y⟩),
      View.canon_unit_zero zero_off2]
    unfold edgeRows
    simp only [View.readAt_eq_ld, View.ld_unit_zero (S := S20000x64) zero_off2, View.ld_unit_zero (S := S64x128) zero_off2,
      View.ld_unit_zero (S := S1x128) zero_off2, View.ld_unit_zero (S := S128x64) zero_off2, View.ld_unit_zero (S := S1x64) zero_off2]
  iexists _; isplitr
  swap; · iexact H11
  ipureintro
  rw [View.read_writes_eq_canon _ _ _ (fun y => ⟨_, List.mem_singleton_self _, View.mem_set_unit_zero zero_off3 inb_S1x8x64_S1x8x64_0_0_0 y⟩),
    View.canon_unit_zero zero_off3]
  unfold edgeTile
  simp only [View.readAt_eq_ld, View.ld_unit_zero (S := S20000x64) zero_off2, View.ld_unit_zero (S := S64x128) zero_off2,
      View.ld_unit_zero (S := S1x128) zero_off2, View.ld_unit_zero (S := S128x64) zero_off2, View.ld_unit_zero (S := S1x64) zero_off2]
  -- the divisor the body binds is the constant eight of the stated tile
  rfl

end Cert.KernelIdeal.Hand

end
-- ==== Proof.EdgeData.lean ====
/-
  Region 0 (the edge kernel over its 40 row tiles) as the pipeline sees it, at the buffer contents `V` the region is
  entered with: each window's block at a grid point, what the body leaves in every staging buffer there, and the body
  obligation at every point.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.EdgeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer

At a point where the window was fetched, the transfer put its block there. At a point where it was not, its block index
has not moved since the point before, and the body left the buffer as it found it: so the buffer still holds the block. -/

theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := by
    intro s; rw [after0_0]; rfl
  rw [(dat0 V c).before_in_eq_fetched 0 rfl (fun _ => rfl) (fun _ _ _ => rfl) keep t d]
  rfl

theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := by
    intro s; rw [after0_1]; rfl
  rw [(dat0 V c).before_in_eq_fetched 1 rfl (fun _ => rfl) (fun _ _ _ => rfl) keep t d]
  rfl

theorem before0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := by
    intro s; rw [after0_2]; rfl
  rw [(dat0 V c).before_in_eq_fetched 2 rfl (fun _ => rfl) (fun _ _ _ => rfl) keep t d]
  rfl

theorem before0_3 (c : Dev nD) (t : Fin cfg0.N) (d) : (dat0 V c).before 3 t d = iblk0 V c 3 t := by
  have keep : ∀ s, (cfg0.win 3).cut (cfg0.grid.coords s) ((dat0 V c).after 3 s) = (dat0 V c).blockOf 3 s := by
    intro s; rw [after0_3]; rfl
  rw [(dat0 V c).before_in_eq_fetched 3 rfl (fun _ => rfl) (fun _ _ _ => rfl) keep t d]
  rfl

theorem before0_4 (c : Dev nD) (t : Fin cfg0.N) (d) : (dat0 V c).before 4 t d = iblk0 V c 4 t := by
  have keep : ∀ s, (cfg0.win 4).cut (cfg0.grid.coords s) ((dat0 V c).after 4 s) = (dat0 V c).blockOf 4 s := by
    intro s; rw [after0_4]; rfl
  rw [(dat0 V c).before_in_eq_fetched 4 rfl (fun _ => rfl) (fun _ _ _ => rfl) keep t d]
  rfl

theorem before0_5 (c : Dev nD) (t : Fin cfg0.N) (d) : (dat0 V c).before 5 t d = iblk0 V c 5 t := by
  have keep : ∀ s, (cfg0.win 5).cut (cfg0.grid.coords s) ((dat0 V c).after 5 s) = (dat0 V c).blockOf 5 s := by
    intro s; rw [after0_5]; rfl
  rw [(dat0 V c).before_in_eq_fetched 5 rfl (fun _ => rfl) (fun _ _ _ => rfl) keep t d]
  rfl

theorem before0_6 (c : Dev nD) (t : Fin cfg0.N) (d) : (dat0 V c).before 6 t d = iblk0 V c 6 t := by
  have keep : ∀ s, (cfg0.win 6).cut (cfg0.grid.coords s) ((dat0 V c).after 6 s) = (dat0 V c).blockOf 6 s := by
    intro s; rw [after0_6]; rfl
  rw [(dat0 V c).before_in_eq_fetched 6 rfl (fun _ => rfl) (fun _ _ _ => rfl) keep t d]
  rfl

theorem before0_7 (c : Dev nD) (t : Fin cfg0.N) (d) : (dat0 V c).before 7 t d = iblk0 V c 7 t := by
  have keep : ∀ s, (cfg0.win 7).cut (cfg0.grid.coords s) ((dat0 V c).after 7 s) = (dat0 V c).blockOf 7 s := by
    intro s; rw [after0_7]; rfl
  rw [(dat0 V c).before_in_eq_fetched 7 rfl (fun _ => rfl) (fun _ _ _ => rfl) keep t d]
  rfl

theorem before0_8 (c : Dev nD) (t : Fin cfg0.N) (d) : (dat0 V c).before 8 t d = iblk0 V c 8 t := by
  have keep : ∀ s, (cfg0.win 8).cut (cfg0.grid.coords s) ((dat0 V c).after 8 s) = (dat0 V c).blockOf 8 s := by
    intro s; rw [after0_8]; rfl
  rw [(dat0 V c).before_in_eq_fetched 8 rfl (fun _ => rfl) (fun _ _ _ => rfl) keep t d]
  rfl

/-! ## The body at a point -/

/-- What the body is entered with at point `t`: the invariant, what the core owes, and every window's current buffer. -/
def edgePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the same invariant and debt, and every buffer at what the body leaves there. -/
def edgePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: its nine input buffers hold their blocks, so the body's triple applies at those blocks; the
    invariant and the debt are not touched. -/
theorem edge_body_at (c : Dev nD) (t : Fin cfg0.N) :
    edgePre V c t ⊢ wp frame (wpE (defs₀ (F := F)) Variants.none c none) Set.univ (bodyAt0 t) (fun _ => edgePost V c t) := by
  unfold edgePre edgePost bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_edge c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact edge_body_at V c t

end

end Cert.KernelIdeal.Hand

end
-- ==== Proof.NodeBody.lean ====
/-
  The node kernel's body on whole staging buffers: it reads its seven input blocks, stores the block's new node rows
  (`nodeRows`) into the first output buffer and eight copies of an eighth of their column sums (`nodeTile`) into the
  second, and leaves the inputs as they were.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.NodeDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle, all zero, are the constant zero function (rank two, rank three). -/
private theorem nodeOff2 : (![0, 0] : Fin 2 → ℕ) = fun _ => 0 := funext fun a => by fin_cases a <;> rfl

private theorem nodeOff3 : (![0, 0, 0] : Fin 3 → ℕ) = fun _ => 0 := funext fun a => by fin_cases a <;> rfl

set_option maxHeartbeats 1000000 in
/-- The body's triple on whole staging memrefs. -/
theorem sound_node (c : Dev nD) (E : Set ℕ) (i : grid1.Coords)
    (arg1 : Memref sig .tc .vmem S25000x64 .f32) (harg1 : arg1.IsWhole) (arg2 : Memref sig .tc .vmem S25000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S25000x64 .f32) (harg8 : arg8.IsWhole)
    (arg9 : Memref sig .tc .vmem S1x8x64 .f32) (harg9 : arg9.IsWhole)
    (x0 x1 : Vec F S25000x64 .f32) (w2 w3 : Vec F S64x128 .f32) (b4 : Vec F S1x128 .f32)
    (w5 : Vec F S128x64 .f32) (b6 : Vec F S1x64 .f32) (K : PUnit → sProp 𝕄) :
    iprop(owns (c : Thread nD τ) arg1 fullShare x0 ∗ owns (c : Thread nD τ) arg2 fullShare x1
        ∗ owns (c : Thread nD τ) arg3 fullShare w2 ∗ owns (c : Thread nD τ) arg4 fullShare w3
        ∗ owns (c : Thread nD τ) arg5 fullShare b4 ∗ owns (c : Thread nD τ) arg6 fullShare w5 ∗ owns (c : Thread nD τ) arg7 fullShare b6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare w2 ∗ owns (c : Thread nD τ) arg4 fullShare w3
            ∗ owns (c : Thread nD τ) arg5 fullShare b4 ∗ owns (c : Thread nD τ) arg6 fullShare w5 ∗ owns (c : Thread nD τ) arg7 fullShare b6
            ∗ owns (c : Thread nD τ) arg8 fullShare (nodeRows x0 x1 w2 w3 b4 w5 b6)
            ∗ owns (c : Thread nD τ) arg9 fullShare (nodeTile x0 x1 w2 w3 b4 w5 b6)) -∗ K ⟨⟩))
      ⊢ wp frame (wpE (defs₀ (F := F)) Variants.none c none) E
          (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    unfold nodeRows
    rw [View.read_writes_eq_canon _ _ _
        (fun y => ⟨_, List.mem_singleton_self _, View.mem_set_unit_zero nodeOff2 inb_S25000x64_S25000x64_0_0 y⟩),
      View.canon_unit_zero nodeOff2]
    simp only [View.readAt_eq_ld, View.ld_unit_zero (S := S25000x64) nodeOff2, View.ld_unit_zero (S := S64x128) nodeOff2,
      View.ld_unit_zero (S := S1x128) nodeOff2, View.ld_unit_zero (S := S128x64) nodeOff2,
      View.ld_unit_zero (S := S1x64) nodeOff2]
  iexists _; isplitr
  swap; · iexact H9
  ipureintro
  unfold nodeTile
  rw [View.read_writes_eq_canon _ _ _
      (fun y => ⟨_, List.mem_singleton_self _, View.mem_set_unit_zero nodeOff3 inb_S1x8x64_S1x8x64_0_0_0 y⟩),
    View.canon_unit_zero nodeOff3]
  simp only [View.readAt_eq_ld, View.ld_unit_zero (S := S25000x64) nodeOff2, View.ld_unit_zero (S := S64x128) nodeOff2,
    View.ld_unit_zero (S := S1x128) nodeOff2, View.ld_unit_zero (S := S128x64) nodeOff2,
    View.ld_unit_zero (S := S1x64) nodeOff2]

end Cert.KernelIdeal.Hand

end
-- ==== Proof.NodeData.lean ====
/-
  Region 1 (the node kernel over its 2 row tiles) as the pipeline sees it, at the buffer contents `V` the region is
  entered with: each window's block at a grid point, what the body leaves in every staging buffer there, and the body
  obligation at every point.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.NodeDefs
import proofs.«417691_j25598005084727_2_alg».proof.Proof.NodeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The input windows' buffers as the body finds them

An input window never idles and is not cut, and the body leaves its block in place; so wherever the body is called
the window's current buffer holds the block of the window's array at that point — fetched there, or (the weights
after the first point) still there from the fetch at the first point, the block index not having moved. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation at a point -/

/-- What the body is called with at point `t`: the invariant, the core's debt, and the nine current staging buffers,
    the windows one by one. -/
def nodePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns: the same, each buffer at what the proof data says the body leaves there. -/
def nodePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the seven inputs' buffers hold their blocks, so the body's triple on whole memrefs applies
    at those blocks; the invariant and the core's debt pass through unread. -/
theorem sound_nodeAt (c : Dev nD) (t : Fin cfg1.N) :
    nodePre V c t ⊢ wp frame (wpE (defs₀ (F := F)) Variants.none c none) Set.univ (bodyAt1 t) (fun _ => nodePost V c t) := by
  unfold nodePre nodePost bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_node c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_nodeAt V c t

end

end Cert.KernelIdeal.Hand

end
-- ==== Proof.Run.lean ====
/-
  @main from the launch to the return: a host segment per stretch of host operations and a region per kernel call, chained
  over the buffer contents `W0 … W10`; every weakly fair execution terminates without a fault, and at the end every
  unscoped buffer of the TensorCore holds what the fold `W10` says.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.KernelIdeal.Regions
import proofs.«417691_j25598005084727_2_alg».proof.Proof.RunDefs
import proofs.«417691_j25598005084727_2_alg».proof.Proof.EdgeData
import proofs.«417691_j25598005084727_2_alg».proof.Proof.NodeData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a core holds between two items of @main -/

/-- No variant is chosen, no level is assigned, no core waits on another. -/
abbrev noVar : Variants := Variants.none
abbrev noPairs : GSem nD τ sig → Finset Unit := fun _ => ∅
abbrev lvl0 : GSem nD τ sig → Unit → ℕ := fun _ _ => 0

/-- Beside its buffers a core keeps its generator register, at whatever state, and the record that it owes nothing. -/
abbrev side (c : Dev nD) : sProp 𝕄 :=
  iprop((∃ r, prngReg c r) ∗ ∃ W, owes (c : Thread nD τ) (0 : CellTallies nD τ sig Unit) W)

/-- A TensorCore buffer that no kernel region scopes is one of those a core holds between items. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A stretch of host operations, run from the contents `W c` of the unscoped buffers: it ends with them at
    `StableHlo.after ops (W c)`, the register and the empty debt untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs lvl0 :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W side

section
variable (m : (ℓ : Loc nD τ sig) → Buf (Elt F) ℓ)

/-- The exit contents of the two regions, read at the TensorCore's references. -/
abbrev E5 : (c : Dev nD) → (b : Ref sig .tc) → Buf (Elt F) ((c : Thread nD τ).loc b) := fun c b => W5 m c b
abbrev E7 : (c : Dev nD) → (b : Ref sig .tc) → Buf (Elt F) ((c : Thread nD τ).loc b) := fun c b => W7 m c b

/-- The proof data of both pipelines: the edge region's at the contents it is entered from, the node region's at its own. -/
def pdats : (p : Fin 2) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c

/-! ## The two kernel regions -/

set_option backward.isDefEq.respectTransparency.types false in
/-- THE EDGE REGION. Entered with every unscoped buffer at `W4`: its eleven arrays are taken out of them, the rest
    passes by; the register goes through the pipeline's invariant; at the exit the arrays come back at what the forty
    write-backs left, which is `W5` by its definition. -/
def reg0 : Pipeline.RegionSeg (pcfgs (F := F)) adm (pdats m) () defs₀ noVar noPairs lvl0 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ noPairs lvl0 0 fun _ _ => rfl
  pre c := iprop(StableHlo.held (c : Thread nD τ) (Pipeline.ucRefs τ sig) (W4 m c) ∗ side c)
  post c := iprop(StableHlo.held (c : Thread nD τ) (Pipeline.ucRefs τ sig) (W5 m c) ∗ side c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    have take := Pipeline.arrays_of_unscopedBufs (p := 0) (pcfgs (F := F)) adm (pdats m) launch0.win launch0.arr_whole c
      ((pdats m 0 c).share_full fun _ => rfl) (V4 m c) fun _ => rfl
    rw [Pipeline.unscopedBufs_held] at take
    rw [Pipeline.ownSems0_none]
    iintro ⟨⟨Hbufs, Hgen, Hdebt⟩, -, -⟩
    ihave Hparts := take $$ Hbufs
    icases Hparts with ⟨Harr, Hby⟩
    imodintro
    isplitl [Harr]; · iexact Harr
    isplitr
    · -- there is no prefetched table
      unfold Pipeline.prefHeld; rw [show (Finset.univ : Finset (Fin 0)) = ∅ from rfl, BI.bigSep_empty]; iempintro
    isplitl [Hdebt]
    · -- owing nothing is within any bound
      unfold Pipeline.Dat.owesAt Pipeline.owesWithin
      icases Hdebt with ⟨%S, Hdebt⟩
      iexists S
      isplitr; · ipureintro; exact fun _ _ => Or.inl trivial
      iexact Hdebt
    isplitl [Hgen]; · iexact Hgen
    iexact Hby
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have give := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (E5 m c) ((pdats m 0 c).arrAt · cfg0.N) (fun w => (W5_arr m c w).symm)
      (fun b hb => W5_of_ne m c b fun w e => hb (Finset.mem_image.mpr ⟨w, Finset.mem_univ _, e⟩))
    rw [Pipeline.unscopedBufs_held] at give
    iintro ⟨Harr, Hdebt, Hgen, Hby⟩
    imodintro
    isplitl [Harr Hby]
    · iapply give; isplitl [Harr] <;> iassumption
    isplitl [Hgen]; · iexact Hgen
    unfold Pipeline.Dat.owesAt Pipeline.owesWithin
    icases Hdebt with ⟨%S, -, Hdebt⟩
    iexists S; iexact Hdebt

set_option backward.isDefEq.respectTransparency.types false in
/-- THE NODE REGION. The same account over its nine arrays and two tiles: entered at `W6`, left at `W7`. -/
def reg1 : Pipeline.RegionSeg (pcfgs (F := F)) adm (pdats m) () defs₀ noVar noPairs lvl0 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ noPairs lvl0 1 fun _ _ => rfl
  pre c := iprop(StableHlo.held (c : Thread nD τ) (Pipeline.ucRefs τ sig) (W6 m c) ∗ side c)
  post c := iprop(StableHlo.held (c : Thread nD τ) (Pipeline.ucRefs τ sig) (W7 m c) ∗ side c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    have take := Pipeline.arrays_of_unscopedBufs (p := 1) (pcfgs (F := F)) adm (pdats m) launch1.win launch1.arr_whole c
      ((pdats m 1 c).share_full fun _ => rfl) (V6 m c) fun _ => rfl
    rw [Pipeline.unscopedBufs_held] at take
    rw [Pipeline.ownSems0_none]
    iintro ⟨⟨Hbufs, Hgen, Hdebt⟩, -, -⟩
    ihave Hparts := take $$ Hbufs
    icases Hparts with ⟨Harr, Hby⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%S, Hdebt⟩
      iexists S
      isplitr; · ipureintro; exact fun _ _ => Or.inl trivial
      iexact Hdebt
    isplitl [Hgen]; · iexact Hgen
    iexact Hby
  hin c := by
    rw [show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    have give := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (E7 m c) ((pdats m 1 c).arrAt · cfg1.N) (fun w => (W7_arr m c w).symm)
      (fun b hb => W7_of_ne m c b fun w e => hb (Finset.mem_image.mpr ⟨w, Finset.mem_univ _, e⟩))
    rw [Pipeline.unscopedBufs_held] at give
    iintro ⟨Harr, Hdebt, Hgen, Hby⟩
    imodintro
    isplitl [Harr Hby]
    · iapply give; isplitl [Harr] <;> iassumption
    isplitl [Hgen]; · iexact Hgen
    unfold Pipeline.Dat.owesAt Pipeline.owesWithin
    icases Hdebt with ⟨%S, -, Hdebt⟩
    iexists S; iexact Hdebt

/-! ## @main as ten items -/

/-- Four host stretches, the edge region, one stretch, the node region, three stretches: each host stretch starts from
    the contents the item before it left. -/
abbrev segs : List (Pipeline.Seg (pcfgs (F := F)) adm (pdats m) () defs₀ noVar noPairs lvl0) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .host (stretch hostOps0_3 hostOps0_3_sub hostOps0_3_fresh (W3 m)),
    .region (reg0 m),
    .host (stretch hostOps1 hostOps1_sub hostOps1_fresh (W5 m)),
    .region (reg1 m),
    .host (stretch hostOps2 hostOps2_sub hostOps2_fresh (W7 m)),
    .host (stretch hostOps2_1 hostOps2_1_sub hostOps2_1_fresh (W8 m)),
    .host (stretch hostOps2_2 hostOps2_2_sub hostOps2_2_fresh (W9 m)) ]

/-- @main is those ten items run one after the other. -/
theorem main_run (c : Dev nD) : main (F := F) c = Pipeline.Seg.run (segs m) := (main_chain c).trans (by chain_rfl)

end

section
variable (m : (ℓ : Loc nD τ sig) → Buf (Elt F) ℓ) (ρ : Dev nD → PrngReg)

set_option backward.isDefEq.respectTransparency.types false in
/-- THE RUN: from any memory with zero counters every weakly fair execution of @main terminates, nothing faulting, and
    every unscoped buffer ends at the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ noVar noPairs lvl0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ side c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        -- the last stretch's end, with the empty debt set apart
        show iprop(StableHlo.held (c : Thread nD τ) (Pipeline.ucRefs τ sig) (W10 m c) ∗ side c)
          ⊢ iprop((StableHlo.held (c : Thread nD τ) (Pipeline.ucRefs τ sig) (W10 m c) ∗ ∃ r, prngReg c r)
              ∗ ∃ W, owes (c : Thread nD τ) (0 : CellTallies nD τ sig Unit) W)
        iintro ⟨Hbufs, Hgen, Hdebt⟩
        isplitl [Hbufs Hgen]
        · isplitl [Hbufs] <;> iassumption
        iexact Hdebt⟩)
    (hinit := by
      refine Pipeline.initEach noPairs lvl0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hgen, -⟩, -⟩
      imodintro
      isplitl [Hbufs]; · iexact Hbufs
      isplitl [Hgen]; · iexists _; iexact Hgen
      iexists ∅; iexact Hdebt)
    (QY := fun c s => ∀ b ∈ Pipeline.ucRefs τ sig, s.mem (((c : Thread nD τ)).1, b) = W10 m c b)
    (hfin := fun c s' => by
      iintro ⟨⟨Hbufs, -⟩, Hstate⟩
      unfold StableHlo.held
      imodintro
      iapply (pointsTo_read_all (Pipeline.ucRefs τ sig) (fun b => (((c : Thread nD τ)).1, b)) (W10 m c) s')
      isplitl [Hbufs] <;> iassumption)
    (hQ := fun s h c => h c)

end

end Cert.KernelIdeal.Hand

end
-- ==== Proof.RunReads.lean ====
/-
  What the fold of buffer contents says at the buffers the claims speak of: an argument array is written by no host
  operation and is no region's output, so it ends as launched; a region's output array that nothing later writes ends at
  what the region's write-backs left.
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.KernelIdeal.Regions
import proofs.«417691_j25598005084727_2_alg».proof.Proof.RunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (c : Dev nD)

/-- A buffer that no host stretch writes and that both regions leave alone ends as launched. -/
theorem W10_keep (r : Ref sig .tc)
    (hW : r ∉ hostOps0_W ++ (hostOps0_1_W ++ (hostOps0_2_W ++ (hostOps0_3_W ++ (hostOps1_W ++ (hostOps2_W ++ (hostOps2_1_W ++ hostOps2_2_W)))))))
    (h5 : W5 m c r = W4 m c r) (h7 : W7 m c r = W6 m c r) : W10 m c r = m ((c : Thread nD τ).loc r) := by
  simp only [List.mem_append, not_or] at hW
  obtain ⟨a0, a1, a2, a3, a4, a5, a6, a7⟩ := hW
  calc W10 m c r = W9 m c r := W10_of m c r a7
    _ = W8 m c r := W9_of m c r a6
    _ = W7 m c r := W8_of m c r a5
    _ = W6 m c r := h7
    _ = W5 m c r := W6_of m c r a4
    _ = W4 m c r := h5
    _ = W3 m c r := W4_of m c r a3
    _ = W2 m c r := W3_of m c r a2
    _ = W1 m c r := W2_of m c r a1
    _ = W0 m c r := W1_of m c r a0
    _ = m ((c : Thread nD τ).loc r) := rfl

/-- The new edge rows are not touched after region 0. -/
theorem W10_v14_0 : W10 m c main_v14_0 = (dat0 (V4 m) c).arrAt 9 cfg0.N :=
  calc W10 m c main_v14_0 = W9 m c main_v14_0 := W10_of m c _ (by decide)
    _ = W8 m c main_v14_0 := W9_of m c _ (by decide)
    _ = W7 m c main_v14_0 := W8_of m c _ (by decide)
    _ = W6 m c main_v14_0 := W7_of_ne m c _ (by decide)
    _ = W5 m c main_v14_0 := W6_of m c _ (by decide)
    _ = (dat0 (V4 m) c).arrAt 9 cfg0.N := W5_arr m c 9

/-- The new node rows are not touched after region 1. -/
theorem W10_v36_0 : W10 m c main_v36_0 = (dat1 (V6 m) c).arrAt 7 cfg1.N :=
  calc W10 m c main_v36_0 = W9 m c main_v36_0 := W10_of m c _ (by decide)
    _ = W8 m c main_v36_0 := W9_of m c _ (by decide)
    _ = W7 m c main_v36_0 := W8_of m c _ (by decide)
    _ = (dat1 (V6 m) c).arrAt 7 cfg1.N := W7_arr m c 7

theorem W5_v14_0 : W5 m c main_v14_0 = (dat0 (V4 m) c).arrAt 9 cfg0.N := W5_arr m c 9
theorem W5_v14_1 : W5 m c main_v14_1 = (dat0 (V4 m) c).arrAt 10 cfg0.N := W5_arr m c 10
theorem W7_v36_1 : W7 m c main_v36_1 = (dat1 (V6 m) c).arrAt 8 cfg1.N := W7_arr m c 8
/-- Region 1 does not touch the edge totals. -/
theorem W7_v17 : W7 m c main_v17 = W6 m c main_v17 := W7_of_ne m c _ (by decide)

end

end Cert.KernelIdeal.Hand

end
-- ==== Proof.RunEnd.lean ====
/-
  The run's end, read at the buffers the claims speak of: the three results at the fold's last contents, and every
  argument array as launched (no host operation writes one, and a region only reads it through an input window).
-/
import proofs.«417691_j25598005084727_2_alg».proof.Proof.Gen.KernelIdeal.Launch
import proofs.«417691_j25598005084727_2_alg».proof.Proof.Gen.KernelIdeal.Skeleton
import proofs.«417691_j25598005084727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.KernelIdeal.Regions
import proofs.«417691_j25598005084727_2_alg».proof.Proof.Run
import proofs.«417691_j25598005084727_2_alg».proof.Proof.RunReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-- THE RUN with its results named by the fold and its arguments kept. -/
theorem run_named : θ_run defs (onTc (τ := τ) (main (F := F))) ⟨m, fun _ => 0, ρ⟩ (fun r => ∀ c : Dev nD,
      r.2.mem ((c.tc : Thread nD τ).loc main_v36_0) = W10 m c main_v36_0
      ∧ r.2.mem ((c.tc : Thread nD τ).loc main_v14_0) = W10 m c main_v14_0
      ∧ r.2.mem ((c.tc : Thread nD τ).loc main_v51) = W10 m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r hr c => ?_) (run_all (F := F) m ρ)
  have g := hr c
  exact ⟨g _ (unscoped_mem main_v36_0 (by decide)), g _ (unscoped_mem main_v14_0 (by decide)),
      g _ (unscoped_mem main_v51 (by decide)),
      (g _ (unscoped_mem main_arg0 (by decide))).trans (W10_keep m c main_arg0 (by decide) (W5_of_ne m c _ (by decide)) (W7_in m c 0 rfl)),
      (g _ (unscoped_mem main_arg1 (by decide))).trans (W10_keep m c main_arg1 (by decide) (W5_of_ne m c _ (by decide)) (W7_of_ne m c _ (by decide))),
      (g _ (unscoped_mem main_arg2 (by decide))).trans (W10_keep m c main_arg2 (by decide) (W5_in m c 2 rfl) (W7_of_ne m c _ (by decide))),
      (g _ (unscoped_mem main_arg3 (by decide))).trans (W10_keep m c main_arg3 (by decide) (W5_of_ne m c _ (by decide)) (W7_of_ne m c _ (by decide))),
      (g _ (unscoped_mem main_arg4 (by decide))).trans (W10_keep m c main_arg4 (by decide) (W5_of_ne m c _ (by decide)) (W7_of_ne m c _ (by decide))),
      (g _ (unscoped_mem main_arg5 (by decide))).trans (W10_keep m c main_arg5 (by decide) (W5_of_ne m c _ (by decide)) (W7_of_ne m c _ (by decide))),
      (g _ (unscoped_mem main_arg6 (by decide))).trans (W10_keep m c main_arg6 (by decide) (W5_in m c 7 rfl) (W7_of_ne m c _ (by decide))),
      (g _ (unscoped_mem main_arg7 (by decide))).trans (W10_keep m c main_arg7 (by decide) (W5_of_ne m c _ (by decide)) (W7_of_ne m c _ (by decide))),
      (g _ (unscoped_mem main_arg8 (by decide))).trans (W10_keep m c main_arg8 (by decide) (W5_of_ne m c _ (by decide)) (W7_of_ne m c _ (by decide))),
      (g _ (unscoped_mem main_arg9 (by decide))).trans (W10_keep m c main_arg9 (by decide) (W5_of_ne m c _ (by decide)) (W7_of_ne m c _ (by decide))),
      (g _ (unscoped_mem main_arg10 (by decide))).trans (W10_keep m c main_arg10 (by decide) (W5_of_ne m c _ (by decide)) (W7_in m c 5 rfl)),
      (g _ (unscoped_mem main_arg11 (by decide))).trans (W10_keep m c main_arg11 (by decide) (W5_of_ne m c _ (by decide)) (W7_of_ne m c _ (by decide))),
      (g _ (unscoped_mem main_arg12 (by decide))).trans (W10_keep m c main_arg12 (by decide) (W5_of_ne m c _ (by decide)) (W7_of_ne m c _ (by decide))),
      (g _ (unscoped_mem main_arg13 (by decide))).trans (W10_keep m c main_arg13 (by decide) (W5_of_ne m c _ (by decide)) (W7_of_ne m c _ (by decide))),
      (g _ (unscoped_mem main_arg14 (by decide))).trans (W10_keep m c main_arg14 (by decide) (W5_of_ne m c _ (by decide)) (W7_of_ne m c _ (by decide))),
      (g _ (unscoped_mem main_arg15 (by decide))).trans (W10_keep m c main_arg15 (by decide) (W5_of_ne m c _ (by decide)) (W7_of_ne m c _ (by decide)))⟩

/-- THE FRAME: every weakly fair execution terminates without a fault and leaves the argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r hr c => (hr c).2.2.2) (run_named m ρ)

end

end Cert.KernelIdeal.Hand

end
-- ==== Proof.Spec.lean ====
/-
  The mathematics of one graph-network layer over the extended reals, stated once, apart from any program.

  An edge's new feature row is a two-layer perceptron of the concatenation [x[row], x[col], edge_attr, global]; a node's
  new feature row is a two-layer perceptron of [x, mean of the incoming edges' new rows, global]; the new global row is a
  perceptron of [global, mean of the new node rows, mean of the new edge rows].  A product of a concatenation with a
  weight matrix is the sum of the products of its parts with the matching row blocks of the matrix, so the first layer is
  written here as that sum of partial products (`edgeHid`, `nodeHid`).  A column sum over all rows is the sum over row
  tiles of the tiles' column sums, and a tile's column sum may be stored as eight equal eighths (`tilesOf`).
-/
import Idealize.ShloMosaic.PureOps.Ideal
import Idealize.ShloMosaic.Lib.ValueIdx

noncomputable section

open scoped BigOperators

namespace Cert.Spec

open Idealize.ShloMosaic Idealize.ShloMosaic.ValueIdx

/-- A float array read over the extended reals. -/
abbrev Arr (s : Shape) : Type := s.Idx → EReal
/-- An array of 32-bit integers. -/
abbrev Arr' (s : Shape) : Type := s.Idx → BitVec 32

abbrev sh1 (a : Nat) : Shape := ⟨1, ![a]⟩
abbrev sh2 (a b : Nat) : Shape := ⟨2, ![a, b]⟩
abbrev sh3 (a b c : Nat) : Shape := ⟨3, ![a, b, c]⟩

/-- The words of the constants both programs carry: `0.0`, `1.0`, `8.0`. -/
abbrev c0 : EReal := Ideal.ofBits .f32 0x00000000#32
abbrev c1 : EReal := Ideal.ofBits .f32 0x3F800000#32
abbrev c8 : EReal := Ideal.ofBits .f32 0x41000000#32

/-- The second layer on a hidden row: the rectified hidden row times `W2`, plus the bias. -/
def layer2 {R : Nat} (h : Fin R → Fin 128 → EReal) (W2 : Arr (sh2 128 64)) (b2 : Fin 64 → EReal) : Arr (sh2 R 64) :=
  fun i => (∑ k : Fin 128, max (h (i 0) k) c0 * W2 (ix2 k (i 1))) + b2 (i 1)

/-! ## The kernels' form: row blocks of the first weight matrix as separate operands, the bias a row vector -/

/-- Edge hidden row, three partial products and an (effective) bias row. -/
def edgeHidK {R : Nat} (xr xc ea : Arr (sh2 R 64)) (w3 w4 w5 : Arr (sh2 64 128)) (b6 : Arr (sh2 1 128)) :
    Fin R → Fin 128 → EReal :=
  fun e j => (((∑ k : Fin 64, xr (ix2 e k) * w3 (ix2 k j)) + (∑ k : Fin 64, xc (ix2 e k) * w4 (ix2 k j)))
    + (∑ k : Fin 64, ea (ix2 e k) * w5 (ix2 k j))) + b6 (ix2 0 j)

/-- The edge perceptron on `R` rows, in the kernel's form. -/
def edgeK {R : Nat} (xr xc ea : Arr (sh2 R 64)) (w3 w4 w5 : Arr (sh2 64 128)) (b6 : Arr (sh2 1 128))
    (W2 : Arr (sh2 128 64)) (b8 : Arr (sh2 1 64)) : Arr (sh2 R 64) :=
  layer2 (edgeHidK xr xc ea w3 w4 w5 b6) W2 (fun f => b8 (ix2 0 f))

/-- Node hidden row, two partial products and an (effective) bias row. -/
def nodeHidK {R : Nat} (x ag : Arr (sh2 R 64)) (w2 w3 : Arr (sh2 64 128)) (b4 : Arr (sh2 1 128)) :
    Fin R → Fin 128 → EReal :=
  fun n j => ((∑ k : Fin 64, x (ix2 n k) * w2 (ix2 k j)) + (∑ k : Fin 64, ag (ix2 n k) * w3 (ix2 k j))) + b4 (ix2 0 j)

/-- The node perceptron on `R` rows, in the kernel's form. -/
def nodeK {R : Nat} (x ag : Arr (sh2 R 64)) (w2 w3 : Arr (sh2 64 128)) (b4 : Arr (sh2 1 128))
    (W2 : Arr (sh2 128 64)) (b6 : Arr (sh2 1 64)) : Arr (sh2 R 64) :=
  layer2 (nodeHidK x ag w2 w3 b4) W2 (fun f => b6 (ix2 0 f))

/-- A block's column sums, stored as eight equal eighths (what a grid point writes into its private slot). -/
def tileK {B : Nat} (blk : Arr (sh2 B 64)) : Arr (sh3 1 8 64) :=
  fun i => Ideal.div (∑ r : Fin B, blk (ix2 r (i 2))) c8

theorem tile_lt {T B t r : Nat} (ht : t < T) (hr : r < B) : t * B + r < T * B :=
  calc t * B + r < t * B + B := by omega
    _ = (t + 1) * B := by ring
    _ ≤ T * B := Nat.mul_le_mul_right B ht

/-- All tiles' slots: slot `(t, s)` holds an eighth of tile `t`'s column sums. -/
def tilesOf (T B : Nat) {R : Nat} (hR : T * B = R) (a : Arr (sh2 R 64)) : Arr (sh3 T 8 64) :=
  fun i => Ideal.div (∑ r : Fin B, a (ix2 ⟨(i 0).val * B + r.val, hR ▸ tile_lt (i 0).isLt r.isLt⟩ (i 2))) c8

/-! ## The reference's form: whole weight matrices, the global row broadcast, bias vectors -/

/-- Edge hidden row over the whole first weight matrix `[256, 128]`: rows 0–63 meet `x[row]`, 64–127 `x[col]`,
    128–191 the edge's own features, 192–255 the global row. -/
def edgeHid {R : Nat} (xr xc ea : Arr (sh2 R 64)) (g : Arr (sh2 1 64)) (W1 : Arr (sh2 256 128)) (b1 : Arr (sh1 128)) :
    Fin R → Fin 128 → EReal :=
  fun e j => ((((∑ k : Fin 64, xr (ix2 e k) * W1 (ix2 ⟨k.val, by omega⟩ j))
      + (∑ k : Fin 64, xc (ix2 e k) * W1 (ix2 ⟨64 + k.val, by omega⟩ j)))
      + (∑ k : Fin 64, ea (ix2 e k) * W1 (ix2 ⟨128 + k.val, by omega⟩ j)))
      + (∑ k : Fin 64, g (ix2 0 k) * W1 (ix2 ⟨192 + k.val, by omega⟩ j))) + b1 (ix1 j)

/-- The edge perceptron. -/
def edgeMLP {R : Nat} (xr xc ea : Arr (sh2 R 64)) (g : Arr (sh2 1 64)) (W1 : Arr (sh2 256 128)) (b1 : Arr (sh1 128))
    (W2 : Arr (sh2 128 64)) (b2 : Arr (sh1 64)) : Arr (sh2 R 64) :=
  layer2 (edgeHid xr xc ea g W1 b1) W2 (fun f => b2 (ix1 f))

/-- Node hidden row over the whole first weight matrix `[192, 128]`. -/
def nodeHid {R : Nat} (x ag : Arr (sh2 R 64)) (g : Arr (sh2 1 64)) (W1 : Arr (sh2 192 128)) (b1 : Arr (sh1 128)) :
    Fin R → Fin 128 → EReal :=
  fun n j => (((∑ k : Fin 64, x (ix2 n k) * W1 (ix2 ⟨k.val, by omega⟩ j))
      + (∑ k : Fin 64, ag (ix2 n k) * W1 (ix2 ⟨64 + k.val, by omega⟩ j)))
      + (∑ k : Fin 64, g (ix2 0 k) * W1 (ix2 ⟨128 + k.val, by omega⟩ j))) + b1 (ix1 j)

/-- The node perceptron. -/
def nodeMLP {R : Nat} (x ag : Arr (sh2 R 64)) (g : Arr (sh2 1 64)) (W1 : Arr (sh2 192 128)) (b1 : Arr (sh1 128))
    (W2 : Arr (sh2 128 64)) (b2 : Arr (sh1 64)) : Arr (sh2 R 64) :=
  layer2 (nodeHid x ag g W1 b1) W2 (fun f => b2 (ix1 f))

/-- The mean over a node's incoming edges (those whose receiver index, read signed, is the node): the sum of their rows
    over the larger of their number and one; sum and count both start from the zero word. -/
def aggMean {R N : Nat} (col : Fin R → Int) (a : Arr (sh2 R 64)) : Arr (sh2 N 64) :=
  fun i => Ideal.div (c0 + ∑ e ∈ Finset.univ.filter (fun e : Fin R => col e = ((i 0).val : Int)), a (ix2 e (i 1)))
    (max (c0 + ∑ _e ∈ Finset.univ.filter (fun e : Fin R => col e = ((i 0).val : Int)), c1) c1)

/-- The column sums of all rows, from the zero word. -/
def colTotal {R : Nat} (a : Arr (sh2 R 64)) : Arr (sh1 64) := fun i => c0 + ∑ e : Fin R, a (ix2 e (i 0))

/-! ## Rows picked by index, the global perceptron, and the whole layer -/

/-- An index as `x[idx]` reads it: a negative one counted from the end. -/
def wrapIdx (ei : Arr' (sh2 2 800000)) (k : Fin 2) : Fin 800000 → BitVec 32 :=
  fun e => Scalar.select (IntOp.cmpi .slt (ei (ix2 k e)) 0#32) (IntOp.addi (ei (ix2 k e)) 50000#32) (ei (ix2 k e))

/-- The rows of `x` at the indices `ri`, each read signed and clamped into the array. -/
def gatherClamp (x : Arr (sh2 50000 64)) (ri : Fin 800000 → BitVec 32) : Arr (sh2 800000 64) :=
  fun i => x (ix2 ⟨min (ri (i 0)).toInt.toNat (50000 - 1), by omega⟩ (i 1))

/-- A row of column totals over a count. -/
def meanRow (tot : Arr (sh1 64)) (cnt : EReal) : Arr (sh2 1 64) := fun i => Ideal.div (tot (ix1 (i 1))) cnt

/-- Three 64-wide rows side by side. -/
def cat3 (g mx me : Arr (sh2 1 64)) : Fin 192 → EReal :=
  fun k => if h : k.val < 64 then g (ix2 0 ⟨k.val, h⟩)
    else if h2 : k.val < 128 then mx (ix2 0 ⟨k.val - 64, by omega⟩) else me (ix2 0 ⟨k.val - 128, by omega⟩)

/-- The global perceptron on the one row [global, mean of nodes, mean of edges]. -/
def globalMLP (g mx me : Arr (sh2 1 64)) (W1 : Arr (sh2 192 128)) (b1 : Arr (sh1 128)) (W2 : Arr (sh2 128 64))
    (b2 : Arr (sh1 64)) : Arr (sh2 1 64) :=
  fun i => (∑ k : Fin 128, max ((∑ q : Fin 192, cat3 g mx me q * W1 (ix2 q k)) + b1 (ix1 k)) c0 * W2 (ix2 k (i 1)))
    + b2 (ix1 (i 1))

abbrev c50000 : EReal := Ideal.ofBits .f32 0x47435000#32
abbrev c800000 : EReal := Ideal.ofBits .f32 0x49435000#32

/-- The receiver index of edge `e`, read signed. -/
def colInt (ei : Arr' (sh2 2 800000)) : Fin 800000 → Int := fun e => (ei (ix2 1 e)).toInt

section Layer
variable (x : Arr (sh2 50000 64)) (ei : Arr' (sh2 2 800000)) (ea : Arr (sh2 800000 64)) (g : Arr (sh2 1 64))
  (eW1 : Arr (sh2 256 128)) (eb1 : Arr (sh1 128)) (eW2 : Arr (sh2 128 64)) (eb2 : Arr (sh1 64))
  (nW1 : Arr (sh2 192 128)) (nb1 : Arr (sh1 128)) (nW2 : Arr (sh2 128 64)) (nb2 : Arr (sh1 64))
  (gW1 : Arr (sh2 192 128)) (gb1 : Arr (sh1 128)) (gW2 : Arr (sh2 128 64)) (gb2 : Arr (sh1 64))

/-- The layer's new edge rows. -/
def newEdge : Arr (sh2 800000 64) :=
  edgeMLP (gatherClamp x (wrapIdx ei 0)) (gatherClamp x (wrapIdx ei 1)) ea g eW1 eb1 eW2 eb2

/-- The layer's new node rows. -/
def newNode : Arr (sh2 50000 64) :=
  nodeMLP x (aggMean (colInt ei) (newEdge x ei ea g eW1 eb1 eW2 eb2)) g nW1 nb1 nW2 nb2

/-- The layer's new global row. -/
def newGlobal : Arr (sh2 1 64) :=
  globalMLP g (meanRow (colTotal (newNode x ei ea g eW1 eb1 eW2 eb2 nW1 nb1 nW2 nb2)) c50000)
    (meanRow (colTotal (newEdge x ei ea g eW1 eb1 eW2 eb2)) c800000) gW1 gb1 gW2 gb2

end Layer

/-! ## The two forms agree -/

/-- The effective bias row: the bias plus the global row's partial product with rows `o …` of the first matrix. -/
def biasEff {K : Nat} (o : Nat) (ho : o + 64 ≤ K) (g : Arr (sh2 1 64)) (W1 : Arr (sh2 K 128)) (b1 : Arr (sh1 128)) :
    Arr (sh2 1 128) :=
  fun i => b1 (ix1 (i 1)) + ∑ k : Fin 64, g (ix2 0 k) * W1 (ix2 ⟨o + k.val, by omega⟩ (i 1))

/-- Rows `o … o+63` of a matrix. -/
def rows64 {K : Nat} (o : Nat) (ho : o + 64 ≤ K) (W1 : Arr (sh2 K 128)) : Arr (sh2 64 128) :=
  fun i => W1 (ix2 ⟨o + (i 0).val, by have := idx2_lt0 i; omega⟩ (i 1))

/-- A bias vector as a row. -/
def asRow {n : Nat} (b : Arr (sh1 n)) : Arr (sh2 1 n) := fun i => b (ix1 (i 1))

end Cert.Spec

end
-- ==== Proof.SpecMore.lean ====
/-
  Two more pieces of the layer's mathematics: the total a host makes of a kernel's tile sums, and the index range of the
  edge list.
-/
import proofs.«417691_j25598005084727_2_alg».proof.Proof.Spec

noncomputable section

open scoped BigOperators

namespace Cert.Spec

open Idealize.ShloMosaic Idealize.ShloMosaic.ValueIdx

/-- The total over all tiles' eight slots, from the zero word. -/
def totTiles {T : Nat} (a : Arr (sh3 T 8 64)) : Arr (sh1 64) := fun i => c0 + ∑ t : Fin T, ∑ s : Fin 8, a (ix3 t s (i 0))

/-- Every edge index names a node. -/
def InRange (ei : Arr' (sh2 2 800000)) : Prop :=
  ∀ (k : Fin 2) (e : Fin 800000), 0 ≤ (ei (ix2 k e)).toInt ∧ (ei (ix2 k e)).toInt < 50000

end Cert.Spec

end
-- ==== Proof.ValDefs.lean ====
/-
  The argument arrays of the idealized kernel read as arrays over the extended reals, the precondition's index range,
  and the totals of a tile-sum array.
-/
import proofs.«417691_j25598005084727_2_alg».proof.Proof.RunDefs
import proofs.«417691_j25598005084727_2_alg».proof.Proof.Spec
import proofs.«417691_j25598005084727_2_alg».proof.Proof.SpecMore

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

section
variable (m : (ℓ : Loc nD τ sig) → Buf (Elt Ideal) ℓ) (c : Dev nD)

abbrev aX : Arr (sh2 50000 64) := m ((c.tc : Thread nD τ).loc main_arg0)
abbrev aEI : Arr' (sh2 2 800000) := m ((c.tc : Thread nD τ).loc main_arg1)
abbrev aEA : Arr (sh2 800000 64) := m ((c.tc : Thread nD τ).loc main_arg2)
abbrev aG : Arr (sh2 1 64) := m ((c.tc : Thread nD τ).loc main_arg3)
abbrev aEW1 : Arr (sh2 256 128) := m ((c.tc : Thread nD τ).loc main_arg4)
abbrev aEB1 : Arr (sh1 128) := m ((c.tc : Thread nD τ).loc main_arg5)
abbrev aEW2 : Arr (sh2 128 64) := m ((c.tc : Thread nD τ).loc main_arg6)
abbrev aEB2 : Arr (sh1 64) := m ((c.tc : Thread nD τ).loc main_arg7)
abbrev aNW1 : Arr (sh2 192 128) := m ((c.tc : Thread nD τ).loc main_arg8)
abbrev aNB1 : Arr (sh1 128) := m ((c.tc : Thread nD τ).loc main_arg9)
abbrev aNW2 : Arr (sh2 128 64) := m ((c.tc : Thread nD τ).loc main_arg10)
abbrev aNB2 : Arr (sh1 64) := m ((c.tc : Thread nD τ).loc main_arg11)
abbrev aGW1 : Arr (sh2 192 128) := m ((c.tc : Thread nD τ).loc main_arg12)
abbrev aGB1 : Arr (sh1 128) := m ((c.tc : Thread nD τ).loc main_arg13)
abbrev aGW2 : Arr (sh2 128 64) := m ((c.tc : Thread nD τ).loc main_arg14)
abbrev aGB2 : Arr (sh1 64) := m ((c.tc : Thread nD τ).loc main_arg15)

end

end Cert.KernelIdeal.Val

end
-- ==== Proof.EdgeValue.lean ====
/-
  What region 0 leaves in its two output arrays, at the ideal instance: the new edge rows of the whole edge list (tile
  `t` writes rows `20000 t … 20000 t + 19999`, and a row depends only on its own row of each row-wise operand), and in
  slot `(t, s)` of the tile sums an eighth of tile `t`'s column sums.
-/
import proofs.«417691_j25598005084727_2_alg».proof.Proof.RunDefs
import proofs.«417691_j25598005084727_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

namespace Edge

/-! ## The two matrix products at an index

  With a zero accumulator a product of an `[R, K]` block with a `[K, n]` matrix is, at `(r, j)`, the sum over `k` of
  the block's `(r, k)` times the matrix's `(k, j)`: the contraction index has one coordinate, the left operand is read at
  the result's row and that coordinate, the right one at that coordinate and the result's column. -/

theorem lhs_in_0 (i : S20000x128.Idx) (q : dot_S20000x64_S64x128_S20000x128_1_0_0_1_n_n.contr.Idx) :
    (dot_S20000x64_S64x128_S20000x128_1_0_0_1_n_n.lhsIdx i q 0).val = (i 0).val := by
  unfold DotDims.lhsIdx
  rw [dif_neg (show ¬(0 : Fin S20000x64.rank) ∈ dot_S20000x64_S64x128_S20000x128_1_0_0_1_n_n.lhsBatch by decide), dif_pos (show (0 : Fin S20000x64.rank) ∈ dot_S20000x64_S64x128_S20000x128_1_0_0_1_n_n.lhsNonContracting by decide)]
  rfl
theorem lhs_in_1 (i : S20000x128.Idx) (q : dot_S20000x64_S64x128_S20000x128_1_0_0_1_n_n.contr.Idx) :
    (dot_S20000x64_S64x128_S20000x128_1_0_0_1_n_n.lhsIdx i q 1).val = (q ⟨0, by decide⟩).val :=
  dot_S20000x64_S64x128_S20000x128_1_0_0_1_n_n.lhsIdx_val_of_single rfl i q
theorem rhs_in_0 (i : S20000x128.Idx) (q : dot_S20000x64_S64x128_S20000x128_1_0_0_1_n_n.contr.Idx) :
    (dot_S20000x64_S64x128_S20000x128_1_0_0_1_n_n.rhsIdx i q 0).val = (q ⟨0, by decide⟩).val :=
  dot_S20000x64_S64x128_S20000x128_1_0_0_1_n_n.rhsIdx_val_of_single rfl i q
theorem rhs_in_1 (i : S20000x128.Idx) (q : dot_S20000x64_S64x128_S20000x128_1_0_0_1_n_n.contr.Idx) :
    (dot_S20000x64_S64x128_S20000x128_1_0_0_1_n_n.rhsIdx i q 1).val = (i 1).val := by
  unfold DotDims.rhsIdx
  rw [dif_neg (show ¬(1 : Fin S64x128.rank) ∈ dot_S20000x64_S64x128_S20000x128_1_0_0_1_n_n.rhsBatch by decide), dif_pos (show (1 : Fin S64x128.rank) ∈ dot_S20000x64_S64x128_S20000x128_1_0_0_1_n_n.rhsNonContracting by decide)]
  rfl

/-- A `[20000, 64]` block times a `[64, 128]` matrix, at `(r, j)`. -/
theorem mm_in_apply (lhs : FVec Ideal S20000x64 .f32) (rhs : FVec Ideal S64x128 .f32) (r : Fin 20000) (j : Fin 128) :
    matmul dot_S20000x64_S64x128_S20000x128_1_0_0_1_n_n none lhs rhs (constant (F := Ideal) S20000x128 .f32 0x00000000#32) (ix2 r j)
      = ∑ k : Fin 64, lhs (ix2 r k) * rhs (ix2 k j) := by
  refine (Ideal.matmul_constant_zero_apply dot_S20000x64_S64x128_S20000x128_1_0_0_1_n_n none lhs rhs (ix2 r j)).trans ?_
  rw [← Equiv.sum_comp (contrEquiv1 dot_S20000x64_S64x128_S20000x128_1_0_0_1_n_n 64 rfl rfl).symm]
  refine Finset.sum_congr rfl fun k _ => ?_
  have hk := contrEquiv1_symm_val dot_S20000x64_S64x128_S20000x128_1_0_0_1_n_n 64 rfl rfl k
  have el : dot_S20000x64_S64x128_S20000x128_1_0_0_1_n_n.lhsIdx (ix2 r j) ((contrEquiv1 dot_S20000x64_S64x128_S20000x128_1_0_0_1_n_n 64 rfl rfl).symm k) = ix2 r k := funext fun a => Fin.ext (by
    match a with
    | ⟨0, _⟩ => exact lhs_in_0 _ _
    | ⟨1, _⟩ => exact (lhs_in_1 _ _).trans hk)
  have er : dot_S20000x64_S64x128_S20000x128_1_0_0_1_n_n.rhsIdx (ix2 r j) ((contrEquiv1 dot_S20000x64_S64x128_S20000x128_1_0_0_1_n_n 64 rfl rfl).symm k) = ix2 k j := funext fun a => Fin.ext (by
    match a with
    | ⟨0, _⟩ => exact (rhs_in_0 _ _).trans hk
    | ⟨1, _⟩ => exact rhs_in_1 _ _)
  rw [el, er]

theorem lhs_out_0 (i : S20000x64.Idx) (q : dot_S20000x128_S128x64_S20000x64_1_0_0_1_n_n.contr.Idx) :
    (dot_S20000x128_S128x64_S20000x64_1_0_0_1_n_n.lhsIdx i q 0).val = (i 0).val := by
  unfold DotDims.lhsIdx
  rw [dif_neg (show ¬(0 : Fin S20000x128.rank) ∈ dot_S20000x128_S128x64_S20000x64_1_0_0_1_n_n.lhsBatch by decide), dif_pos (show (0 : Fin S20000x128.rank) ∈ dot_S20000x128_S128x64_S20000x64_1_0_0_1_n_n.lhsNonContracting by decide)]
  rfl
theorem lhs_out_1 (i : S20000x64.Idx) (q : dot_S20000x128_S128x64_S20000x64_1_0_0_1_n_n.contr.Idx) :
    (dot_S20000x128_S128x64_S20000x64_1_0_0_1_n_n.lhsIdx i q 1).val = (q ⟨0, by decide⟩).val :=
  dot_S20000x128_S128x64_S20000x64_1_0_0_1_n_n.lhsIdx_val_of_single rfl i q
theorem rhs_out_0 (i : S20000x64.Idx) (q : dot_S20000x128_S128x64_S20000x64_1_0_0_1_n_n.contr.Idx) :
    (dot_S20000x128_S128x64_S20000x64_1_0_0_1_n_n.rhsIdx i q 0).val = (q ⟨0, by decide⟩).val :=
  dot_S20000x128_S128x64_S20000x64_1_0_0_1_n_n.rhsIdx_val_of_single rfl i q
theorem rhs_out_1 (i : S20000x64.Idx) (q : dot_S20000x128_S128x64_S20000x64_1_0_0_1_n_n.contr.Idx) :
    (dot_S20000x128_S128x64_S20000x64_1_0_0_1_n_n.rhsIdx i q 1).val = (i 1).val := by
  unfold DotDims.rhsIdx
  rw [dif_neg (show ¬(1 : Fin S128x64.rank) ∈ dot_S20000x128_S128x64_S20000x64_1_0_0_1_n_n.rhsBatch by decide), dif_pos (show (1 : Fin S128x64.rank) ∈ dot_S20000x128_S128x64_S20000x64_1_0_0_1_n_n.rhsNonContracting by decide)]
  rfl

/-- A `[20000, 128]` block times a `[128, 64]` matrix, at `(r, f)`. -/
theorem mm_out_apply (lhs : FVec Ideal S20000x128 .f32) (rhs : FVec Ideal S128x64 .f32) (r : Fin 20000) (f : Fin 64) :
    matmul dot_S20000x128_S128x64_S20000x64_1_0_0_1_n_n none lhs rhs (constant (F := Ideal) S20000x64 .f32 0x00000000#32) (ix2 r f)
      = ∑ k : Fin 128, lhs (ix2 r k) * rhs (ix2 k f) := by
  refine (Ideal.matmul_constant_zero_apply dot_S20000x128_S128x64_S20000x64_1_0_0_1_n_n none lhs rhs (ix2 r f)).trans ?_
  rw [← Equiv.sum_comp (contrEquiv1 dot_S20000x128_S128x64_S20000x64_1_0_0_1_n_n 128 rfl rfl).symm]
  refine Finset.sum_congr rfl fun k _ => ?_
  have hk := contrEquiv1_symm_val dot_S20000x128_S128x64_S20000x64_1_0_0_1_n_n 128 rfl rfl k
  have el : dot_S20000x128_S128x64_S20000x64_1_0_0_1_n_n.lhsIdx (ix2 r f) ((contrEquiv1 dot_S20000x128_S128x64_S20000x64_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S20000x128_S128x64_S20000x64_1_0_0_1_n_n.rhsIdx (ix2 r f) ((contrEquiv1 dot_S20000x128_S128x64_S20000x64_1_0_0_1_n_n 128 rfl rfl).symm k) = ix2 k f := funext fun a => Fin.ext (by
    match a with
    | ⟨0, _⟩ => exact (rhs_out_0 _ _).trans hk
    | ⟨1, _⟩ => exact rhs_out_1 _ _)
  rw [el, er]

/-! ## The body's payloads at an index -/

/-- The rows the body stores, at `(r, f)`: the edge perceptron of the block's row `r`, column `f`. -/
theorem rows_apply (x0 x1 x2 : Vec Ideal S20000x64 .f32) (w3 w4 w5 : Vec Ideal S64x128 .f32) (b6 : Vec Ideal S1x128 .f32)
    (w7 : Vec Ideal S128x64 .f32) (b8 : Vec Ideal S1x64 .f32) (r : Fin 20000) (f : Fin 64) :
    k0_pay2 x0 x1 x2 w3 w4 w5 b6 w7 b8 (ix2 r f) = edgeK (R := 20000) x0 x1 x2 w3 w4 w5 b6 w7 b8 (ix2 r f) := by
  unfold k0_pay2
  simp only [shapeCast_self, addf_apply, maximumf_apply, broadcast_apply, mm_out_apply, mm_in_apply, broadcastTo_1b_ab_apply]
  rfl

/-- A column's sum over the block's rows: the reduction over the row axis, read at column `f`. -/
theorem colsum_apply (src : FVec Ideal S20000x64 .f32) (f : Fin 64) :
    multiReduction (F := Ideal) .add [0] S64 src 0x00000000#32 reduces_S20000x64_S64 (.inl rfl) rfl (ix1 f)
      = ∑ r : Fin 20000, src (ix2 r f) := by
  refine (Ideal.multiReduction_add_single src 0x00000000#32 reduces_S20000x64_S64 (.inl rfl) rfl (ix1 f)).trans ?_
  show (∑ r : Fin 20000, src (reduces_S20000x64_S64.lift (ix1 f) r)) = _
  refine Finset.sum_congr rfl fun r _ => congrArg src (funext fun a => Fin.ext ?_)
  match a with
  | ⟨0, _⟩ => rfl
  | ⟨1, _⟩ => rfl

/-- The column sums the body carries to its second store, as one row. -/
theorem colsums_apply (x0 x1 x2 : Vec Ideal S20000x64 .f32) (w3 w4 w5 : Vec Ideal S64x128 .f32) (b6 : Vec Ideal S1x128 .f32)
    (w7 : Vec Ideal S128x64 .f32) (b8 : Vec Ideal S1x64 .f32) (u : Fin 1) (f : Fin 64) :
    k0_pay3 x0 x1 x2 w3 w4 w5 b6 w7 b8 (ix2 u f) = ∑ r : Fin 20000, k0_pay2 x0 x1 x2 w3 w4 w5 b6 w7 b8 (ix2 r f) := by
  unfold k0_pay3
  exact (shapeCast_a_1a_apply _ _ u f).trans (colsum_apply _ f)

/-- What the body stores into the tile's slot, at `(u, s, f)`: an eighth of column `f`'s sum, whatever the row `s`. -/
theorem tile_apply (x0 x1 x2 : Vec Ideal S20000x64 .f32) (w3 w4 w5 : Vec Ideal S64x128 .f32) (b6 : Vec Ideal S1x128 .f32)
    (w7 : Vec Ideal S128x64 .f32) (b8 : Vec Ideal S1x64 .f32) (u : Fin 1) (s : Fin 8) (f : Fin 64) :
    edgeTile x0 x1 x2 w3 w4 w5 b6 w7 b8 (ix3 u s f) = tileK (edgeK (R := 20000) x0 x1 x2 w3 w4 w5 b6 w7 b8) (ix3 u s f) := by
  unfold edgeTile k0_pay1
  refine (broadcastTo_apply _ _ (ix3 u s f) (ix3 (0 : Fin 1) (0 : Fin 1) f) (fun a => ?_)).trans ?_
  · match a with
    | ⟨0, _⟩ => rfl
    | ⟨1, _⟩ => rfl
    | ⟨2, _⟩ => rfl
  refine (congrFun (shapeCast_self _ _) _).trans ?_
  refine (shapeCast_ab_1ab_apply _ _ (0 : Fin 1) (0 : Fin 1) f).trans ?_
  refine (divf_apply _ _ _).trans ?_
  refine congrArg₂ Ideal.div ((colsums_apply x0 x1 x2 w3 w4 w5 b6 w7 b8 (0 : Fin 1) f).trans ?_) rfl
  exact Finset.sum_congr rfl fun r _ => rows_apply x0 x1 x2 w3 w4 w5 b6 w7 b8 r f

/-! ## The perceptron's rows depend on their own row only

  Row `e` of the perceptron reads row `e` of each row-wise operand and all of each weight operand, so two sets of
  operands that agree there give the same row. -/

theorem edgeK_congr {R R' : Nat} (xr xc ea : Arr (sh2 R 64)) (w3 w4 w5 : Arr (sh2 64 128)) (b6 : Arr (sh2 1 128))
    (W2 : Arr (sh2 128 64)) (b8 : Arr (sh2 1 64)) (xr' xc' ea' : Arr (sh2 R' 64)) (w3' w4' w5' : Arr (sh2 64 128))
    (b6' : Arr (sh2 1 128)) (W2' : Arr (sh2 128 64)) (b8' : Arr (sh2 1 64)) (e : Fin R) (e' : Fin R') (f : Fin 64)
    (h0 : ∀ k : Fin 64, xr (ix2 e k) = xr' (ix2 e' k)) (h1 : ∀ k : Fin 64, xc (ix2 e k) = xc' (ix2 e' k))
    (h2 : ∀ k : Fin 64, ea (ix2 e k) = ea' (ix2 e' k))
    (h3 : ∀ (k : Fin 64) (j : Fin 128), w3 (ix2 k j) = w3' (ix2 k j))
    (h4 : ∀ (k : Fin 64) (j : Fin 128), w4 (ix2 k j) = w4' (ix2 k j))
    (h5 : ∀ (k : Fin 64) (j : Fin 128), w5 (ix2 k j) = w5' (ix2 k j))
    (h6 : ∀ j : Fin 128, b6 (ix2 0 j) = b6' (ix2 0 j))
    (h7 : ∀ (k : Fin 128) (g : Fin 64), W2 (ix2 k g) = W2' (ix2 k g))
    (h8 : ∀ g : Fin 64, b8 (ix2 0 g) = b8' (ix2 0 g)) :
    edgeK xr xc ea w3 w4 w5 b6 W2 b8 (ix2 e f) = edgeK xr' xc' ea' w3' w4' w5' b6' W2' b8' (ix2 e' f) := by
  show (∑ k : Fin 128, max ((((∑ q : Fin 64, xr (ix2 e q) * w3 (ix2 q k)) + (∑ q : Fin 64, xc (ix2 e q) * w4 (ix2 q k)))
        + (∑ q : Fin 64, ea (ix2 e q) * w5 (ix2 q k))) + b6 (ix2 0 k)) c0 * W2 (ix2 k f)) + b8 (ix2 0 f)
      = (∑ k : Fin 128, max ((((∑ q : Fin 64, xr' (ix2 e' q) * w3' (ix2 q k)) + (∑ q : Fin 64, xc' (ix2 e' q) * w4' (ix2 q k)))
        + (∑ q : Fin 64, ea' (ix2 e' q) * w5' (ix2 q k))) + b6' (ix2 0 k)) c0 * W2' (ix2 k f)) + b8' (ix2 0 f)
  simp only [h0, h1, h2, h3, h4, h5, h6, h7, h8]

/-! ## The grid's index maps, decided once over the forty points

  Point `t` takes block `t` along the rows of the three row-wise operands and of the new rows, slot `t` of the tile sums,
  and block zero (the whole array) of every weight operand. -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = t.val ∧ win0_9.index t (1 : Fin 2) = 0 :=
  (by decide +kernel : ∀ t : Fin grid0.N, _)
theorem idx_w10 : ∀ t : Fin cfg0.N, win0_10.index t (0 : Fin 3) = t.val ∧ win0_10.index t (1 : Fin 3) = 0
    ∧ win0_10.index t (2 : Fin 3) = 0 :=
  (by decide +kernel : ∀ t : Fin grid0.N, _)

theorem pt_lt (t : Fin cfg0.N) : t.val < 40 := lt_of_lt_of_eq t.isLt N_0

section
variable (V : (c : Dev nD) → (b : Ref sig .tc) → Buf (Elt Ideal) ((c : Thread nD τ).loc b)) (c : Dev nD)

/-! ## Each input block against its array -/

/-- A block of a row-wise operand at point `t` is rows `20000 t …` of its array. -/
theorem blk0_apply (t : Fin cfg0.N) (r : Fin 20000) (k : Fin 64) (R : Fin 800000) (hR : R.val = t.val * 20000 + r.val) :
    (iblk0 V c 0 t : Vec Ideal S20000x64 .f32) (ix2 r k) = (V c main_v4 : Arr (sh2 800000 64)) (ix2 R k) := by
  obtain ⟨e0, e1⟩ := idx_w0 t
  show V c main_v4 (((cfg0.win 0).blk t).view.emb (ix2 r k)) = V c main_v4 (ix2 R k)
  refine congrArg (V c main_v4) (funext fun a => Fin.ext ?_)
  match a with
  | ⟨0, _⟩ => show win0_0.index t (0 : Fin 2) * 20000 + 1 * r.val = R.val; omega
  | ⟨1, _⟩ => show win0_0.index t (1 : Fin 2) * 64 + 1 * k.val = k.val; omega

theorem blk1_apply (t : Fin cfg0.N) (r : Fin 20000) (k : Fin 64) (R : Fin 800000) (hR : R.val = t.val * 20000 + r.val) :
    (iblk0 V c 1 t : Vec Ideal S20000x64 .f32) (ix2 r k) = (V c main_v5 : Arr (sh2 800000 64)) (ix2 R k) := by
  obtain ⟨e0, e1⟩ := idx_w1 t
  show V c main_v5 (((cfg0.win 1).blk t).view.emb (ix2 r k)) = V c main_v5 (ix2 R k)
  refine congrArg (V c main_v5) (funext fun a => Fin.ext ?_)
  match a with
  | ⟨0, _⟩ => show win0_1.index t (0 : Fin 2) * 20000 + 1 * r.val = R.val; omega
  | ⟨1, _⟩ => show win0_1.index t (1 : Fin 2) * 64 + 1 * k.val = k.val; omega

theorem blk2_apply (t : Fin cfg0.N) (r : Fin 20000) (k : Fin 64) (R : Fin 800000) (hR : R.val = t.val * 20000 + r.val) :
    (iblk0 V c 2 t : Vec Ideal S20000x64 .f32) (ix2 r k) = (V c main_arg2 : Arr (sh2 800000 64)) (ix2 R k) := by
  obtain ⟨e0, e1⟩ := idx_w2 t
  show V c main_arg2 (((cfg0.win 2).blk t).view.emb (ix2 r k)) = V c main_arg2 (ix2 R k)
  refine congrArg (V c main_arg2) (funext fun a => Fin.ext ?_)
  match a with
  | ⟨0, _⟩ => show win0_2.index t (0 : Fin 2) * 20000 + 1 * r.val = R.val; omega
  | ⟨1, _⟩ => show win0_2.index t (1 : Fin 2) * 64 + 1 * k.val = k.val; omega

/-- A weight operand's one block is its whole array. -/
theorem blk3_apply (t : Fin cfg0.N) (p : Fin 64) (q : Fin 128) :
    (iblk0 V c 3 t : Vec Ideal S64x128 .f32) (ix2 p q) = (V c main_v6 : Arr (sh2 64 128)) (ix2 p q) := by
  obtain ⟨e0, e1⟩ := idx_w3 t
  show V c main_v6 (((cfg0.win 3).blk t).view.emb (ix2 p q)) = V c main_v6 (ix2 p q)
  refine congrArg (V c main_v6) (funext fun a => Fin.ext ?_)
  match a with
  | ⟨0, _⟩ => show win0_3.index t (0 : Fin 2) * 64 + 1 * p.val = p.val; omega
  | ⟨1, _⟩ => show win0_3.index t (1 : Fin 2) * 128 + 1 * q.val = q.val; omega

theorem blk4_apply (t : Fin cfg0.N) (p : Fin 64) (q : Fin 128) :
    (iblk0 V c 4 t : Vec Ideal S64x128 .f32) (ix2 p q) = (V c main_v7 : Arr (sh2 64 128)) (ix2 p q) := by
  obtain ⟨e0, e1⟩ := idx_w4 t
  show V c main_v7 (((cfg0.win 4).blk t).view.emb (ix2 p q)) = V c main_v7 (ix2 p q)
  refine congrArg (V c main_v7) (funext fun a => Fin.ext ?_)
  match a with
  | ⟨0, _⟩ => show win0_4.index t (0 : Fin 2) * 64 + 1 * p.val = p.val; omega
  | ⟨1, _⟩ => show win0_4.index t (1 : Fin 2) * 128 + 1 * q.val = q.val; omega

theorem blk5_apply (t : Fin cfg0.N) (p : Fin 64) (q : Fin 128) :
    (iblk0 V c 5 t : Vec Ideal S64x128 .f32) (ix2 p q) = (V c main_v8 : Arr (sh2 64 128)) (ix2 p q) := by
  obtain ⟨e0, e1⟩ := idx_w5 t
  show V c main_v8 (((cfg0.win 5).blk t).view.emb (ix2 p q)) = V c main_v8 (ix2 p q)
  refine congrArg (V c main_v8) (funext fun a => Fin.ext ?_)
  match a with
  | ⟨0, _⟩ => show win0_5.index t (0 : Fin 2) * 64 + 1 * p.val = p.val; omega
  | ⟨1, _⟩ => show win0_5.index t (1 : Fin 2) * 128 + 1 * q.val = q.val; omega

theorem blk6_apply (t : Fin cfg0.N) (p : Fin 1) (q : Fin 128) :
    (iblk0 V c 6 t : Vec Ideal S1x128 .f32) (ix2 p q) = (V c main_v12 : Arr (sh2 1 128)) (ix2 p q) := by
  obtain ⟨e0, e1⟩ := idx_w6 t
  show V c main_v12 (((cfg0.win 6).blk t).view.emb (ix2 p q)) = V c main_v12 (ix2 p q)
  refine congrArg (V c main_v12) (funext fun a => Fin.ext ?_)
  match a with
  | ⟨0, _⟩ => show win0_6.index t (0 : Fin 2) * 1 + 1 * p.val = p.val; omega
  | ⟨1, _⟩ => show win0_6.index t (1 : Fin 2) * 128 + 1 * q.val = q.val; omega

theorem blk7_apply (t : Fin cfg0.N) (p : Fin 128) (q : Fin 64) :
    (iblk0 V c 7 t : Vec Ideal S128x64 .f32) (ix2 p q) = (V c main_arg6 : Arr (sh2 128 64)) (ix2 p q) := by
  obtain ⟨e0, e1⟩ := idx_w7 t
  show V c main_arg6 (((cfg0.win 7).blk t).view.emb (ix2 p q)) = V c main_arg6 (ix2 p q)
  refine congrArg (V c main_arg6) (funext fun a => Fin.ext ?_)
  match a with
  | ⟨0, _⟩ => show win0_7.index t (0 : Fin 2) * 128 + 1 * p.val = p.val; omega
  | ⟨1, _⟩ => show win0_7.index t (1 : Fin 2) * 64 + 1 * q.val = q.val; omega

theorem blk8_apply (t : Fin cfg0.N) (p : Fin 1) (q : Fin 64) :
    (iblk0 V c 8 t : Vec Ideal S1x64 .f32) (ix2 p q) = (V c main_v13 : Arr (sh2 1 64)) (ix2 p q) := by
  obtain ⟨e0, e1⟩ := idx_w8 t
  show V c main_v13 (((cfg0.win 8).blk t).view.emb (ix2 p q)) = V c main_v13 (ix2 p q)
  refine congrArg (V c main_v13) (funext fun a => Fin.ext ?_)
  match a with
  | ⟨0, _⟩ => show win0_8.index t (0 : Fin 2) * 1 + 1 * p.val = p.val; omega
  | ⟨1, _⟩ => show win0_8.index t (1 : Fin 2) * 64 + 1 * q.val = q.val; omega

/-! ## The whole-array functions, and each point's block as a block of them -/

/-- The new edge rows of the whole edge list, from the arrays the region is entered with. -/
abbrev rowsG : Arr (sh2 800000 64) :=
  edgeK (V c main_v4) (V c main_v5) (V c main_arg2) (V c main_v6) (V c main_v7) (V c main_v8) (V c main_v12) (V c main_arg6) (V c main_v13)

/-- All forty tiles' slots of eighths of column sums. -/
abbrev tilesG : Arr (sh3 40 8 64) := tilesOf 40 20000 (by norm_num) (rowsG V c)

/-- Row `r` of the perceptron on point `t`'s blocks is row `20000 t + r` of the perceptron on the arrays. -/
theorem rows_blk (t : Fin cfg0.N) (r : Fin 20000) (f : Fin 64) (R : Fin 800000) (hR : R.val = t.val * 20000 + r.val) :
    edgeK (R := 20000) (iblk0 V c 0 t) (iblk0 V c 1 t) (iblk0 V c 2 t) (iblk0 V c 3 t) (iblk0 V c 4 t) (iblk0 V c 5 t) (iblk0 V c 6 t) (iblk0 V c 7 t) (iblk0 V c 8 t) (ix2 r f) = rowsG V c (ix2 R f) :=
  edgeK_congr (R := 20000) (R' := 800000) (iblk0 V c 0 t) (iblk0 V c 1 t) (iblk0 V c 2 t) (iblk0 V c 3 t) (iblk0 V c 4 t) (iblk0 V c 5 t) (iblk0 V c 6 t) (iblk0 V c 7 t) (iblk0 V c 8 t)
    (V c main_v4) (V c main_v5) (V c main_arg2) (V c main_v6) (V c main_v7) (V c main_v8) (V c main_v12) (V c main_arg6) (V c main_v13) r R f
    (fun k => blk0_apply V c t r k R hR) (fun k => blk1_apply V c t r k R hR) (fun k => blk2_apply V c t r k R hR)
    (fun k j => blk3_apply V c t k j) (fun k j => blk4_apply V c t k j) (fun k j => blk5_apply V c t k j)
    (fun j => blk6_apply V c t 0 j) (fun k g => blk7_apply V c t k g) (fun g => blk8_apply V c t 0 g)
end

section
variable (V : (c : Dev nD) → (b : Ref sig .tc) → Buf (Elt Ideal) ((c : Thread nD τ).loc b)) (c : Dev nD)

/-! ## What a point writes back is its block of the whole-array function -/

/-- Point `t` writes back rows `20000 t … 20000 t + 19999` of the new edge rows. -/
theorem flushed_rows (t : Fin cfg0.N) :
    (dat0 (F := Ideal) V c).flushed 9 t = ((cfg0.win 9).blk t).view.read (Elt Ideal) (rowsG V c) := by
  show (cfg0.win 9).cut (grid0.coords t) ((dat0 V c).after 9 t) = _
  rw [after0_9]
  funext j
  obtain ⟨e0, e1⟩ := idx_w9 t
  have ht := pt_lt t
  have h0 : (j 0).val < 20000 := (j 0).isLt
  have h1 : (j 1).val < 64 := (j 1).isLt
  have hx : (cfg0.win 9).xinj (grid0.coords t) j = ix2 (⟨(j 0).val, h0⟩ : Fin 20000) (⟨(j 1).val, h1⟩ : Fin 64) := by
    funext a
    match a with
    | ⟨0, _⟩ => rfl
    | ⟨1, _⟩ => rfl
  have hemb : ((cfg0.win 9).blk t).view.emb j
      = ix2 (⟨t.val * 20000 + (j 0).val, by omega⟩ : Fin 800000) (⟨(j 1).val, h1⟩ : Fin 64) := by
    funext a
    apply Fin.ext
    match a with
    | ⟨0, _⟩ => show win0_9.index t (0 : Fin 2) * 20000 + 1 * (j 0).val = t.val * 20000 + (j 0).val; omega
    | ⟨1, _⟩ => show win0_9.index t (1 : Fin 2) * 64 + 1 * (j 1).val = (j 1).val; omega
  show edgeRows (iblk0 V c 0 t) (iblk0 V c 1 t) (iblk0 V c 2 t) (iblk0 V c 3 t) (iblk0 V c 4 t) (iblk0 V c 5 t) (iblk0 V c 6 t) (iblk0 V c 7 t) (iblk0 V c 8 t) ((cfg0.win 9).xinj (grid0.coords t) j)
    = rowsG V c (((cfg0.win 9).blk t).view.emb j)
  rw [hx, hemb]
  exact (rows_apply (iblk0 V c 0 t) (iblk0 V c 1 t) (iblk0 V c 2 t) (iblk0 V c 3 t) (iblk0 V c 4 t) (iblk0 V c 5 t) (iblk0 V c 6 t) (iblk0 V c 7 t) (iblk0 V c 8 t) ⟨(j 0).val, h0⟩ ⟨(j 1).val, h1⟩).trans
    (rows_blk V c t ⟨(j 0).val, h0⟩ ⟨(j 1).val, h1⟩ ⟨t.val * 20000 + (j 0).val, by omega⟩ rfl)

/-- Point `t` writes back slot `t` of the tile sums. -/
theorem flushed_tile (t : Fin cfg0.N) :
    (dat0 (F := Ideal) V c).flushed 10 t = ((cfg0.win 10).blk t).view.read (Elt Ideal) (tilesG V c) := by
  show (cfg0.win 10).cut (grid0.coords t) ((dat0 V c).after 10 t) = _
  rw [after0_10]
  funext j
  obtain ⟨e0, e1, e2⟩ := idx_w10 t
  have ht := pt_lt t
  have h0 : (j 0).val < 1 := (j 0).isLt
  have h1 : (j 1).val < 8 := (j 1).isLt
  have h2 : (j 2).val < 64 := (j 2).isLt
  have hx : (cfg0.win 10).xinj (grid0.coords t) j
      = ix3 (⟨(j 0).val, h0⟩ : Fin 1) (⟨(j 1).val, h1⟩ : Fin 8) (⟨(j 2).val, h2⟩ : Fin 64) := by
    funext a
    match a with
    | ⟨0, _⟩ => rfl
    | ⟨1, _⟩ => rfl
    | ⟨2, _⟩ => rfl
  have hemb : ((cfg0.win 10).blk t).view.emb j
      = ix3 (⟨t.val, ht⟩ : Fin 40) (⟨(j 1).val, h1⟩ : Fin 8) (⟨(j 2).val, h2⟩ : Fin 64) := by
    funext a
    apply Fin.ext
    match a with
    | ⟨0, _⟩ => show win0_10.index t (0 : Fin 3) * 1 + 1 * (j 0).val = t.val; omega
    | ⟨1, _⟩ => show win0_10.index t (1 : Fin 3) * 8 + 1 * (j 1).val = (j 1).val; omega
    | ⟨2, _⟩ => show win0_10.index t (2 : Fin 3) * 64 + 1 * (j 2).val = (j 2).val; omega
  show edgeTile (iblk0 V c 0 t) (iblk0 V c 1 t) (iblk0 V c 2 t) (iblk0 V c 3 t) (iblk0 V c 4 t) (iblk0 V c 5 t) (iblk0 V c 6 t) (iblk0 V c 7 t) (iblk0 V c 8 t) ((cfg0.win 10).xinj (grid0.coords t) j)
    = tilesG V c (((cfg0.win 10).blk t).view.emb j)
  rw [hx, hemb]
  refine (tile_apply (iblk0 V c 0 t) (iblk0 V c 1 t) (iblk0 V c 2 t) (iblk0 V c 3 t) (iblk0 V c 4 t) (iblk0 V c 5 t) (iblk0 V c 6 t) (iblk0 V c 7 t) (iblk0 V c 8 t) ⟨(j 0).val, h0⟩ ⟨(j 1).val, h1⟩ ⟨(j 2).val, h2⟩).trans ?_
  show Ideal.div (∑ r : Fin 20000, edgeK (R := 20000) (iblk0 V c 0 t) (iblk0 V c 1 t) (iblk0 V c 2 t) (iblk0 V c 3 t) (iblk0 V c 4 t) (iblk0 V c 5 t) (iblk0 V c 6 t) (iblk0 V c 7 t) (iblk0 V c 8 t) (ix2 r ⟨(j 2).val, h2⟩)) c8
    = Ideal.div (∑ r : Fin 20000, rowsG V c (ix2 ⟨t.val * 20000 + r.val, (by norm_num : 40 * 20000 = 800000) ▸ tile_lt ht r.isLt⟩ ⟨(j 2).val, h2⟩)) c8
  exact congrArg₂ Ideal.div (Finset.sum_congr rfl fun r _ =>
    rows_blk V c t r ⟨(j 2).val, h2⟩ ⟨t.val * 20000 + r.val, (by norm_num : 40 * 20000 = 800000) ▸ tile_lt ht r.isLt⟩ rfl) rfl

/-! ## The blocks tile the arrays -/

/-- An index of the new rows is in point `t`'s block iff each coordinate is in the block's range on its axis. -/
theorem mem_rows_blk (t : Fin cfg0.N) (i : S800000x64.Idx) :
    i ∈ ((cfg0.win 9).blk t).view.set ↔ ∀ a : Fin 2, win0_9.index t a * S20000x64.size a ≤ (i a).val
      ∧ (i a).val < win0_9.index t a * S20000x64.size a + S20000x64.size a := by
  show i ∈ ((View.whole main_v14_0).slice (win0_9.rect t)).set ↔ _
  rw [View.set_slice_whole, Rect.mem_set_unit]
  exact Iff.rfl

/-- Row `r` of the new rows is written by point `r / 20000`. -/
theorem cover_rows (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hq : (i 0).val / 20000 < cfg0.N := lt_of_lt_of_eq (show (i 0).val / 20000 < 40 by omega) N_0.symm
  obtain ⟨e0, e1⟩ := idx_w9 ⟨(i 0).val / 20000, hq⟩
  refine ⟨⟨(i 0).val / 20000, hq⟩, flush0_9 _, ?_⟩
  rw [mem_rows_blk]
  intro a
  match a with
  | ⟨0, _⟩ =>
    show win0_9.index ⟨(i 0).val / 20000, hq⟩ (0 : Fin 2) * 20000 ≤ (i 0).val
      ∧ (i 0).val < win0_9.index ⟨(i 0).val / 20000, hq⟩ (0 : Fin 2) * 20000 + 20000
    rw [e0]; show (i 0).val / 20000 * 20000 ≤ (i 0).val ∧ (i 0).val < (i 0).val / 20000 * 20000 + 20000; omega
  | ⟨1, _⟩ =>
    show win0_9.index ⟨(i 0).val / 20000, hq⟩ (1 : Fin 2) * 64 ≤ (i 1).val
      ∧ (i 1).val < win0_9.index ⟨(i 0).val / 20000, hq⟩ (1 : Fin 2) * 64 + 64
    rw [e1]; omega

/-- An index of the tile sums is in point `t`'s slot iff each coordinate is in the slot's range on its axis. -/
theorem mem_tile_blk (t : Fin cfg0.N) (i : S40x8x64.Idx) :
    i ∈ ((cfg0.win 10).blk t).view.set ↔ ∀ a : Fin 3, win0_10.index t a * S1x8x64.size a ≤ (i a).val
      ∧ (i a).val < win0_10.index t a * S1x8x64.size a + S1x8x64.size a := by
  show i ∈ ((View.whole main_v14_1).slice (win0_10.rect t)).set ↔ _
  rw [View.set_slice_whole, Rect.mem_set_unit]
  exact Iff.rfl

/-- Slot `t` of the tile sums is written by point `t`. -/
theorem cover_tiles (i : S40x8x64.Idx) :
    ∃ t : Fin cfg0.N, (cfg0.win 10).flush t = true ∧ i ∈ ((cfg0.win 10).blk t).view.set := by
  have hi0 : (i 0).val < 40 := (i 0).isLt
  have hi1 : (i 1).val < 8 := (i 1).isLt
  have hi2 : (i 2).val < 64 := (i 2).isLt
  have hq : (i 0).val < cfg0.N := lt_of_lt_of_eq hi0 N_0.symm
  obtain ⟨e0, e1, e2⟩ := idx_w10 ⟨(i 0).val, hq⟩
  refine ⟨⟨(i 0).val, hq⟩, flush0_10 _, ?_⟩
  rw [mem_tile_blk]
  intro a
  match a with
  | ⟨0, _⟩ =>
    show win0_10.index ⟨(i 0).val, hq⟩ (0 : Fin 3) * 1 ≤ (i 0).val ∧ (i 0).val < win0_10.index ⟨(i 0).val, hq⟩ (0 : Fin 3) * 1 + 1
    rw [e0]; show (i 0).val * 1 ≤ (i 0).val ∧ (i 0).val < (i 0).val * 1 + 1; omega
  | ⟨1, _⟩ =>
    show win0_10.index ⟨(i 0).val, hq⟩ (1 : Fin 3) * 8 ≤ (i 1).val ∧ (i 1).val < win0_10.index ⟨(i 0).val, hq⟩ (1 : Fin 3) * 8 + 8
    rw [e1]; omega
  | ⟨2, _⟩ =>
    show win0_10.index ⟨(i 0).val, hq⟩ (2 : Fin 3) * 64 ≤ (i 2).val ∧ (i 2).val < win0_10.index ⟨(i 0).val, hq⟩ (2 : Fin 3) * 64 + 64
    rw [e2]; omega

end

end Edge

section
variable (V : (c : Dev nD) → (b : Ref sig .tc) → Buf (Elt Ideal) ((c : Thread nD τ).loc b)) (c : Dev nD)

/-! ## The two output arrays after the region -/

/-- The new edge rows after the region, as one function of the arrays the region was entered with. -/
theorem edge_rows_final :
    ((dat0 (F := Ideal) V c).arrAt 9 cfg0.N : Arr (sh2 800000 64)) = edgeK (V c main_v4) (V c main_v5) (V c main_arg2) (V c main_v6) (V c main_v7) (V c main_v8) (V c main_v12) (V c main_arg6) (V c main_v13) :=
  (dat0 (F := Ideal) V c).arrAt_eq_of_cover 9 (Edge.rowsG V c) (fun t _ => Edge.flushed_rows V c t) Edge.cover_rows

/-- The tile sums after the region. -/
theorem edge_tiles_final :
    ((dat0 (F := Ideal) V c).arrAt 10 cfg0.N : Arr (sh3 40 8 64)) = tilesOf 40 20000 (by norm_num) (edgeK (V c main_v4) (V c main_v5) (V c main_arg2) (V c main_v6) (V c main_v7) (V c main_v8) (V c main_v12) (V c main_arg6) (V c main_v13)) :=
  (dat0 (F := Ideal) V c).arrAt_eq_of_cover 10 (Edge.tilesG V c) (fun t _ => Edge.flushed_tile V c t) Edge.cover_tiles

end

end Cert.KernelIdeal.Val

end
-- ==== Proof.NodeValue.lean ====
/-
  What region 1 leaves in its two output arrays, at the ideal instance: the new node rows of all nodes (tile
  `t` writes rows `25000 t … 25000 t + 24999`, and a row depends only on its own row of each row-wise operand), and in
  slot `(t, s)` of the tile sums an eighth of tile `t`'s column sums.
-/
import proofs.«417691_j25598005084727_2_alg».proof.Proof.RunDefs
import proofs.«417691_j25598005084727_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

namespace Node

/-! ## The two matrix products of the body at an index

The first layer multiplies a block of 25000 rows of 64 features with a 64 × 128 matrix, the second a block of 25000 hidden
rows of 128 with a 128 × 64 matrix; both contract the left operand's columns with the right operand's rows, so the
operands' indices at output index `(r, j)` and contraction coordinate `k` are `(r, k)` and `(k, j)`. -/

theorem hidLhs_0 (i : S25000x128.Idx) (q : dot_S25000x64_S64x128_S25000x128_1_0_0_1_n_n.contr.Idx) :
    (dot_S25000x64_S64x128_S25000x128_1_0_0_1_n_n.lhsIdx i q 0).val = (i 0).val := by
  unfold DotDims.lhsIdx
  rw [dif_neg (show ¬(0 : Fin S25000x64.rank) ∈ dot_S25000x64_S64x128_S25000x128_1_0_0_1_n_n.lhsBatch by decide), dif_pos (show (0 : Fin S25000x64.rank) ∈ dot_S25000x64_S64x128_S25000x128_1_0_0_1_n_n.lhsNonContracting by decide)]
  rfl
theorem hidLhs_1 (i : S25000x128.Idx) (q : dot_S25000x64_S64x128_S25000x128_1_0_0_1_n_n.contr.Idx) :
    (dot_S25000x64_S64x128_S25000x128_1_0_0_1_n_n.lhsIdx i q 1).val = (q ⟨0, by decide⟩).val :=
  dot_S25000x64_S64x128_S25000x128_1_0_0_1_n_n.lhsIdx_val_of_single rfl i q
theorem hidRhs_0 (i : S25000x128.Idx) (q : dot_S25000x64_S64x128_S25000x128_1_0_0_1_n_n.contr.Idx) :
    (dot_S25000x64_S64x128_S25000x128_1_0_0_1_n_n.rhsIdx i q 0).val = (q ⟨0, by decide⟩).val :=
  dot_S25000x64_S64x128_S25000x128_1_0_0_1_n_n.rhsIdx_val_of_single rfl i q
theorem hidRhs_1 (i : S25000x128.Idx) (q : dot_S25000x64_S64x128_S25000x128_1_0_0_1_n_n.contr.Idx) :
    (dot_S25000x64_S64x128_S25000x128_1_0_0_1_n_n.rhsIdx i q 1).val = (i 1).val := by
  unfold DotDims.rhsIdx
  rw [dif_neg (show ¬(1 : Fin S64x128.rank) ∈ dot_S25000x64_S64x128_S25000x128_1_0_0_1_n_n.rhsBatch by decide), dif_pos (show (1 : Fin S64x128.rank) ∈ dot_S25000x64_S64x128_S25000x128_1_0_0_1_n_n.rhsNonContracting by decide)]
  rfl

/-- A first-layer product into the zero accumulator, at `(r, j)`: the row `r` of the block against column `j`. -/
theorem hidProd_apply (a : FVec Ideal S25000x64 .f32) (b : FVec Ideal S64x128 .f32) (r : Fin 25000) (j : Fin 128) :
    matmul dot_S25000x64_S64x128_S25000x128_1_0_0_1_n_n none a b (constant (F := Ideal) S25000x128 .f32 0x00000000#32) (ix2 r j)
      = ∑ k : Fin 64, a (ix2 r k) * b (ix2 k j) := by
  refine (Ideal.matmul_constant_zero_apply dot_S25000x64_S64x128_S25000x128_1_0_0_1_n_n none a b (ix2 r j)).trans ?_
  rw [← Equiv.sum_comp (contrEquiv1 dot_S25000x64_S64x128_S25000x128_1_0_0_1_n_n 64 rfl rfl).symm]
  refine Finset.sum_congr rfl fun k _ => ?_
  have hk := contrEquiv1_symm_val dot_S25000x64_S64x128_S25000x128_1_0_0_1_n_n 64 rfl rfl k
  have el : dot_S25000x64_S64x128_S25000x128_1_0_0_1_n_n.lhsIdx (ix2 r j) ((contrEquiv1 dot_S25000x64_S64x128_S25000x128_1_0_0_1_n_n 64 rfl rfl).symm k) = ix2 r k := funext fun a => Fin.ext (by
    match a with
    | ⟨0, _⟩ => exact hidLhs_0 _ _
    | ⟨1, _⟩ => exact (hidLhs_1 _ _).trans hk)
  have er : dot_S25000x64_S64x128_S25000x128_1_0_0_1_n_n.rhsIdx (ix2 r j) ((contrEquiv1 dot_S25000x64_S64x128_S25000x128_1_0_0_1_n_n 64 rfl rfl).symm k) = ix2 k j := funext fun a => Fin.ext (by
    match a with
    | ⟨0, _⟩ => exact (hidRhs_0 _ _).trans hk
    | ⟨1, _⟩ => exact hidRhs_1 _ _)
  rw [el, er]

theorem outLhs_0 (i : S25000x64.Idx) (q : dot_S25000x128_S128x64_S25000x64_1_0_0_1_n_n.contr.Idx) :
    (dot_S25000x128_S128x64_S25000x64_1_0_0_1_n_n.lhsIdx i q 0).val = (i 0).val := by
  unfold DotDims.lhsIdx
  rw [dif_neg (show ¬(0 : Fin S25000x128.rank) ∈ dot_S25000x128_S128x64_S25000x64_1_0_0_1_n_n.lhsBatch by decide), dif_pos (show (0 : Fin S25000x128.rank) ∈ dot_S25000x128_S128x64_S25000x64_1_0_0_1_n_n.lhsNonContracting by decide)]
  rfl
theorem outLhs_1 (i : S25000x64.Idx) (q : dot_S25000x128_S128x64_S25000x64_1_0_0_1_n_n.contr.Idx) :
    (dot_S25000x128_S128x64_S25000x64_1_0_0_1_n_n.lhsIdx i q 1).val = (q ⟨0, by decide⟩).val :=
  dot_S25000x128_S128x64_S25000x64_1_0_0_1_n_n.lhsIdx_val_of_single rfl i q
theorem outRhs_0 (i : S25000x64.Idx) (q : dot_S25000x128_S128x64_S25000x64_1_0_0_1_n_n.contr.Idx) :
    (dot_S25000x128_S128x64_S25000x64_1_0_0_1_n_n.rhsIdx i q 0).val = (q ⟨0, by decide⟩).val :=
  dot_S25000x128_S128x64_S25000x64_1_0_0_1_n_n.rhsIdx_val_of_single rfl i q
theorem outRhs_1 (i : S25000x64.Idx) (q : dot_S25000x128_S128x64_S25000x64_1_0_0_1_n_n.contr.Idx) :
    (dot_S25000x128_S128x64_S25000x64_1_0_0_1_n_n.rhsIdx i q 1).val = (i 1).val := by
  unfold DotDims.rhsIdx
  rw [dif_neg (show ¬(1 : Fin S128x64.rank) ∈ dot_S25000x128_S128x64_S25000x64_1_0_0_1_n_n.rhsBatch by decide), dif_pos (show (1 : Fin S128x64.rank) ∈ dot_S25000x128_S128x64_S25000x64_1_0_0_1_n_n.rhsNonContracting by decide)]
  rfl

/-- The second-layer product into the zero accumulator, at `(r, f)`. -/
theorem outProd_apply (a : FVec Ideal S25000x128 .f32) (b : FVec Ideal S128x64 .f32) (r : Fin 25000) (f : Fin 64) :
    matmul dot_S25000x128_S128x64_S25000x64_1_0_0_1_n_n none a b (constant (F := Ideal) S25000x64 .f32 0x00000000#32) (ix2 r f)
      = ∑ k : Fin 128, a (ix2 r k) * b (ix2 k f) := by
  refine (Ideal.matmul_constant_zero_apply dot_S25000x128_S128x64_S25000x64_1_0_0_1_n_n none a b (ix2 r f)).trans ?_
  rw [← Equiv.sum_comp (contrEquiv1 dot_S25000x128_S128x64_S25000x64_1_0_0_1_n_n 128 rfl rfl).symm]
  refine Finset.sum_congr rfl fun k _ => ?_
  have hk := contrEquiv1_symm_val dot_S25000x128_S128x64_S25000x64_1_0_0_1_n_n 128 rfl rfl k
  have el : dot_S25000x128_S128x64_S25000x64_1_0_0_1_n_n.lhsIdx (ix2 r f) ((contrEquiv1 dot_S25000x128_S128x64_S25000x64_1_0_0_1_n_n 128 rfl rfl).symm k) = ix2 r k := funext fun a => Fin.ext (by
    match a with
    | ⟨0, _⟩ => exact outLhs_0 _ _
    | ⟨1, _⟩ => exact (outLhs_1 _ _).trans hk)
  have er : dot_S25000x128_S128x64_S25000x64_1_0_0_1_n_n.rhsIdx (ix2 r f) ((contrEquiv1 dot_S25000x128_S128x64_S25000x64_1_0_0_1_n_n 128 rfl rfl).symm k) = ix2 k f := funext fun a => Fin.ext (by
    match a with
    | ⟨0, _⟩ => exact (outRhs_0 _ _).trans hk
    | ⟨1, _⟩ => exact outRhs_1 _ _)
  rw [el, er]

/-! ## The body's stored rows at an index -/

/-- Row `r` of what the body stores is the node perceptron's row `r` of the block it loaded. -/
theorem nodeRows_apply (x0 x1 : Vec Ideal S25000x64 .f32) (w2 w3 : Vec Ideal S64x128 .f32) (b4 : Vec Ideal S1x128 .f32)
    (w5 : Vec Ideal S128x64 .f32) (b6 : Vec Ideal S1x64 .f32) (r : Fin 25000) (f : Fin 64) :
    k1_pay1 x0 x1 w2 w3 b4 w5 b6 (ix2 r f) = nodeK (R := 25000) x0 x1 w2 w3 b4 w5 b6 (ix2 r f) := by
  unfold k1_pay1
  simp only [shapeCast_self, addf_apply, outProd_apply, maximumf_apply, hidProd_apply, broadcastTo_1b_ab_apply, broadcast_apply]
  rfl

/-! ## The body's stored tile sums at an index -/

/-- The column sums of a block of 25000 rows: the sum over the rows. -/
theorem colSum_apply (src : FVec Ideal S25000x64 .f32) (hφ : FKind.Formats .f32)
    (hacc : (0x00000000#32 : BitVec 32) = FKind.add.neutral .f32 hφ) (f : Fin 64) :
    multiReduction (F := Ideal) .add [0] S64 src 0x00000000#32 reduces_S25000x64_S64 hφ hacc (ix1 f)
      = ∑ r : Fin 25000, src (ix2 r f) :=
  (Ideal.multiReduction_add_single src 0x00000000#32 reduces_S25000x64_S64 hφ hacc (ix1 f)).trans
    (Finset.sum_congr rfl fun r _ => congrArg src (funext fun a => Fin.ext (by
      match a with
      | ⟨0, _⟩ => rfl
      | ⟨1, _⟩ => rfl)))

/-- One row of 64 broadcast over the eight rows of a slot. -/
theorem slotBroadcast_apply {α : Type} (v : (⟨3, ![1, 1, 64]⟩ : Shape).Idx → α)
    (h : (⟨3, ![1, 1, 64]⟩ : Shape).Broadcasts ⟨3, ![1, 8, 64]⟩) (u : Fin 1) (s : Fin 8) (f : Fin 64) :
    broadcastTo ⟨3, ![1, 8, 64]⟩ v h (ix3 u s f) = v (ix3 (0 : Fin 1) (0 : Fin 1) f) := by
  refine broadcastTo_apply v h (ix3 u s f) (ix3 (0 : Fin 1) (0 : Fin 1) f) fun ax => ?_
  match ax with
  | ⟨0, _⟩ => rfl
  | ⟨1, _⟩ => rfl
  | ⟨2, _⟩ => rfl

/-- Every row of the slot the body stores holds an eighth of the column sums of the rows it stores. -/
theorem nodeTile_apply (x0 x1 : Vec Ideal S25000x64 .f32) (w2 w3 : Vec Ideal S64x128 .f32) (b4 : Vec Ideal S1x128 .f32)
    (w5 : Vec Ideal S128x64 .f32) (b6 : Vec Ideal S1x64 .f32) (u : Fin 1) (s : Fin 8) (f : Fin 64) :
    k1_pay2 x0 x1 w2 w3 b4 w5 b6 (ix3 u s f)
      = Ideal.div (∑ r : Fin 25000, k1_pay1 x0 x1 w2 w3 b4 w5 b6 (ix2 r f)) c8 := by
  unfold k1_pay2
  simp only [shapeCast_self]
  refine (slotBroadcast_apply _ _ u s f).trans ?_
  refine (shapeCast_ab_1ab_apply _ _ (0 : Fin 1) (0 : Fin 1) f).trans ?_
  rw [divf_apply, broadcast_apply]
  refine congrArg₂ Ideal.div ?_ rfl
  refine (shapeCast_a_1a_apply _ _ (0 : Fin 1) f).trans ?_
  exact colSum_apply _ _ _ f

/-! ## A row of the perceptron depends on its own row of each row-wise operand -/

theorem nodeK_row {R R' : Nat} (X AG : Arr (sh2 R 64)) (X' AG' : Arr (sh2 R' 64)) (w2 w3 : Arr (sh2 64 128))
    (b4 : Arr (sh2 1 128)) (W2 : Arr (sh2 128 64)) (b6 : Arr (sh2 1 64)) (r : Fin R) (r' : Fin R') (f : Fin 64)
    (hX : ∀ k : Fin 64, X (ix2 r k) = X' (ix2 r' k)) (hAG : ∀ k : Fin 64, AG (ix2 r k) = AG' (ix2 r' k)) :
    nodeK X AG w2 w3 b4 W2 b6 (ix2 r f) = nodeK X' AG' w2 w3 b4 W2 b6 (ix2 r' f) := by
  unfold nodeK layer2 nodeHidK
  show (∑ k : Fin 128, max (((∑ q : Fin 64, X (ix2 r q) * w2 (ix2 q k)) + ∑ q : Fin 64, AG (ix2 r q) * w3 (ix2 q k))
      + b4 (ix2 0 k)) c0 * W2 (ix2 k f)) + b6 (ix2 0 f)
    = (∑ k : Fin 128, max (((∑ q : Fin 64, X' (ix2 r' q) * w2 (ix2 q k)) + ∑ q : Fin 64, AG' (ix2 r' q) * w3 (ix2 q k))
      + b4 (ix2 0 k)) c0 * W2 (ix2 k f)) + b6 (ix2 0 f)
  simp only [hX, hAG]

/-- The body's rows on a block whose row-wise operands are rows `o …` of two arrays and whose other operands are whole
    arrays: the perceptron's rows `o …` of the arrays. -/
theorem rows_of_block (o : Nat) (x0 x1 : Vec Ideal S25000x64 .f32) (w2 w3 : Vec Ideal S64x128 .f32) (b4 : Vec Ideal S1x128 .f32)
    (w5 : Vec Ideal S128x64 .f32) (b6 : Vec Ideal S1x64 .f32) (X AG : Arr (sh2 50000 64)) (W2 W3 : Arr (sh2 64 128))
    (B4 : Arr (sh2 1 128)) (W5 : Arr (sh2 128 64)) (B6 : Arr (sh2 1 64))
    (h0 : ∀ (y : S25000x64.Idx) (k : S50000x64.Idx), (k 0).val = o + (y 0).val → (k 1).val = (y 1).val → x0 y = X k)
    (h1 : ∀ (y : S25000x64.Idx) (k : S50000x64.Idx), (k 0).val = o + (y 0).val → (k 1).val = (y 1).val → x1 y = AG k)
    (e2 : w2 = W2) (e3 : w3 = W3) (e4 : b4 = B4) (e5 : w5 = W5) (e6 : b6 = B6)
    (y : S25000x64.Idx) (k : S50000x64.Idx) (hk0 : (k 0).val = o + (y 0).val) (hk1 : (k 1).val = (y 1).val) :
    k1_pay1 x0 x1 w2 w3 b4 w5 b6 y = nodeK X AG W2 W3 B4 W5 B6 k := by
  subst e2 e3 e4 e5 e6
  obtain ⟨r, f, rfl⟩ : ∃ (r : Fin 25000) (f : Fin 64), y = ix2 r f := ⟨y 0, y 1, eq_ix2 y⟩
  obtain ⟨p, q, rfl⟩ : ∃ (p : Fin 50000) (q : Fin 64), k = ix2 p q := ⟨k 0, k 1, eq_ix2 k⟩
  obtain rfl : q = f := Fin.ext hk1
  rw [nodeRows_apply]
  exact nodeK_row _ _ _ _ _ _ _ _ _ r p q (fun j => h0 (ix2 r j) (ix2 p j) hk0 rfl) (fun j => h1 (ix2 r j) (ix2 p j) hk0 rfl)

/-- The body's slot on such a block at point `o`: every row an eighth of the column sums of the perceptron's rows
    `25000 o …`. -/
theorem tile_of_block (o : Nat) (x0 x1 : Vec Ideal S25000x64 .f32) (w2 w3 : Vec Ideal S64x128 .f32) (b4 : Vec Ideal S1x128 .f32)
    (w5 : Vec Ideal S128x64 .f32) (b6 : Vec Ideal S1x64 .f32) (X AG : Arr (sh2 50000 64)) (W2 W3 : Arr (sh2 64 128))
    (B4 : Arr (sh2 1 128)) (W5 : Arr (sh2 128 64)) (B6 : Arr (sh2 1 64))
    (h0 : ∀ (y : S25000x64.Idx) (k : S50000x64.Idx), (k 0).val = o * 25000 + (y 0).val → (k 1).val = (y 1).val → x0 y = X k)
    (h1 : ∀ (y : S25000x64.Idx) (k : S50000x64.Idx), (k 0).val = o * 25000 + (y 0).val → (k 1).val = (y 1).val → x1 y = AG k)
    (e2 : w2 = W2) (e3 : w3 = W3) (e4 : b4 = B4) (e5 : w5 = W5) (e6 : b6 = B6)
    (y : S1x8x64.Idx) (k : S2x8x64.Idx) (hk0 : (k 0).val = o) (hk2 : (k 2).val = (y 2).val) :
    k1_pay2 x0 x1 w2 w3 b4 w5 b6 y = tilesOf 2 25000 (by norm_num) (nodeK X AG W2 W3 B4 W5 B6) k := by
  obtain ⟨u, s, f, rfl⟩ : ∃ (u : Fin 1) (s : Fin 8) (f : Fin 64), y = ix3 u s f := ⟨y 0, y 1, y 2, eq_ix3 y⟩
  obtain ⟨p, s', q, rfl⟩ : ∃ (p : Fin 2) (s' : Fin 8) (q : Fin 64), k = ix3 p s' q := ⟨k 0, k 1, k 2, eq_ix3 k⟩
  obtain rfl : q = f := Fin.ext hk2
  have hp : p.val = o := hk0
  rw [nodeTile_apply]
  unfold tilesOf
  refine congrArg₂ Ideal.div (Finset.sum_congr rfl fun r _ => ?_) rfl
  exact rows_of_block (o * 25000) x0 x1 w2 w3 b4 w5 b6 X AG W2 W3 B4 W5 B6 h0 h1 e2 e3 e4 e5 e6 (ix2 r q) _
    (by show p.val * 25000 + r.val = o * 25000 + r.val; rw [hp]) rfl

/-! ## The region's blocks as parts of its arrays

Grid point `t` reads rows `25000 t …` of the two row-wise operands, the whole of each weight and bias array, and writes
rows `25000 t …` of the first output and slot `t` of the second. -/

section
variable (V : (c : Dev nD) → (b : Ref sig .tc) → Buf (Elt Ideal) ((c : Thread nD τ).loc b)) (c : Dev nD)

/-- The windows' block indices at a grid point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 3) = t.val ∧ win1_8.index t (1 : Fin 3) = 0 ∧ win1_8.index t (2 : Fin 3) = 0 :=
  (by decide +kernel : ∀ t : Fin grid1.N, _)

/-- The first row-wise operand's block at point `t`: rows `25000 t …` of the node features. -/
theorem block0_apply (t : Fin cfg1.N) (y : S25000x64.Idx) (k : S50000x64.Idx)
    (hk0 : (k 0).val = t.val * 25000 + (y 0).val) (hk1 : (k 1).val = (y 1).val) :
    (iblk1 V c 0 t : Vec Ideal S25000x64 .f32) y = (V c main_arg0 : S50000x64.Idx → EReal) k := by
  obtain ⟨e0, e1, -⟩ := block_indices t
  unfold iblk1
  rw [View.read_apply]
  show V c main_arg0 _ = V c main_arg0 _
  congr 1
  funext a
  apply Fin.ext
  match a with
  | ⟨0, _⟩ => show win1_0.index t (0 : Fin 2) * 25000 + 1 * (y 0).val = (k 0).val; rw [e0, hk0]; omega
  | ⟨1, _⟩ => show win1_0.index t (1 : Fin 2) * 64 + 1 * (y 1).val = (k 1).val; rw [e1, hk1]; omega

/-- The second row-wise operand's block at point `t`: rows `25000 t …` of the aggregated edge rows. -/
theorem block1_apply (t : Fin cfg1.N) (y : S25000x64.Idx) (k : S50000x64.Idx)
    (hk0 : (k 0).val = t.val * 25000 + (y 0).val) (hk1 : (k 1).val = (y 1).val) :
    (iblk1 V c 1 t : Vec Ideal S25000x64 .f32) y = (V c main_v28 : S50000x64.Idx → EReal) k := by
  obtain ⟨-, -, e0, e1, -⟩ := block_indices t
  unfold iblk1
  rw [View.read_apply]
  show V c main_v28 _ = V c main_v28 _
  congr 1
  funext a
  apply Fin.ext
  match a with
  | ⟨0, _⟩ => show win1_1.index t (0 : Fin 2) * 25000 + 1 * (y 0).val = (k 0).val; rw [e0, hk0]; omega
  | ⟨1, _⟩ => show win1_1.index t (1 : Fin 2) * 64 + 1 * (y 1).val = (k 1).val; rw [e1, hk1]; omega

/-- A weight or bias window's block is its whole array at every point. -/
theorem block2_eq (t : Fin cfg1.N) : (iblk1 V c 2 t : Vec Ideal S64x128 .f32) = (V c main_v29 : S64x128.Idx → EReal) := by
  obtain ⟨-, -, -, -, e0, e1, -⟩ := block_indices t
  funext y
  unfold iblk1
  rw [View.read_apply]
  show V c main_v29 _ = V c main_v29 y
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 128 + 1 * (y 1).val = (y 1).val; rw [e1]; omega

theorem block3_eq (t : Fin cfg1.N) : (iblk1 V c 3 t : Vec Ideal S64x128 .f32) = (V c main_v30 : S64x128.Idx → EReal) := by
  obtain ⟨-, -, -, -, -, -, e0, e1, -⟩ := block_indices t
  funext y
  unfold iblk1
  rw [View.read_apply]
  show V c main_v30 _ = V c main_v30 y
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

theorem block4_eq (t : Fin cfg1.N) : (iblk1 V c 4 t : Vec Ideal S1x128 .f32) = (V c main_v34 : S1x128.Idx → EReal) := by
  obtain ⟨-, -, -, -, -, -, -, -, e0, e1, -⟩ := block_indices t
  funext y
  unfold iblk1
  rw [View.read_apply]
  show V c main_v34 _ = V c main_v34 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem block5_eq (t : Fin cfg1.N) : (iblk1 V c 5 t : Vec Ideal S128x64 .f32) = (V c main_arg10 : S128x64.Idx → EReal) := by
  obtain ⟨-, -, -, -, -, -, -, -, -, -, e0, e1, -⟩ := block_indices t
  funext y
  unfold iblk1
  rw [View.read_apply]
  show V c main_arg10 _ = V c main_arg10 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

theorem block6_eq (t : Fin cfg1.N) : (iblk1 V c 6 t : Vec Ideal S1x64 .f32) = (V c main_v35 : S1x64.Idx → EReal) := by
  obtain ⟨-, -, -, -, -, -, -, -, -, -, -, -, e0, e1, -⟩ := block_indices t
  funext y
  unfold iblk1
  rw [View.read_apply]
  show V c main_v35 _ = V c main_v35 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

end

/-! ## From the blocks to the two output arrays -/

section
variable (V : (c : Dev nD) → (b : Ref sig .tc) → Buf (Elt Ideal) ((c : Thread nD τ).loc b)) (c : Dev nD)

/-- What point `t` writes back into the first output: its block of the perceptron's rows of the whole arrays. -/
theorem rows_flushed (t : Fin cfg1.N) :
    (dat1 (F := Ideal) V c).flushed 7 t
      = ((cfg1.win 7).blk t).view.read (Elt Ideal) ((nodeK (V c main_arg0) (V c main_v28) (V c main_v29) (V c main_v30) (V c main_v34) (V c main_arg10) (V c main_v35)) : Arr (sh2 50000 64)) := by
  obtain ⟨-, -, -, -, -, -, -, -, -, -, -, -, -, -, e0, e1, -⟩ := block_indices t
  show (cfg1.win 7).cut (grid1.coords t) ((dat1 V c).after 7 t) = _
  rw [after1_7]
  funext j
  exact rows_of_block (t.val * 25000) _ _ _ _ _ _ _ _ _ _ _ _ _ _ (block0_apply V c t) (block1_apply V c t)
    (block2_eq V c t) (block3_eq V c t) (block4_eq V c t) (block5_eq V c t) (block6_eq V c t) _ _
    (by show win1_7.index t (0 : Fin 2) * 25000 + 1 * (j 0).val = t.val * 25000 + (j 0).val; rw [e0]; omega)
    (by show win1_7.index t (1 : Fin 2) * 64 + 1 * (j 1).val = (j 1).val; rw [e1]; omega)

/-- An index of the first output is in point `t`'s block iff each coordinate is in the block's range on its axis. -/
theorem rows_mem (t : Fin cfg1.N) (i : S50000x64.Idx) :
    i ∈ ((cfg1.win 7).blk t).view.set ↔ ∀ a : Fin 2, win1_7.index t a * S25000x64.size a ≤ (i a).val
      ∧ (i a).val < win1_7.index t a * S25000x64.size a + S25000x64.size a := by
  show i ∈ ((View.whole main_v36_0).slice (win1_7.rect t)).set ↔ _
  rw [View.set_slice_whole, Rect.mem_set_unit]
  exact Iff.rfl

/-- Row `r` of the first output is written by point `r / 25000`. -/
theorem rows_cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 2 := N_1
  have ht : (i 0).val / 25000 < cfg1.N := by rw [hN]; omega
  obtain ⟨-, -, -, -, -, -, -, -, -, -, -, -, -, -, e0, e1, -⟩ := block_indices ⟨(i 0).val / 25000, ht⟩
  refine ⟨⟨(i 0).val / 25000, ht⟩, flush1_7 _, ?_⟩
  rw [rows_mem]
  intro a
  match a with
  | ⟨0, _⟩ =>
    show win1_7.index ⟨(i 0).val / 25000, ht⟩ (0 : Fin 2) * 25000 ≤ (i 0).val
      ∧ (i 0).val < win1_7.index ⟨(i 0).val / 25000, ht⟩ (0 : Fin 2) * 25000 + 25000
    rw [e0]; show (i 0).val / 25000 * 25000 ≤ (i 0).val ∧ (i 0).val < (i 0).val / 25000 * 25000 + 25000; omega
  | ⟨1, _⟩ =>
    show win1_7.index ⟨(i 0).val / 25000, ht⟩ (1 : Fin 2) * 64 ≤ (i 1).val
      ∧ (i 1).val < win1_7.index ⟨(i 0).val / 25000, ht⟩ (1 : Fin 2) * 64 + 64
    rw [e1]; omega

/-- What point `t` writes back into the second output: its slot of the tile sums of the perceptron's rows. -/
theorem tiles_flushed (t : Fin cfg1.N) :
    (dat1 (F := Ideal) V c).flushed 8 t
      = ((cfg1.win 8).blk t).view.read (Elt Ideal) (tilesOf 2 25000 (by norm_num) (nodeK (V c main_arg0) (V c main_v28) (V c main_v29) (V c main_v30) (V c main_v34) (V c main_arg10) (V c main_v35)) : Arr (sh3 2 8 64)) := by
  obtain ⟨-, -, -, -, -, -, -, -, -, -, -, -, -, -, -, -, e0, e1, e2⟩ := block_indices t
  show (cfg1.win 8).cut (grid1.coords t) ((dat1 V c).after 8 t) = _
  rw [after1_8]
  funext j
  have hj0 : (j 0).val < 1 := (j 0).isLt
  exact tile_of_block t.val _ _ _ _ _ _ _ _ _ _ _ _ _ _ (block0_apply V c t) (block1_apply V c t)
    (block2_eq V c t) (block3_eq V c t) (block4_eq V c t) (block5_eq V c t) (block6_eq V c t) _ _
    (by show win1_8.index t (0 : Fin 3) * 1 + 1 * (j 0).val = t.val; rw [e0]; omega)
    (by show win1_8.index t (2 : Fin 3) * 64 + 1 * (j 2).val = (j 2).val; rw [e2]; omega)

/-- An index of the second output is in point `t`'s slot iff each coordinate is in the slot's range on its axis. -/
theorem tiles_mem (t : Fin cfg1.N) (i : S2x8x64.Idx) :
    i ∈ ((cfg1.win 8).blk t).view.set ↔ ∀ a : Fin 3, win1_8.index t a * S1x8x64.size a ≤ (i a).val
      ∧ (i a).val < win1_8.index t a * S1x8x64.size a + S1x8x64.size a := by
  show i ∈ ((View.whole main_v36_1).slice (win1_8.rect t)).set ↔ _
  rw [View.set_slice_whole, Rect.mem_set_unit]
  exact Iff.rfl

/-- Slot `t` of the second output is written by point `t`. -/
theorem tiles_cover (i : S2x8x64.Idx) :
    ∃ t : Fin cfg1.N, (cfg1.win 8).flush t = true ∧ i ∈ ((cfg1.win 8).blk t).view.set := by
  have hi0 : (i 0).val < 2 := (i 0).isLt
  have hi1 : (i 1).val < 8 := (i 1).isLt
  have hi2 : (i 2).val < 64 := (i 2).isLt
  have hN : cfg1.N = 2 := N_1
  have ht : (i 0).val < cfg1.N := by rw [hN]; omega
  obtain ⟨-, -, -, -, -, -, -, -, -, -, -, -, -, -, -, -, e0, e1, e2⟩ := block_indices ⟨(i 0).val, ht⟩
  refine ⟨⟨(i 0).val, ht⟩, flush1_8 _, ?_⟩
  rw [tiles_mem]
  intro a
  match a with
  | ⟨0, _⟩ =>
    show win1_8.index ⟨(i 0).val, ht⟩ (0 : Fin 3) * 1 ≤ (i 0).val ∧ (i 0).val < win1_8.index ⟨(i 0).val, ht⟩ (0 : Fin 3) * 1 + 1
    rw [e0]; show (i 0).val * 1 ≤ (i 0).val ∧ (i 0).val < (i 0).val * 1 + 1; omega
  | ⟨1, _⟩ =>
    show win1_8.index ⟨(i 0).val, ht⟩ (1 : Fin 3) * 8 ≤ (i 1).val ∧ (i 1).val < win1_8.index ⟨(i 0).val, ht⟩ (1 : Fin 3) * 8 + 8
    rw [e1]; omega
  | ⟨2, _⟩ =>
    show win1_8.index ⟨(i 0).val, ht⟩ (2 : Fin 3) * 64 ≤ (i 2).val ∧ (i 2).val < win1_8.index ⟨(i 0).val, ht⟩ (2 : Fin 3) * 64 + 64
    rw [e2]; omega

end

end Node

open Node

section
variable (V : (c : Dev nD) → (b : Ref sig .tc) → Buf (Elt Ideal) ((c : Thread nD τ).loc b)) (c : Dev nD)

/-- The new node rows after the region, as one function of the arrays the region was entered with. -/
theorem node_rows_final :
    ((dat1 (F := Ideal) V c).arrAt 7 cfg1.N : Arr (sh2 50000 64)) = nodeK (V c main_arg0) (V c main_v28) (V c main_v29) (V c main_v30) (V c main_v34) (V c main_arg10) (V c main_v35) :=
  (dat1 (F := Ideal) V c).arrAt_eq_of_cover 7 (nodeK (V c main_arg0) (V c main_v28) (V c main_v29) (V c main_v30) (V c main_v34) (V c main_arg10) (V c main_v35)) (fun t _ => rows_flushed V c t) rows_cover

/-- The tile sums after the region. -/
theorem node_tiles_final :
    ((dat1 (F := Ideal) V c).arrAt 8 cfg1.N : Arr (sh3 2 8 64)) = tilesOf 2 25000 (by norm_num) (nodeK (V c main_arg0) (V c main_v28) (V c main_v29) (V c main_v30) (V c main_v34) (V c main_arg10) (V c main_v35)) :=
  (dat1 (F := Ideal) V c).arrAt_eq_of_cover 8 (tilesOf 2 25000 (by norm_num) (nodeK (V c main_arg0) (V c main_v28) (V c main_v29) (V c main_v30) (V c main_v34) (V c main_arg10) (V c main_v35))) (fun t _ => tiles_flushed V c t) tiles_cover

end

end Cert.KernelIdeal.Val

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.HostHead.lean ====
/-
  The host operations before region 0, read at the ideal instance: the rows of `x` the edge list names (every index in
  range, so no row is replaced by the fill value), the three 64-row blocks of the first edge weight matrix, the
  effective bias row (the bias plus the global row's partial product), and the second bias as a row.
-/
import proofs.«417691_j25598005084727_2_alg».proof.Proof.ValDefs
import proofs.«417691_j25598005084727_2_alg».proof.Proof.LibGatherScatter
import Idealize.ShloMosaic.Lib.StableHlo.Run
import Idealize.ShloMosaic.Lib.StableHlo.Predicate
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

namespace Head

/-! ## Reading the shape operations at an index -/

/-- Row `o` of a two-row integer array, cut out as a `[1, M]` slice and flattened, reads at `i` the array at `(o, i)`. -/
theorem row_read {M : Nat} (ei : (sh2 2 M).Idx → BitVec 32) (o : Nat) (ho : o < 2)
    (hs : (sh2 2 M).Slices ![o, 0] (sh2 1 M)) (hc : (sh2 1 M).ShapeCasts (sh1 M)) (i : (sh1 M).Idx) :
    shapeCast (sh1 M) (extractStridedSlice (sh2 1 M) ![o, 0] ei hs) hc i = ei (ix2 ⟨o, ho⟩ (i 0)) := by
  rw [shapeCast_apply _ hc i (ix2 0 (i 0)) ?_, extractStridedSlice_apply _ _ hs (ix2 0 (i 0)) (ix2 ⟨o, ho⟩ (i 0)) ?_]
  · intro a
    match a with
    | ⟨0, _⟩ => rfl
    | ⟨1, _⟩ => exact (Nat.zero_add _).symm
  · rw [Shape.rowMajor_val_two, Shape.rowMajor_val_one]
    show 0 * M + (i 0).val = (i 0).val
    omega

/-- Rows `o … o+63` of a matrix, cut out as a slice, read at `i` the matrix at row `o + i₀`. -/
theorem rows_read {K : Nat} (W : Arr (sh2 K 128)) (o : Nat) (ho : o + 64 ≤ K)
    (hs : (sh2 K 128).Slices ![o, 0] (sh2 64 128)) :
    extractStridedSlice (sh2 64 128) ![o, 0] W hs = rows64 o ho W := by
  funext i
  refine extractStridedSlice_apply _ _ hs i _ ?_
  intro a
  match a with
  | ⟨0, _⟩ => rfl
  | ⟨1, _⟩ => exact (Nat.zero_add _).symm

/-- A vector reshaped to a one-row matrix reads at `i` the vector at the column. -/
theorem asRow_read {n : Nat} (b : Arr (sh1 n)) (hc : (sh1 n).ShapeCasts (sh2 1 n)) :
    shapeCast (sh2 1 n) b hc = asRow b := by
  funext i
  refine shapeCast_apply _ hc i (ix1 (i 1)) ?_
  rw [Shape.rowMajor_val_two, Shape.rowMajor_val_one]
  have h0 : (i 0).val = 0 := by have := idx2_lt0 i; omega
  show (i 1).val = (i 0).val * n + (i 1).val
  rw [h0]; omega

/-! ## Words in range -/

theorem cmpi_slt_zero_of_nonneg (r : BitVec 32) (h0 : 0 ≤ r.toInt) : IntOp.cmpi .slt r 0#32 = 0#1 := by
  have e : r.slt 0#32 = false := by
    rw [BitVec.slt_eq_decide, decide_eq_false_iff_not]
    have : (0#32 : BitVec 32).toInt = 0 := by decide
    omega
  show BitVec.ofBool (r.slt 0#32) = 0#1
  rw [e]; rfl

theorem cmpi_sge_zero_of_nonneg (r : BitVec 32) (h0 : 0 ≤ r.toInt) : IntOp.cmpi .sge r 0#32 = 1#1 := by
  have e : (0#32 : BitVec 32).sle r = true := by
    rw [BitVec.sle_eq_decide, decide_eq_true_iff]
    have : (0#32 : BitVec 32).toInt = 0 := by decide
    omega
  show BitVec.ofBool ((0#32 : BitVec 32).sle r) = 1#1
  rw [e]; rfl

theorem cmpi_sle_of_lt (r : BitVec 32) (h1 : r.toInt < 50000) : IntOp.cmpi .sle r 49999#32 = 1#1 := by
  have e : r.sle 49999#32 = true := by
    rw [BitVec.sle_eq_decide, decide_eq_true_iff]
    have : (49999#32 : BitVec 32).toInt = 49999 := by decide
    omega
  show BitVec.ofBool (r.sle 49999#32) = 1#1
  rw [e]; rfl

/-- A conjunction-reduce of an all-ones array, from a one, is a one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize ((List.finRange s.numel).map s.rowMajor.symm).filter (fun i => h.drop i = j) = l
  induction l with
  | nil => rfl
  | cons a l ih =>
    rw [List.foldl_cons, hx a]
    exact ih

/-! ## `x[idx]` as the program computes it -/

/-- The index vector as a column, a negative entry counted from the end. -/
def takeIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The mask of the rows whose index lies inside the array. -/
def takeMask (r : IVec S800000 32) : IVec S800000 1 :=
  Host.reduce IntOp.andi
    (andi (cmpi .sge (takeIdx r) (broadcastInDim S800000x1 ![] bcast_S_S800000x1 (constantI S_ 32 0#32)))
      (cmpi .sle (takeIdx r) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gathered rows, a masked-out row replaced by the fill word. -/
def takeTerm (x : FVec Ideal S50000x64 .f32) (r : IVec S800000 32) : FVec Ideal S800000x64 .f32 :=
  select (broadcastInDim S800000x64 ![0] bcast_S800000_S800000x64_0 (takeMask r))
    (Host.gather gather_S50000x64_S800000x1_S800000x64_1_0_n_n_0_1_164 x (takeIdx r))
    (broadcastInDim S800000x64 ![] bcast_S_S800000x64 (constant (F := Ideal) S_ .f32 0x7FC00000#32))

/-- The column of indices read at `(e, 0)`: entry `e`, a negative one moved up by the number of rows. -/
theorem takeIdx_apply (r : IVec S800000 32) (i : S800000x1.Idx) :
    takeIdx r i = Scalar.select (IntOp.cmpi .slt (r (ix1 (i 0))) 0#32) (IntOp.addi (r (ix1 (i 0))) 50000#32) (r (ix1 (i 0))) := by
  unfold takeIdx
  rw [broadcastInDim_apply _ bcast_S800000_S800000x1_0 _ i (ix1 (i 0)) ?_]
  · rfl
  · intro a
    match a with
    | ⟨0, _⟩ =>
      show (i 0).val = if (800000 : Nat) = 1 then 0 else (i 0).val
      rw [if_neg (by decide)]

/-- With every index in range the mask is one everywhere. -/
theorem takeMask_apply (r : IVec S800000 32) (hin : ∀ e : S800000.Idx, 0 ≤ (r e).toInt ∧ (r e).toInt < 50000)
    (j : S800000.Idx) : takeMask r j = 1#1 := by
  unfold takeMask
  refine reduce_andi_ones _ _ _ _ (fun i => ?_) (fun k => rfl) j
  show IntOp.andi (IntOp.cmpi .sge (takeIdx r i) 0#32) (IntOp.cmpi .sle (takeIdx r i) 49999#32) = 1#1
  obtain ⟨h0, h1⟩ := hin (ix1 (i 0))
  rw [takeIdx_apply, cmpi_slt_zero_of_nonneg _ h0, select_zero, cmpi_sge_zero_of_nonneg _ h0, cmpi_sle_of_lt _ h1]
  rfl

/-- With every index in range, `x[idx]` reads at `(e, f)` the row of `x` the (wrapped, clamped) index `e` names. -/
theorem takeTerm_apply (x : FVec Ideal S50000x64 .f32) (r : IVec S800000 32)
    (hin : ∀ e : S800000.Idx, 0 ≤ (r e).toInt ∧ (r e).toInt < 50000) (e : Fin 800000) (f : Fin 64) :
    takeTerm x r (ix2 e f)
      = x (ix2 ⟨min (Scalar.select (IntOp.cmpi .slt (r (ix1 e)) 0#32) (IntOp.addi (r (ix1 e)) 50000#32) (r (ix1 e))).toInt.toNat
          (50000 - 1), by omega⟩ f) := by
  unfold takeTerm
  rw [ValueIdx.select_apply, broadcastInDim_apply _ bcast_S800000_S800000x64_0 _ (ix2 e f) (ix1 e) ?_,
    takeMask_apply r hin, select_one]
  · refine (GatherScatter.rowGather_apply (N := 50000) (C := 64) (M := 800000) (by decide)
      gather_S50000x64_S800000x1_S800000x64_1_0_n_n_0_1_164.wf x (takeIdx r) e f).trans ?_
    refine congrArg x (congrArg (fun q => ix2 q f) (Fin.ext ?_))
    show min (takeIdx r (ix2 e 0)).toInt.toNat (50000 - 1) = _
    rw [takeIdx_apply r (ix2 e 0)]
  · intro a
    match a with
    | ⟨0, _⟩ =>
      show e.val = if (800000 : Nat) = 1 then 0 else e.val
      rw [if_neg (by decide)]

/-! ## The global row's partial product -/

theorem dot_lhs0 (i : S1x128.Idx) (q : dot_S1x64_S64x128_S1x128_1_0_0_1_n_n.contr.Idx) :
    (dot_S1x64_S64x128_S1x128_1_0_0_1_n_n.lhsIdx i q 0).val = (i 0).val := by
  unfold DotDims.lhsIdx
  rw [dif_neg (show ¬(0 : Fin S1x64.rank) ∈ dot_S1x64_S64x128_S1x128_1_0_0_1_n_n.lhsBatch by decide),
    dif_pos (show (0 : Fin S1x64.rank) ∈ dot_S1x64_S64x128_S1x128_1_0_0_1_n_n.lhsNonContracting by decide)]
  rfl
theorem dot_lhs1 (i : S1x128.Idx) (q : dot_S1x64_S64x128_S1x128_1_0_0_1_n_n.contr.Idx) :
    (dot_S1x64_S64x128_S1x128_1_0_0_1_n_n.lhsIdx i q 1).val = (q ⟨0, by decide⟩).val :=
  dot_S1x64_S64x128_S1x128_1_0_0_1_n_n.lhsIdx_val_of_single rfl i q
theorem dot_rhs0 (i : S1x128.Idx) (q : dot_S1x64_S64x128_S1x128_1_0_0_1_n_n.contr.Idx) :
    (dot_S1x64_S64x128_S1x128_1_0_0_1_n_n.rhsIdx i q 0).val = (q ⟨0, by decide⟩).val :=
  dot_S1x64_S64x128_S1x128_1_0_0_1_n_n.rhsIdx_val_of_single rfl i q
theorem dot_rhs1 (i : S1x128.Idx) (q : dot_S1x64_S64x128_S1x128_1_0_0_1_n_n.contr.Idx) :
    (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide),
    dif_pos (show (1 : Fin S64x128.rank) ∈ dot_S1x64_S64x128_S1x128_1_0_0_1_n_n.rhsNonContracting by decide)]
  rfl

/-- A one-row matrix times a 64-row block, read at a column: the sum over the 64 contracted coordinates. -/
theorem dot_row_read (g : FVec Ideal S1x64 .f32) (w : FVec Ideal S64x128 .f32) (i : S1x128.Idx) :
    Host.dotGeneral dot_S1x64_S64x128_S1x128_1_0_0_1_n_n none g w i = ∑ k : Fin 64, g (ix2 0 k) * w (ix2 k (i 1)) := by
  simp only [Host.dotGeneral]
  rw [Ideal.dotGeneral_apply, ← Equiv.sum_comp (contrEquiv1 dot_S1x64_S64x128_S1x128_1_0_0_1_n_n 64 rfl rfl).symm]
  refine Finset.sum_congr rfl fun k _ => ?_
  have hk := contrEquiv1_symm_val dot_S1x64_S64x128_S1x128_1_0_0_1_n_n 64 rfl rfl k
  have el : dot_S1x64_S64x128_S1x128_1_0_0_1_n_n.lhsIdx i ((contrEquiv1 dot_S1x64_S64x128_S1x128_1_0_0_1_n_n 64 rfl rfl).symm k)
      = ix2 0 k := funext fun a => Fin.ext (by
    match a with
    | ⟨0, _⟩ =>
      refine (dot_lhs0 _ _).trans ?_
      have := idx2_lt0 i
      show (i 0).val = 0
      omega
    | ⟨1, _⟩ => exact (dot_lhs1 _ _).trans hk)
  have er : dot_S1x64_S64x128_S1x128_1_0_0_1_n_n.rhsIdx i ((contrEquiv1 dot_S1x64_S64x128_S1x128_1_0_0_1_n_n 64 rfl rfl).symm k)
      = ix2 k (i 1) := funext fun a => Fin.ext (by
    match a with
    | ⟨0, _⟩ => exact (dot_rhs0 _ _).trans hk
    | ⟨1, _⟩ => exact dot_rhs1 _ _)
  rw [el, er]
  rfl

/-! ## The typed references of the two `take` calls

A call's operation reads and writes its buffers through the transport along "this buffer's type is the value's"; at a
literal reference the transport is the identity. -/

theorem ofBuf_toBuf {T : BufTy} (x : StableHlo.TRef sig T) (t : T.Contents (Elt Ideal)) : x.ofBuf (x.toBuf t) = t := by
  obtain ⟨r, rfl, _, _⟩ := x; rfl
theorem ofBuf_v1 (p1 p2 p3) (v : (Proc.devRef (τ := τ) .tc main_v1).ty.Contents (Elt Ideal)) :
    (StableHlo.TRef.of (T := ⟨S800000, .i32⟩) main_v1 p1 p2 p3).ofBuf v = v := rfl
theorem ofBuf_v3 (p1 p2 p3) (v : (Proc.devRef (τ := τ) .tc main_v3).ty.Contents (Elt Ideal)) :
    (StableHlo.TRef.of (T := ⟨S800000, .i32⟩) main_v3 p1 p2 p3).ofBuf v = v := rfl
theorem ofBuf_arg0 (p1 p2 p3) (v : (Proc.devRef (τ := τ) .tc main_arg0).ty.Contents (Elt Ideal)) :
    (StableHlo.TRef.of (T := ⟨S50000x64, .f32⟩) main_arg0 p1 p2 p3).ofBuf v = v := rfl
theorem toBuf_v4 (p1 p2 p3) (v : (⟨S800000x64, .f32⟩ : BufTy).Contents (Elt Ideal)) :
    (StableHlo.TRef.of (T := ⟨S800000x64, .f32⟩) main_v4 p1 p2 p3).toBuf v = v := rfl
theorem toBuf_v5 (p1 p2 p3) (v : (⟨S800000x64, .f32⟩ : BufTy).Contents (Elt Ideal)) :
    (StableHlo.TRef.of (T := ⟨S800000x64, .f32⟩) main_v5 p1 p2 p3).toBuf v = v := rfl

set_option maxHeartbeats 4000000 in
/-- The first call's result, from any contents before it. -/
theorem after_take0 (V : Valuation τ sig (Elt Ideal)) :
    StableHlo.after hostOps0_1 V (Proc.devRef .tc main_v4)
      = takeTerm (V (Proc.devRef .tc main_arg0)) (V (Proc.devRef .tc main_v1)) := by
  after_results_simp
  simp only [ofBuf_toBuf, ofBuf_v1, ofBuf_arg0, toBuf_v4]
  rfl

set_option maxHeartbeats 4000000 in
/-- The second call's result, from any contents before it. -/
theorem after_take1 (V : Valuation τ sig (Elt Ideal)) :
    StableHlo.after hostOps0_2 V (Proc.devRef .tc main_v5)
      = takeTerm (V (Proc.devRef .tc main_arg0)) (V (Proc.devRef .tc main_v3)) := by
  after_results_simp
  simp only [ofBuf_toBuf, ofBuf_v3, ofBuf_arg0, toBuf_v5]
  rfl

end Head

open Head

section
variable (m : (ℓ : Loc nD τ sig) → Buf (Elt Ideal) ℓ) (c : Dev nD)

/-- The sender indices as the first call reads them: row 0 of the edge list. -/
theorem head_W1_v1 : (W1 m c main_v1 : Arr' (sh1 800000)) = fun i => aEI m c (ix2 0 (i 0)) := by
  show StableHlo.after hostOps0 (W0 m c) (Proc.devRef .tc main_v1) = _
  after_results
  funext i
  exact row_read (aEI m c) 0 (by omega) slices_S2x800000_S1x800000_0_0 shapeCasts_S1x800000_S800000 i

/-- The receiver indices as the second call reads them: row 1 of the edge list. -/
theorem head_W1_v3 : (W1 m c main_v3 : Arr' (sh1 800000)) = fun i => aEI m c (ix2 1 (i 0)) := by
  show StableHlo.after hostOps0 (W0 m c) (Proc.devRef .tc main_v3) = _
  after_results
  funext i
  exact row_read (aEI m c) 1 (by omega) slices_S2x800000_S1x800000_1_0 shapeCasts_S1x800000_S800000 i

theorem head_v4 (h : InRange (aEI m c)) : (Hand.V4 m c main_v4 : Arr (sh2 800000 64)) = gatherClamp (aX m c) (wrapIdx (aEI m c) 0) := by
  show W4 m c main_v4 = _
  rw [W4_of m c main_v4 (by decide), W3_of m c main_v4 (by decide)]
  show StableHlo.after hostOps0_1 (W1 m c) (Proc.devRef .tc main_v4) = _
  rw [after_take0, W1_of m c main_arg0 (by decide), head_W1_v1]
  funext i
  obtain ⟨e, f, rfl⟩ : ∃ e f, i = ix2 e f := ⟨i 0, i 1, eq_ix2 i⟩
  exact (takeTerm_apply (aX m c) (fun i => aEI m c (ix2 0 (i 0))) (fun e => h 0 (e 0)) e f).trans rfl

theorem head_v5 (h : InRange (aEI m c)) : (Hand.V4 m c main_v5 : Arr (sh2 800000 64)) = gatherClamp (aX m c) (wrapIdx (aEI m c) 1) := by
  show W4 m c main_v5 = _
  rw [W4_of m c main_v5 (by decide)]
  show StableHlo.after hostOps0_2 (W2 m c) (Proc.devRef .tc main_v5) = _
  rw [after_take1, W2_of m c main_arg0 (by decide), W1_of m c main_arg0 (by decide), W2_of m c main_v3 (by decide), head_W1_v3]
  funext i
  obtain ⟨e, f, rfl⟩ : ∃ e f, i = ix2 e f := ⟨i 0, i 1, eq_ix2 i⟩
  exact (takeTerm_apply (aX m c) (fun i => aEI m c (ix2 1 (i 0))) (fun e => h 1 (e 0)) e f).trans rfl

theorem head_arg2 : (Hand.V4 m c main_arg2 : Arr (sh2 800000 64)) = aEA m c := by
  show W4 m c main_arg2 = _
  rw [W4_of m c main_arg2 (by decide), W3_of m c main_arg2 (by decide), W2_of m c main_arg2 (by decide),
    W1_of m c main_arg2 (by decide)]

/-- The first edge weight matrix is untouched before the weights are cut. -/
theorem head_W3_arg4 : W3 m c main_arg4 = aEW1 m c := by
  rw [W3_of m c main_arg4 (by decide), W2_of m c main_arg4 (by decide), W1_of m c main_arg4 (by decide)]

theorem head_v6 : (Hand.V4 m c main_v6 : Arr (sh2 64 128)) = rows64 0 (by omega) (aEW1 m c) := by
  have e := head_W3_arg4 m c
  show StableHlo.after hostOps0_3 (W3 m c) (Proc.devRef .tc main_v6) = _
  generalize W3 m c = V at e
  after_results
  rw [e]
  exact rows_read (aEW1 m c) 0 (by omega) slices_S256x128_S64x128_0_0

theorem head_v7 : (Hand.V4 m c main_v7 : Arr (sh2 64 128)) = rows64 64 (by omega) (aEW1 m c) := by
  have e := head_W3_arg4 m c
  show StableHlo.after hostOps0_3 (W3 m c) (Proc.devRef .tc main_v7) = _
  generalize W3 m c = V at e
  after_results
  rw [e]
  exact rows_read (aEW1 m c) 64 (by omega) slices_S256x128_S64x128_64_0

theorem head_v8 : (Hand.V4 m c main_v8 : Arr (sh2 64 128)) = rows64 128 (by omega) (aEW1 m c) := by
  have e := head_W3_arg4 m c
  show StableHlo.after hostOps0_3 (W3 m c) (Proc.devRef .tc main_v8) = _
  generalize W3 m c = V at e
  after_results
  rw [e]
  exact rows_read (aEW1 m c) 128 (by omega) slices_S256x128_S64x128_128_0

theorem head_v12 : (Hand.V4 m c main_v12 : Arr (sh2 1 128)) = biasEff 192 (by omega) (aG m c) (aEW1 m c) (aEB1 m c) := by
  have e3 : W3 m c main_arg3 = aG m c := by
    rw [W3_of m c main_arg3 (by decide), W2_of m c main_arg3 (by decide), W1_of m c main_arg3 (by decide)]
  have e4 := head_W3_arg4 m c
  have e5 : W3 m c main_arg5 = aEB1 m c := by
    rw [W3_of m c main_arg5 (by decide), W2_of m c main_arg5 (by decide), W1_of m c main_arg5 (by decide)]
  show StableHlo.after hostOps0_3 (W3 m c) (Proc.devRef .tc main_v12) = _
  generalize W3 m c = V at e3 e4 e5
  after_results
  rw [e3, e4, e5]
  funext i
  show shapeCast S1x128 (aEB1 m c) shapeCasts_S128_S1x128 i
      + Host.dotGeneral (F := Ideal) dot_S1x64_S64x128_S1x128_1_0_0_1_n_n none (aG m c)
          (extractStridedSlice S64x128 ![192, 0] (aEW1 m c) slices_S256x128_S64x128_192_0) i = _
  rw [asRow_read, rows_read (aEW1 m c) 192 (by omega), dot_row_read]
  rfl

theorem head_arg6 : (Hand.V4 m c main_arg6 : Arr (sh2 128 64)) = aEW2 m c := by
  show W4 m c main_arg6 = _
  rw [W4_of m c main_arg6 (by decide), W3_of m c main_arg6 (by decide), W2_of m c main_arg6 (by decide),
    W1_of m c main_arg6 (by decide)]

theorem head_v13 : (Hand.V4 m c main_v13 : Arr (sh2 1 64)) = asRow (aEB2 m c) := by
  have e : W3 m c main_arg7 = aEB2 m c := by
    rw [W3_of m c main_arg7 (by decide), W2_of m c main_arg7 (by decide), W1_of m c main_arg7 (by decide)]
  show StableHlo.after hostOps0_3 (W3 m c) (Proc.devRef .tc main_v13) = _
  generalize W3 m c = V at e
  after_results
  rw [e]
  exact asRow_read (aEB2 m c) shapeCasts_S64_S1x64

/-- The receiver indices as the scatter reads them: row 1 of the edge list. -/
theorem head_v3 : (W4 m c main_v3 : Arr' (sh1 800000)) = fun i => aEI m c (ix2 1 (i 0)) := by
  rw [W4_of m c main_v3 (by decide), W3_of m c main_v3 (by decide), W2_of m c main_v3 (by decide)]
  exact head_W1_v3 m c

end

end Cert.KernelIdeal.Val

end
-- ==== Proof.HostMid.lean ====
/-
  The host operations between the two regions, read at the ideal instance: the edge totals from the tile sums; the
  scatter of [new edge rows | ones] onto the receivers, its first 64 columns over the larger of its last column and one
  (the mean of each node's incoming edges); the two 64-row blocks of the first node weight matrix, the effective bias
  row and the second bias as a row.
-/
import proofs.«417691_j25598005084727_2_alg».proof.Proof.ValDefs
import proofs.«417691_j25598005084727_2_alg».proof.Proof.LibGatherScatter
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

section
variable (m : (ℓ : Loc nD τ sig) → Buf (Elt Ideal) ℓ) (c : Dev nD)

/-- A buffer that no host stretch before region 0 writes, and that is not one of region 0's arrays, holds at region
    0's exit what it held at launch. -/
theorem mid_keep5 (r : Ref sig .tc) (h5 : ∀ w, Pipeline.arrRef spec0 w ≠ r)
    (h4 : r ∉ (hostOps0_3_W : List (Ref sig .tc))) (h3 : r ∉ (hostOps0_2_W : List (Ref sig .tc)))
    (h2 : r ∉ (hostOps0_1_W : List (Ref sig .tc))) (h1 : r ∉ (hostOps0_W : List (Ref sig .tc))) :
    W5 m c r = m ((c : Thread nD τ).loc r) :=
  calc W5 m c r = W4 m c r := W5_of_ne m c r h5
    _ = W3 m c r := W4_of m c r h4
    _ = W2 m c r := W3_of m c r h3
    _ = W1 m c r := W2_of m c r h2
    _ = W0 m c r := W1_of m c r h1
    _ = m ((c : Thread nD τ).loc r) := rfl

theorem mid_arg0 : (V6 m c main_arg0 : Arr (sh2 50000 64)) = aX m c :=
  (W6_of m c main_arg0 (by decide)).trans
    (mid_keep5 m c main_arg0 (by decide) (by decide) (by decide) (by decide) (by decide))

theorem mid_arg10 : (V6 m c main_arg10 : Arr (sh2 128 64)) = aNW2 m c :=
  (W6_of m c main_arg10 (by decide)).trans
    (mid_keep5 m c main_arg10 (by decide) (by decide) (by decide) (by decide) (by decide))

/-- The first 64 rows of the node matrix: a slice at row offset 0. -/
theorem mid_v29 : (V6 m c main_v29 : Arr (sh2 64 128)) = rows64 0 (by omega) (aNW1 m c) := by
  show StableHlo.after hostOps1 (W5 m c) (Proc.devRef .tc main_v29) = _
  after_results
  rw [mid_keep5 m c main_arg8 (by decide) (by decide) (by decide) (by decide) (by decide)]
  funext i
  exact extractStridedSlice_apply _ _ _ i (ix2 ⟨0 + (i 0).val, by have := idx2_lt0 i; omega⟩ (i 1))
    (fun a => match a with
      | ⟨0, _⟩ => rfl
      | ⟨1, _⟩ => (Nat.zero_add _).symm)

/-- Rows 64 … 127: a slice at row offset 64. -/
theorem mid_v30 : (V6 m c main_v30 : Arr (sh2 64 128)) = rows64 64 (by omega) (aNW1 m c) := by
  show StableHlo.after hostOps1 (W5 m c) (Proc.devRef .tc main_v30) = _
  after_results
  rw [mid_keep5 m c main_arg8 (by decide) (by decide) (by decide) (by decide) (by decide)]
  funext i
  exact extractStridedSlice_apply _ _ _ i (ix2 ⟨64 + (i 0).val, by have := idx2_lt0 i; omega⟩ (i 1))
    (fun a => match a with
      | ⟨0, _⟩ => rfl
      | ⟨1, _⟩ => (Nat.zero_add _).symm)

/-- The second bias, reshaped to one row. -/
theorem mid_v35 : (V6 m c main_v35 : Arr (sh2 1 64)) = asRow (aNB2 m c) := by
  show StableHlo.after hostOps1 (W5 m c) (Proc.devRef .tc main_v35) = _
  after_results
  rw [mid_keep5 m c main_arg11 (by decide) (by decide) (by decide) (by decide) (by decide)]
  funext i
  rw [eq_ix2 i]
  exact shapeCast_a_1a_apply (aNB2 m c) shapeCasts_S64_S1x64 (i 0) (i 1)

/-- The right operand's column coordinate in the row-times-block product is the result's. -/
theorem mid_rowDot_rhs1 (i : S1x128.Idx) (q : dot_S1x64_S64x128_S1x128_1_0_0_1_n_n.contr.Idx) :
    (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide),
    dif_pos (show (1 : Fin S64x128.rank) ∈ dot_S1x64_S64x128_S1x128_1_0_0_1_n_n.rhsNonContracting by decide)]
  rfl

/-- The global row times a 64-row block: the contraction's one axis read as its coordinate. -/
theorem mid_rowDot_apply (g : Arr (sh2 1 64)) (w : Arr (sh2 64 128)) (i : (sh2 1 128).Idx) :
    Host.dotGeneral (F := Ideal) (φ₁ := .f32) (φ₂ := .f32) dot_S1x64_S64x128_S1x128_1_0_0_1_n_n none g w i
      = ∑ k : Fin 64, g (ix2 0 k) * w (ix2 k (i 1)) := by
  simp only [Host.dotGeneral]
  rw [Ideal.dotGeneral_apply,
    ← Equiv.sum_comp (ValueIdx.contrEquiv1 dot_S1x64_S64x128_S1x128_1_0_0_1_n_n 64 rfl rfl).symm]
  refine Finset.sum_congr rfl fun k _ => ?_
  have hk := ValueIdx.contrEquiv1_symm_val dot_S1x64_S64x128_S1x128_1_0_0_1_n_n 64 rfl rfl k
  have el : dot_S1x64_S64x128_S1x128_1_0_0_1_n_n.lhsIdx i
      ((ValueIdx.contrEquiv1 dot_S1x64_S64x128_S1x128_1_0_0_1_n_n 64 rfl rfl).symm k) = ix2 0 k :=
    funext fun a => Fin.ext (by
      match a with
      | ⟨0, _⟩ =>
        have h0 := (dot_S1x64_S64x128_S1x128_1_0_0_1_n_n.lhsIdx i
          ((ValueIdx.contrEquiv1 dot_S1x64_S64x128_S1x128_1_0_0_1_n_n 64 rfl rfl).symm k) ⟨0, by decide⟩).isLt
        show _ = 0
        exact Nat.lt_one_iff.mp h0
      | ⟨1, _⟩ => exact (dot_S1x64_S64x128_S1x128_1_0_0_1_n_n.lhsIdx_val_of_single rfl i _).trans hk)
  have er : dot_S1x64_S64x128_S1x128_1_0_0_1_n_n.rhsIdx i
      ((ValueIdx.contrEquiv1 dot_S1x64_S64x128_S1x128_1_0_0_1_n_n 64 rfl rfl).symm k) = ix2 k (i 1) :=
    funext fun a => Fin.ext (by
      match a with
      | ⟨0, _⟩ => exact (dot_S1x64_S64x128_S1x128_1_0_0_1_n_n.rhsIdx_val_of_single rfl i _).trans hk
      | ⟨1, _⟩ => exact mid_rowDot_rhs1 i _)
  rw [el, er]
  rfl

/-- The effective bias row: the first bias as a row plus the global row's product with rows 128 … 191. -/
theorem mid_v34 : (V6 m c main_v34 : Arr (sh2 1 128)) = biasEff 128 (by omega) (aG m c) (aNW1 m c) (aNB1 m c) := by
  show StableHlo.after hostOps1 (W5 m c) (Proc.devRef .tc main_v34) = _
  after_results
  rw [mid_keep5 m c main_arg8 (by decide) (by decide) (by decide) (by decide) (by decide),
    mid_keep5 m c main_arg9 (by decide) (by decide) (by decide) (by decide) (by decide),
    mid_keep5 m c main_arg3 (by decide) (by decide) (by decide) (by decide) (by decide)]
  funext i
  refine (addf_apply _ _ i).trans ?_
  show _ = aNB1 m c (ix1 (i 1)) + ∑ k : Fin 64, aG m c (ix2 0 k) * aNW1 m c (ix2 ⟨128 + k.val, by omega⟩ (i 1))
  refine congrArg₂ (· + ·) ?_ ?_
  · rw [eq_ix2 i]
    exact shapeCast_a_1a_apply (aNB1 m c) shapeCasts_S128_S1x128 (i 0) (i 1)
  · refine (mid_rowDot_apply (aG m c) _ i).trans ?_
    refine Finset.sum_congr rfl fun k _ => ?_
    refine congrArg (aG m c (ix2 0 k) * ·) ?_
    exact extractStridedSlice_apply _ _ _ (ix2 k (i 1)) (ix2 ⟨128 + k.val, by omega⟩ (i 1))
      (fun a => match a with
        | ⟨0, _⟩ => rfl
        | ⟨1, _⟩ => (Nat.zero_add _).symm)

/-- A sum over 320 rows regrouped as 40 tiles of 8 slots: row `8 t + s` is slot `s` of tile `t`. -/
theorem mid_sum_320 (H : Fin 320 → EReal) :
    ∑ k : Fin 320, H k = ∑ t : Fin 40, ∑ s : Fin 8, H ⟨s.val + 8 * t.val, by omega⟩ := by
  rw [← Equiv.sum_comp (finProdFinEquiv : Fin 40 × Fin 8 ≃ Fin 320) H, Fintype.sum_prod_type]
  rfl

/-- The tile slots flattened to 320 rows and summed down the rows from the zero word: the total over tiles and slots. -/
theorem mid_tiles_reduce (T : Arr (sh3 40 8 64)) (f : Fin 64) :
    Host.reduceAdd (F := Ideal) (φ := .f32) (shapeCast S320x64 T shapeCasts_S40x8x64_S320x64)
        (constant (F := Ideal) S_ .f32 0x00000000#32) reducesTo_S320x64_S64_d0 h_S_ (ix1 f)
      = c0 + ∑ t : Fin 40, ∑ s : Fin 8, T (ix3 t s f) := by
  have hR : S320x64.Reduces [0] S64 := by decide
  refine (Ideal.hostReduceAdd_single reducesTo_S320x64_S64_d0 hR _ _ (ix1 f)).trans ?_
  refine congrArg₂ (· + ·) rfl ?_
  refine (mid_sum_320 _).trans ?_
  refine Finset.sum_congr rfl fun t _ => Finset.sum_congr rfl fun s _ => ?_
  refine shapeCast_apply T shapeCasts_S40x8x64_S320x64 _ (ix3 t s f) ?_
  rw [Shape.rowMajor_val_three, Shape.rowMajor_val_two]
  show (t.val * 8 + s.val) * 64 + f.val = (s.val + 8 * t.val) * 64 + f.val
  omega

/-- The edge totals as a row. -/
theorem mid_v17 : (W6 m c main_v17 : Arr (sh2 1 64)) = asRow (totTiles (W5 m c main_v14_1 : Arr (sh3 40 8 64))) := by
  show StableHlo.after hostOps1 (W5 m c) (Proc.devRef .tc main_v17) = _
  after_results
  funext i
  refine (broadcastInDim_apply _ bcast_S64_S1x64_1 _ i (ix1 (i 1)) (fun a => match a with
    | ⟨0, _⟩ => by show (i 1).val = if (64 : Nat) = 1 then 0 else (i 1).val; rw [if_neg (by decide)])).trans ?_
  exact mid_tiles_reduce (W5 m c main_v14_1) (i 1)

/-- The rows `[a | 1]` accumulated onto the nodes that `idx` names, from the zero matrix. -/
def mid_scat (idx : Arr' (sh1 800000)) (a : Arr (sh2 800000 64)) : Arr (sh2 50000 65) :=
  Host.scatterAdd (F := Ideal) (φ := .f32) scatter_S50000x65_S800000x1_S800000x65_1_0_0_1
    (broadcastInDim S50000x65 ![] bcast_S_S50000x65 (constant (F := Ideal) S_ .f32 0x00000000#32))
    (broadcastInDim S800000x1 ![0] bcast_S800000_S800000x1_0 idx)
    (concatenate S800000x65 1 [⟨S800000x64, a⟩,
      ⟨S800000x1, broadcastInDim S800000x1 ![] bcast_S_S800000x1 (constant (F := Ideal) S_ .f32 0x3F800000#32)⟩]
      concatenates_S800000x64_S800000x1_S800000x65_d1)

/-- Column `g` of node `n`'s accumulated row: the zero word plus column `g` of the rows `[a | 1]` of the edges whose
    index, read signed, is `n`. -/
theorem mid_scat_apply (idx : Arr' (sh1 800000)) (a : Arr (sh2 800000 64)) (n : Fin 50000) (g : Fin 65) :
    mid_scat idx a (ix2 n g) = c0 + ∑ j ∈ Finset.univ.filter (fun j : Fin 800000 => (idx (ix1 j)).toInt = (n.val : Int)),
      (concatenate S800000x65 1 [⟨S800000x64, a⟩,
        ⟨S800000x1, broadcastInDim S800000x1 ![] bcast_S_S800000x1 (constant (F := Ideal) S_ .f32 0x3F800000#32)⟩]
        concatenates_S800000x64_S800000x1_S800000x65_d1 : Arr (sh2 800000 65)) (ix2 j g) := by
  have hidx : ∀ j : Fin 800000,
      broadcastInDim S800000x1 ![0] bcast_S800000_S800000x1_0 idx (ix2 j 0) = idx (ix1 j) := fun j =>
    broadcastInDim_apply _ bcast_S800000_S800000x1_0 idx (ix2 j 0) (ix1 j) (fun b => match b with
      | ⟨0, _⟩ => by show j.val = if (800000 : Nat) = 1 then 0 else j.val; rw [if_neg (by decide)])
  unfold mid_scat
  refine (GatherScatter.rowScatterAdd_apply scatter_S50000x65_S800000x1_S800000x65_1_0_0_1_wf _ _ _ n g).trans ?_
  refine congrArg₂ (· + ·) rfl ?_
  exact Finset.sum_congr (Finset.filter_congr fun j _ => by rw [hidx j]) fun j _ => rfl

/-- A feature column of the rows `[a | 1]` is `a`'s. -/
theorem mid_cat_left (a : Arr (sh2 800000 64)) (b : Arr (sh2 800000 1)) (j : Fin 800000) (f : Fin 64) :
    (concatenate S800000x65 1 [⟨S800000x64, a⟩, ⟨S800000x1, b⟩] concatenates_S800000x64_S800000x1_S800000x65_d1
      : Arr (sh2 800000 65)) (ix2 j ⟨f.val, by omega⟩) = a (ix2 j f) :=
  concatenate_pair_apply_left 1 a b concatenates_S800000x64_S800000x1_S800000x65_d1 (ix2 j ⟨f.val, by omega⟩) rfl
    (ix2 j f) (fun d => match d with
      | ⟨0, _⟩ => rfl
      | ⟨1, _⟩ => rfl)

/-- The last column of the rows `[a | 1]` is the appended one. -/
theorem mid_cat_right (a : Arr (sh2 800000 64)) (b : Arr (sh2 800000 1)) (j : Fin 800000) :
    (concatenate S800000x65 1 [⟨S800000x64, a⟩, ⟨S800000x1, b⟩] concatenates_S800000x64_S800000x1_S800000x65_d1
      : Arr (sh2 800000 65)) (ix2 j ⟨64, by omega⟩) = b (ix2 j 0) :=
  concatenate_pair_apply_right 1 a b concatenates_S800000x64_S800000x1_S800000x65_d1 (ix2 j ⟨64, by omega⟩) rfl rfl
    (ix2 j 0) (fun d hd => match d, hd with
      | ⟨0, _⟩, _ => rfl
      | ⟨1, _⟩, hd => absurd rfl hd)
    rfl

/-- The host operations after the scatter: the first 64 columns over the larger of the last column and one, is the
    mean over each node's incoming edges. -/
theorem mid_scat_mean (idx : Arr' (sh1 800000)) (a : Arr (sh2 800000 64)) :
    Host.divf (F := Ideal) (φ := .f32)
        (extractStridedSlice S50000x64 ![0, 0] (mid_scat idx a) slices_S50000x65_S50000x64_0_0)
        (broadcastInDim S50000x64 ![0, 1] bcast_S50000x1_S50000x64_0_1
          (maximumf (extractStridedSlice S50000x1 ![0, 64] (mid_scat idx a) slices_S50000x65_S50000x1_0_64)
            (broadcastInDim S50000x1 ![] bcast_S_S50000x1 (constant (F := Ideal) S_ .f32 0x3F800000#32))))
      = aggMean (fun e => (idx (ix1 e)).toInt) a := by
  have hd : ∀ (x y : Arr (sh2 50000 64)) (i : (sh2 50000 64).Idx),
      Host.divf (F := Ideal) (φ := .f32) x y i = Ideal.div (x i) (y i) := fun _ _ _ => rfl
  funext i
  refine (hd _ _ i).trans ?_
  unfold aggMean
  refine congrArg₂ Ideal.div ?_ ?_
  · -- the numerator: column `i 1` of node `i 0`'s accumulated row
    refine (extractStridedSlice_apply _ _ _ i (ix2 (i 0) ⟨(i 1).val, by have := idx2_lt1 i; omega⟩)
      (fun d => match d with
        | ⟨0, _⟩ => (Nat.zero_add _).symm
        | ⟨1, _⟩ => (Nat.zero_add _).symm)).trans ?_
    refine (mid_scat_apply idx a (i 0) _).trans ?_
    refine congrArg₂ (· + ·) rfl (Finset.sum_congr rfl fun j _ => ?_)
    exact mid_cat_left a _ j (i 1)
  · -- the denominator: the larger of the count column and one
    refine (broadcastInDim_apply _ bcast_S50000x1_S50000x64_0_1 _ i (ix2 (i 0) 0) (fun d => match d with
      | ⟨0, _⟩ => by show (i 0).val = if (50000 : Nat) = 1 then 0 else (i 0).val; rw [if_neg (by decide)]
      | ⟨1, _⟩ => by show (0 : Nat) = if (1 : Nat) = 1 then 0 else (i 1).val; rw [if_pos rfl])).trans ?_
    refine (maximumf_apply _ _ _).trans ?_
    refine congrArg₂ max ?_ rfl
    refine (extractStridedSlice_apply _ _ _ (ix2 (i 0) 0) (ix2 (i 0) ⟨64, by omega⟩)
      (fun d => match d with
        | ⟨0, _⟩ => (Nat.zero_add _).symm
        | ⟨1, _⟩ => rfl)).trans ?_
    refine (mid_scat_apply idx a (i 0) _).trans ?_
    refine congrArg₂ (· + ·) rfl (Finset.sum_congr rfl fun j _ => ?_)
    exact (mid_cat_right a _ j).trans rfl

/-- The receiver indices are still row 1 of the edge list when the scatter reads them (`hcol`: what the stretches
    before region 0 left in `main_v3`). -/
theorem mid_v28 (hcol : (W4 m c main_v3 : Arr' (sh1 800000)) = fun i => aEI m c (ix2 1 (i 0))) :
    (V6 m c main_v28 : Arr (sh2 50000 64)) = aggMean (colInt (aEI m c)) (W5 m c main_v14_0 : Arr (sh2 800000 64)) := by
  show StableHlo.after hostOps1 (W5 m c) (Proc.devRef .tc main_v28) = _
  after_results
  rw [W5_of_ne m c main_v3 (by decide), hcol]
  exact mid_scat_mean (fun i => aEI m c (ix2 1 (i 0))) (W5 m c main_v14_0)

end

end Cert.KernelIdeal.Val

end
-- ==== Proof.HostTail.lean ====
/-
  The host operations after region 1, read at the ideal instance: the node totals from the tile sums, the two means, and
  the global perceptron on [global | mean of nodes | mean of edges].
-/
import proofs.«417691_j25598005084727_2_alg».proof.Proof.ValDefs
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

open scoped BigOperators

namespace HostTail

/-! ### The host operations of the tail, each read at an index -/

/-- The first product: one row of 192 entries against a [192, 128] matrix. -/
theorem dotA_apply (l : (⟨S1x192, .f32⟩ : BufTy).Contents (Elt Ideal)) (r : (⟨S192x128, .f32⟩ : BufTy).Contents (Elt Ideal))
    (j : Fin 128) :
    Host.dotGeneral (F := Ideal) (φ₁ := .f32) (φ₂ := .f32) dot_S1x192_S192x128_S1x128_1_0_0_1_n_n none l r (ix2 0 j) = ∑ k : Fin 192, l (ix2 0 k) * r (ix2 k j) := by
  simp only [Host.dotGeneral]
  rw [Ideal.dotGeneral_apply, ← Equiv.sum_comp (contrEquiv1 dot_S1x192_S192x128_S1x128_1_0_0_1_n_n 192 rfl rfl).symm]
  refine Finset.sum_congr rfl fun k _ => ?_
  have hk := contrEquiv1_symm_val dot_S1x192_S192x128_S1x128_1_0_0_1_n_n 192 rfl rfl k
  have el : dot_S1x192_S192x128_S1x128_1_0_0_1_n_n.lhsIdx (ix2 0 j) ((contrEquiv1 dot_S1x192_S192x128_S1x128_1_0_0_1_n_n 192 rfl rfl).symm k) = ix2 0 k := by
    funext a; apply Fin.ext
    match a with
    | ⟨0, _⟩ =>
      show (dot_S1x192_S192x128_S1x128_1_0_0_1_n_n.lhsIdx (ix2 0 j) _ (0 : Fin S1x192.rank)).val = 0
      unfold DotDims.lhsIdx
      rw [dif_neg (show ¬(0 : Fin S1x192.rank) ∈ dot_S1x192_S192x128_S1x128_1_0_0_1_n_n.lhsBatch by decide),
        dif_pos (show (0 : Fin S1x192.rank) ∈ dot_S1x192_S192x128_S1x128_1_0_0_1_n_n.lhsNonContracting by decide)]
      rfl
    | ⟨1, _⟩ => exact (dot_S1x192_S192x128_S1x128_1_0_0_1_n_n.lhsIdx_val_of_single rfl _ _).trans hk
  have er : dot_S1x192_S192x128_S1x128_1_0_0_1_n_n.rhsIdx (ix2 0 j) ((contrEquiv1 dot_S1x192_S192x128_S1x128_1_0_0_1_n_n 192 rfl rfl).symm k) = ix2 k j := by
    funext a; apply Fin.ext
    match a with
    | ⟨0, _⟩ => exact (dot_S1x192_S192x128_S1x128_1_0_0_1_n_n.rhsIdx_val_of_single rfl _ _).trans hk
    | ⟨1, _⟩ =>
      show (dot_S1x192_S192x128_S1x128_1_0_0_1_n_n.rhsIdx (ix2 0 j) _ (1 : Fin S192x128.rank)).val = j.val
      unfold DotDims.rhsIdx
      rw [dif_neg (show ¬(1 : Fin S192x128.rank) ∈ dot_S1x192_S192x128_S1x128_1_0_0_1_n_n.rhsBatch by decide),
        dif_pos (show (1 : Fin S192x128.rank) ∈ dot_S1x192_S192x128_S1x128_1_0_0_1_n_n.rhsNonContracting by decide)]
      rfl
  rw [el, er]

/-- The second product: one row of 128 entries against a [128, 64] matrix. -/
theorem dotB_apply (l : (⟨S1x128, .f32⟩ : BufTy).Contents (Elt Ideal)) (r : (⟨S128x64, .f32⟩ : BufTy).Contents (Elt Ideal))
    (j : Fin 64) :
    Host.dotGeneral (F := Ideal) (φ₁ := .f32) (φ₂ := .f32) dot_S1x128_S128x64_S1x64_1_0_0_1_n_n none l r (ix2 0 j) = ∑ k : Fin 128, l (ix2 0 k) * r (ix2 k j) := by
  simp only [Host.dotGeneral]
  rw [Ideal.dotGeneral_apply, ← Equiv.sum_comp (contrEquiv1 dot_S1x128_S128x64_S1x64_1_0_0_1_n_n 128 rfl rfl).symm]
  refine Finset.sum_congr rfl fun k _ => ?_
  have hk := contrEquiv1_symm_val dot_S1x128_S128x64_S1x64_1_0_0_1_n_n 128 rfl rfl k
  have el : dot_S1x128_S128x64_S1x64_1_0_0_1_n_n.lhsIdx (ix2 0 j) ((contrEquiv1 dot_S1x128_S128x64_S1x64_1_0_0_1_n_n 128 rfl rfl).symm k) = ix2 0 k := by
    funext a; apply Fin.ext
    match a with
    | ⟨0, _⟩ =>
      show (dot_S1x128_S128x64_S1x64_1_0_0_1_n_n.lhsIdx (ix2 0 j) _ (0 : Fin S1x128.rank)).val = 0
      unfold DotDims.lhsIdx
      rw [dif_neg (show ¬(0 : Fin S1x128.rank) ∈ dot_S1x128_S128x64_S1x64_1_0_0_1_n_n.lhsBatch by decide),
        dif_pos (show (0 : Fin S1x128.rank) ∈ dot_S1x128_S128x64_S1x64_1_0_0_1_n_n.lhsNonContracting by decide)]
      rfl
    | ⟨1, _⟩ => exact (dot_S1x128_S128x64_S1x64_1_0_0_1_n_n.lhsIdx_val_of_single rfl _ _).trans hk
  have er : dot_S1x128_S128x64_S1x64_1_0_0_1_n_n.rhsIdx (ix2 0 j) ((contrEquiv1 dot_S1x128_S128x64_S1x64_1_0_0_1_n_n 128 rfl rfl).symm k) = ix2 k j := by
    funext a; apply Fin.ext
    match a with
    | ⟨0, _⟩ => exact (dot_S1x128_S128x64_S1x64_1_0_0_1_n_n.rhsIdx_val_of_single rfl _ _).trans hk
    | ⟨1, _⟩ =>
      show (dot_S1x128_S128x64_S1x64_1_0_0_1_n_n.rhsIdx (ix2 0 j) _ (1 : Fin S128x64.rank)).val = j.val
      unfold DotDims.rhsIdx
      rw [dif_neg (show ¬(1 : Fin S128x64.rank) ∈ dot_S1x128_S128x64_S1x64_1_0_0_1_n_n.rhsBatch by decide),
        dif_pos (show (1 : Fin S128x64.rank) ∈ dot_S1x128_S128x64_S1x64_1_0_0_1_n_n.rhsNonContracting by decide)]
      rfl
  rw [el, er]

/-- An index of a one-row array is `(0, j)`. -/
theorem row_idx {n : Nat} (i : (sh2 1 n).Idx) : ∃ j : Fin n, i = ix2 0 j := by
  refine ⟨i 1, funext fun a => ?_⟩
  match a with
  | ⟨0, _⟩ => exact Fin.ext (by have := idx2_lt0 i; show (i 0).val = 0; omega)
  | ⟨1, _⟩ => rfl

/-- A vector laid as the one row of a [1, n] array. -/
theorem bcastRow64_apply (x : (⟨S64, .f32⟩ : BufTy).Contents (Elt Ideal)) (j : Fin 64) :
    broadcastInDim S1x64 ![1] bcast_S64_S1x64_1 x (ix2 0 j) = x (ix1 j) :=
  broadcastInDim_apply _ _ x _ (ix1 j) (fun a => by match a with | ⟨0, _⟩ => rfl)

theorem bcastRow128_apply (x : (⟨S128, .f32⟩ : BufTy).Contents (Elt Ideal)) (j : Fin 128) :
    broadcastInDim S1x128 ![1] bcast_S128_S1x128_1 x (ix2 0 j) = x (ix1 j) :=
  broadcastInDim_apply _ _ x _ (ix1 j) (fun a => by match a with | ⟨0, _⟩ => rfl)

/-- Sixteen rows are two tiles of eight. -/
theorem sum16 (g : Fin 16 → EReal) :
    ∑ k : Fin 16, g k = ∑ t : Fin 2, ∑ s : Fin 8, g ⟨t.val * 8 + s.val, by have := t.isLt; have := s.isLt; omega⟩ := by
  rw [← Fintype.sum_prod_type (f := fun p : Fin 2 × Fin 8 => g ⟨p.1.val * 8 + p.2.val, by have := p.1.isLt; have := p.2.isLt; omega⟩)]
  refine (Fintype.sum_equiv (finProdFinEquiv (m := 2) (n := 8)) _ _ fun p => ?_).symm
  refine congrArg g (Fin.ext ?_)
  show p.1.val * 8 + p.2.val = p.2.val + 8 * p.1.val
  omega

/-- The tile sums reshaped to sixteen rows and added up from the zero word: the total over tiles and slots. -/
theorem total_apply (x : (⟨S2x8x64, .f32⟩ : BufTy).Contents (Elt Ideal)) (f : Fin 64) :
    Host.reduceAdd (F := Ideal) (shapeCast S16x64 x shapeCasts_S2x8x64_S16x64) (constant S_ .f32 0x00000000#32)
        reducesTo_S16x64_S64_d0 h_S_ (ix1 f)
      = totTiles x (ix1 f) := by
  have hR : S16x64.Reduces [0] S64 := by decide
  show Ideal.hostReduceAdd reducesTo_S16x64_S64_d0 (shapeCast S16x64 x shapeCasts_S2x8x64_S16x64) c0 (ix1 f) = _
  rw [Ideal.hostReduceAdd_single reducesTo_S16x64_S64_d0 hR]
  show c0 + ∑ k : Fin 16, shapeCast S16x64 x shapeCasts_S2x8x64_S16x64 (hR.lift (ix1 f) k) = c0 + ∑ t : Fin 2, ∑ s : Fin 8, x (ix3 t s f)
  rw [sum16]
  refine congrArg (c0 + ·) (Finset.sum_congr rfl fun t _ => Finset.sum_congr rfl fun s _ => ?_)
  refine shapeCast_apply x _ _ (ix3 t s f) ?_
  rw [Shape.rowMajor_val_three, Shape.rowMajor_val_two]
  show (t.val * 8 + s.val) * 64 + f.val = (t.val * 8 + s.val) * 64 + f.val
  rfl

/-- Three rows of 64 side by side, read at column `q`. -/
theorem cat_apply (a b d : (⟨S1x64, .f32⟩ : BufTy).Contents (Elt Ideal)) (q : Fin 192) :
    concatenate S1x192 1 [⟨S1x64, a⟩, ⟨S1x64, b⟩, ⟨S1x64, d⟩] concatenates_S1x64_S1x64_S1x64_S1x192_d1 (ix2 0 q)
      = cat3 a b d q := by
  have hoff : ∀ (i : S1x64.Idx) (e : Fin S1x64.rank), e.cast (rfl : S1x64.rank = S1x192.rank) ≠ (1 : Fin S1x192.rank) →
      (i 0).val = 0 → (i e).val = ((ix2 (0 : Fin 1) q : S1x192.Idx) (e.cast rfl)).val := by
    intro i e he h0
    match e with
    | ⟨0, _⟩ => exact h0
    | ⟨1, _⟩ => exact absurd rfl he
  unfold cat3
  by_cases h1 : q.val < 64
  · rw [dif_pos h1]
    exact concatenate_apply_piece (1 : Fin S1x192.rank) _ _ (ix2 0 q) 0 (by show 0 < 3; omega) S1x64 a rfl rfl 0 rfl
      (ix2 0 ⟨q.val, h1⟩) (fun e he => hoff _ e he rfl) (Nat.zero_add _)
  · rw [dif_neg h1]
    by_cases h2 : q.val < 128
    · rw [dif_pos h2]
      exact concatenate_apply_piece (1 : Fin S1x192.rank) _ _ (ix2 0 q) 1 (by show 1 < 3; omega) S1x64 b rfl rfl 64 rfl
        (ix2 0 ⟨q.val - 64, by omega⟩) (fun e he => hoff _ e he rfl) (by show 64 + (q.val - 64) = q.val; omega)
    · rw [dif_neg h2]
      exact concatenate_apply_piece (1 : Fin S1x192.rank) _ _ (ix2 0 q) 2 (by show 2 < 3; omega) S1x64 d rfl rfl 128 rfl
        (ix2 0 ⟨q.val - 128, by have := q.isLt; omega⟩) (fun e he => hoff _ e he rfl)
        (by show 128 + (q.val - 128) = q.val; omega)

/-- The two means as rows. -/
theorem meanNodes_eq (x : (⟨S2x8x64, .f32⟩ : BufTy).Contents (Elt Ideal)) :
    Host.divf (F := Ideal)
        (broadcastInDim S1x64 ![1] bcast_S64_S1x64_1
          (Host.reduceAdd (F := Ideal) (shapeCast S16x64 x shapeCasts_S2x8x64_S16x64) (constant S_ .f32 0x00000000#32)
            reducesTo_S16x64_S64_d0 h_S_))
        (broadcastInDim S1x64 ![] bcast_S_S1x64 (constant (F := Ideal) S_ .f32 0x47435000#32))
      = meanRow (totTiles x) c50000 := by
  funext i
  obtain ⟨j, rfl⟩ := row_idx i
  exact congrArg (fun z => Ideal.div z c50000) ((bcastRow64_apply _ j).trans (total_apply x j))

theorem meanEdges_eq (x : (⟨S1x64, .f32⟩ : BufTy).Contents (Elt Ideal)) :
    Host.divf (F := Ideal) x (broadcastInDim S1x64 ![] bcast_S_S1x64 (constant (F := Ideal) S_ .f32 0x49435000#32))
      = fun i => Ideal.div (x i) c800000 := rfl

/-- The hidden row of the global perceptron before the rectifier. -/
def hidRow (g : Arr (sh2 1 64)) (x36 : Arr (sh3 2 8 64)) (x17 : Arr (sh2 1 64)) (W1 : Arr (sh2 192 128)) (b1 : Arr (sh1 128)) :
    Arr (sh2 1 128) :=
  fun i => (∑ q : Fin 192, cat3 g (meanRow (totTiles x36) c50000) (fun e => Ideal.div (x17 e) c800000) q * W1 (ix2 q (i 1)))
    + b1 (ix1 (i 1))

theorem hidRow_eq (g : (⟨S1x64, .f32⟩ : BufTy).Contents (Elt Ideal)) (x36 : (⟨S2x8x64, .f32⟩ : BufTy).Contents (Elt Ideal))
    (x17 : (⟨S1x64, .f32⟩ : BufTy).Contents (Elt Ideal)) (W1 : (⟨S192x128, .f32⟩ : BufTy).Contents (Elt Ideal))
    (b1 : (⟨S128, .f32⟩ : BufTy).Contents (Elt Ideal)) :
    addf (F := Ideal)
        (Host.dotGeneral (F := Ideal) (φ₁ := .f32) (φ₂ := .f32) dot_S1x192_S192x128_S1x128_1_0_0_1_n_n none
          (concatenate S1x192 1
            [⟨S1x64, g⟩,
             ⟨S1x64, Host.divf (F := Ideal)
                (broadcastInDim S1x64 ![1] bcast_S64_S1x64_1
                  (Host.reduceAdd (F := Ideal) (shapeCast S16x64 x36 shapeCasts_S2x8x64_S16x64)
                    (constant S_ .f32 0x00000000#32) reducesTo_S16x64_S64_d0 h_S_))
                (broadcastInDim S1x64 ![] bcast_S_S1x64 (constant (F := Ideal) S_ .f32 0x47435000#32))⟩,
             ⟨S1x64, Host.divf (F := Ideal) x17
                (broadcastInDim S1x64 ![] bcast_S_S1x64 (constant (F := Ideal) S_ .f32 0x49435000#32))⟩]
            concatenates_S1x64_S1x64_S1x64_S1x192_d1)
          W1)
        (broadcastInDim S1x128 ![1] bcast_S128_S1x128_1 b1)
      = hidRow g x36 x17 W1 b1 := by
  rw [meanNodes_eq, meanEdges_eq]
  funext i
  obtain ⟨j, rfl⟩ := row_idx i
  show Host.dotGeneral (F := Ideal) (φ₁ := .f32) (φ₂ := .f32) dot_S1x192_S192x128_S1x128_1_0_0_1_n_n none _ W1 (ix2 0 j)
      + broadcastInDim S1x128 ![1] bcast_S128_S1x128_1 b1 (ix2 0 j) = _
  rw [dotA_apply, bcastRow128_apply]
  refine congrArg (· + b1 (ix1 j)) (Finset.sum_congr rfl fun q _ => ?_)
  rw [cat_apply]

/-- The rectified row. -/
def reluRow (h : Arr (sh2 1 128)) : Arr (sh2 1 128) := fun i => max (h i) c0

/-- The second layer on one row. -/
def outRow (h : Arr (sh2 1 128)) (W2 : Arr (sh2 128 64)) (b2 : Arr (sh1 64)) : Arr (sh2 1 64) :=
  fun i => (∑ k : Fin 128, h (ix2 0 k) * W2 (ix2 k (i 1))) + b2 (ix1 (i 1))

/-- The global perceptron is the second layer on the rectified hidden row. -/
theorem globalMLP_eq (g : Arr (sh2 1 64)) (x36 : Arr (sh3 2 8 64)) (x17 : Arr (sh2 1 64)) (W1 : Arr (sh2 192 128))
    (b1 : Arr (sh1 128)) (W2 : Arr (sh2 128 64)) (b2 : Arr (sh1 64)) :
    outRow (reluRow (hidRow g x36 x17 W1 b1)) W2 b2
      = globalMLP g (meanRow (totTiles x36) c50000) (fun e => Ideal.div (x17 e) c800000) W1 b1 W2 b2 := rfl

/-! ### The three stretches on any buffer contents -/

/-- An operation's result buffer holds its function of the operands' contents and every other buffer is as before:
    applied until no operation is left (for the stretch with the concatenation, once its three operands stand at their
    own references). -/
local macro "results_on" : tactic =>
  `(tactic| repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)))

section
variable (V : Valuation τ sig (Elt Ideal))

/-- The first stretch leaves the hidden row. -/
theorem stretch_v47 :
    (StableHlo.after hostOps2 V (Proc.devRef .tc main_v47) : Arr (sh2 1 128))
      = hidRow (V (Proc.devRef .tc main_arg3)) (V (Proc.devRef .tc main_v36_1)) (V (Proc.devRef .tc main_v17))
          (V (Proc.devRef .tc main_arg12)) (V (Proc.devRef .tc main_arg13)) := by
  after_results
  dsimp only [Matrix.cons_val]
  results_on
  exact hidRow_eq _ _ _ _ _

/-- The rectifier's stretch. -/
theorem stretch_v48 :
    (StableHlo.after hostOps2_1 V (Proc.devRef .tc main_v48) : Arr (sh2 1 128)) = reluRow (V (Proc.devRef .tc main_v47)) := by
  after_results
  rfl

/-- The second layer's stretch. -/
theorem stretch_v51 :
    (StableHlo.after hostOps2_2 V (Proc.devRef .tc main_v51) : Arr (sh2 1 64))
      = outRow (V (Proc.devRef .tc main_v48)) (V (Proc.devRef .tc main_arg14)) (V (Proc.devRef .tc main_arg15)) := by
  after_results
  funext i
  obtain ⟨j, rfl⟩ := row_idx i
  exact congrArg₂ (· + ·) (dotB_apply _ _ j) (bcastRow64_apply _ j)

end

end HostTail

open HostTail

namespace HostTail
section
variable (m : (ℓ : Loc nD τ sig) → Buf (Elt Ideal) ℓ) (c : Dev nD)

/-- An array no host stretch writes and no region takes as a window still holds the launch memory's contents at
    region 1's exit. -/
theorem W7_launch (r : Ref sig .tc) (h7 : ∀ w, Pipeline.arrRef spec1 w ≠ r) (h6 : r ∉ hostOps1_W)
    (h5 : ∀ w, Pipeline.arrRef spec0 w ≠ r) (h4 : r ∉ hostOps0_3_W) (h3 : r ∉ hostOps0_2_W) (h2 : r ∉ hostOps0_1_W)
    (h1 : r ∉ hostOps0_W) : W7 m c (Proc.devRef .tc r) = m (c, Proc.devRef .tc r) :=
  (W7_of_ne m c r h7).trans <| (W6_of m c r h6).trans <| (W5_of_ne m c r h5).trans <| (W4_of m c r h4).trans <|
    (W3_of m c r h3).trans <| (W2_of m c r h2).trans (W1_of m c r h1)

end
end HostTail

section
variable (m : (ℓ : Loc nD τ sig) → Buf (Elt Ideal) ℓ) (c : Dev nD)

theorem tail_v51 :
    (W10 m c main_v51 : Arr (sh2 1 64))
      = globalMLP (aG m c) (meanRow (totTiles (W7 m c main_v36_1 : Arr (sh3 2 8 64))) c50000)
          (fun i => Ideal.div ((W7 m c main_v17 : Arr (sh2 1 64)) i) c800000) (aGW1 m c) (aGB1 m c) (aGW2 m c) (aGB2 m c) := by
  have a3 : W7 m c (Proc.devRef .tc main_arg3) = aG m c :=
    W7_launch m c main_arg3 (by decide) (by decide) (by decide) (by decide) (by decide) (by decide) (by decide)
  have a12 : W7 m c (Proc.devRef .tc main_arg12) = aGW1 m c :=
    W7_launch m c main_arg12 (by decide) (by decide) (by decide) (by decide) (by decide) (by decide) (by decide)
  have a13 : W7 m c (Proc.devRef .tc main_arg13) = aGB1 m c :=
    W7_launch m c main_arg13 (by decide) (by decide) (by decide) (by decide) (by decide) (by decide) (by decide)
  have a14 : W9 m c (Proc.devRef .tc main_arg14) = aGW2 m c :=
    (W9_of m c main_arg14 (by decide)).trans <| (W8_of m c main_arg14 (by decide)).trans <|
      W7_launch m c main_arg14 (by decide) (by decide) (by decide) (by decide) (by decide) (by decide) (by decide)
  have a15 : W9 m c (Proc.devRef .tc main_arg15) = aGB2 m c :=
    (W9_of m c main_arg15 (by decide)).trans <| (W8_of m c main_arg15 (by decide)).trans <|
      W7_launch m c main_arg15 (by decide) (by decide) (by decide) (by decide) (by decide) (by decide) (by decide)
  have e47 : (W8 m c (Proc.devRef .tc main_v47) : Arr (sh2 1 128))
      = hidRow (W7 m c (Proc.devRef .tc main_arg3)) (W7 m c (Proc.devRef .tc main_v36_1)) (W7 m c (Proc.devRef .tc main_v17))
          (W7 m c (Proc.devRef .tc main_arg12)) (W7 m c (Proc.devRef .tc main_arg13)) := stretch_v47 (W7 m c)
  have e48 : (W9 m c (Proc.devRef .tc main_v48) : Arr (sh2 1 128)) = reluRow (W8 m c (Proc.devRef .tc main_v47)) :=
    stretch_v48 (W8 m c)
  have e51 : (W10 m c (Proc.devRef .tc main_v51) : Arr (sh2 1 64))
      = outRow (W9 m c (Proc.devRef .tc main_v48)) (W9 m c (Proc.devRef .tc main_arg14)) (W9 m c (Proc.devRef .tc main_arg15)) :=
    stretch_v51 (W9 m c)
  rw [a3, a12, a13] at e47
  rw [e47] at e48
  rw [e48, a14, a15] at e51
  exact e51.trans (globalMLP_eq _ _ _ _ _ _ _)

end

end Cert.KernelIdeal.Val

end
-- ==== Proof.SpecLaws.lean ====
/-
  The laws that join the kernels' form of the layer to the reference's: a product with a concatenation is the sum of the
  partial products; eight eighths of every tile's column sums add up to the column sums of all rows.
-/
import proofs.«417691_j25598005084727_2_alg».proof.Proof.Spec
import proofs.«417691_j25598005084727_2_alg».proof.Proof.SpecMore

noncomputable section

open scoped BigOperators

namespace Cert.Spec.Laws

open Idealize.ShloMosaic Idealize.ShloMosaic.ValueIdx Cert.Spec

/-- The kernel's hidden row is the reference's: the global row's partial product rides in the bias row, and a sum may be
    taken in either grouping. -/
private theorem edgeHidK_eq {R : Nat} (xr xc ea : Arr (sh2 R 64)) (g : Arr (sh2 1 64)) (W1 : Arr (sh2 256 128))
    (b1 : Arr (sh1 128)) :
    edgeHidK xr xc ea (rows64 0 (by omega) W1) (rows64 64 (by omega) W1) (rows64 128 (by omega) W1)
      (biasEff 192 (by omega) g W1 b1) = edgeHid xr xc ea g W1 b1 := by
  funext e j
  have h0 : ∀ k : Fin 64, rows64 0 (by omega) W1 (ix2 k j) = W1 (ix2 ⟨k.val, by omega⟩ j) := by
    intro k
    show W1 (ix2 ⟨0 + k.val, _⟩ j) = W1 (ix2 ⟨k.val, _⟩ j)
    congr 2
    exact Fin.ext (Nat.zero_add _)
  simp only [edgeHidK, edgeHid, h0]
  show (_ + (b1 (ix1 j) + _)) = _
  rw [add_comm (b1 (ix1 j)), ← add_assoc]
  rfl

theorem edgeK_eq_edgeMLP {R : Nat} (xr xc ea : Arr (sh2 R 64)) (g : Arr (sh2 1 64)) (W1 : Arr (sh2 256 128))
    (b1 : Arr (sh1 128)) (W2 : Arr (sh2 128 64)) (b2 : Arr (sh1 64)) :
    edgeK xr xc ea (rows64 0 (by omega) W1) (rows64 64 (by omega) W1) (rows64 128 (by omega) W1)
      (biasEff 192 (by omega) g W1 b1) W2 (asRow b2) = edgeMLP xr xc ea g W1 b1 W2 b2 := by
  unfold edgeK edgeMLP
  rw [edgeHidK_eq]
  rfl

private theorem nodeHidK_eq {R : Nat} (x ag : Arr (sh2 R 64)) (g : Arr (sh2 1 64)) (W1 : Arr (sh2 192 128))
    (b1 : Arr (sh1 128)) :
    nodeHidK x ag (rows64 0 (by omega) W1) (rows64 64 (by omega) W1) (biasEff 128 (by omega) g W1 b1)
      = nodeHid x ag g W1 b1 := by
  funext n j
  have h0 : ∀ k : Fin 64, rows64 0 (by omega) W1 (ix2 k j) = W1 (ix2 ⟨k.val, by omega⟩ j) := by
    intro k
    show W1 (ix2 ⟨0 + k.val, _⟩ j) = W1 (ix2 ⟨k.val, _⟩ j)
    congr 2
    exact Fin.ext (Nat.zero_add _)
  simp only [nodeHidK, nodeHid, h0]
  show (_ + (b1 (ix1 j) + _)) = _
  rw [add_comm (b1 (ix1 j)), ← add_assoc]
  rfl

theorem nodeK_eq_nodeMLP {R : Nat} (x ag : Arr (sh2 R 64)) (g : Arr (sh2 1 64)) (W1 : Arr (sh2 192 128))
    (b1 : Arr (sh1 128)) (W2 : Arr (sh2 128 64)) (b2 : Arr (sh1 64)) :
    nodeK x ag (rows64 0 (by omega) W1) (rows64 64 (by omega) W1) (biasEff 128 (by omega) g W1 b1) W2 (asRow b2)
      = nodeMLP x ag g W1 b1 W2 b2 := by
  unfold nodeK nodeMLP
  rw [nodeHidK_eq]
  rfl

/-- The word of the constant eight is the real number eight. -/
private theorem c8_eq : c8 = ((8 : ℝ) : EReal) := by
  simp [Ideal.ofBits, Ideal.ieee, -EReal.coe_mul]
  norm_num

/-- Eight eighths of an extended real add up to it, at the two infinities as well. -/
private theorem eight_eighths (y : EReal) : ∑ _s : Fin 8, Ideal.div y c8 = y := by
  rw [Fin.sum_univ_eight, c8_eq, Ideal.div_coe (by norm_num) y]
  induction y using EReal.rec with
  | bot =>
    rw [EReal.bot_mul_coe_of_pos (by norm_num)]
    simp
  | coe r =>
    rw [← EReal.coe_mul]
    simp only [← EReal.coe_add]
    congr 1
    ring
  | top =>
    rw [EReal.top_mul_coe_of_pos (by norm_num)]
    simp [EReal.top_add_top]

/-- Rows taken tile by tile are all the rows: `(t, r) ↦ t * B + r` runs once through `0 … T * B - 1`. -/
private theorem sum_tiles (T B : Nat) (f : Fin (T * B) → EReal) :
    ∑ t : Fin T, ∑ r : Fin B, f ⟨t.val * B + r.val, tile_lt t.isLt r.isLt⟩ = ∑ e : Fin (T * B), f e := by
  rw [← Equiv.sum_comp finProdFinEquiv f, Fintype.sum_prod_type]
  refine Finset.sum_congr rfl fun t _ => Finset.sum_congr rfl fun r _ => ?_
  congr 1
  apply Fin.ext
  show t.val * B + r.val = r.val + B * t.val
  ring

/-- Eight eighths of every tile's column sums add up to the column sums of all rows. -/
theorem totTiles_tilesOf (T B : Nat) {R : Nat} (hR : T * B = R) (a : Arr (sh2 R 64)) :
    totTiles (tilesOf T B hR a) = colTotal a := by
  subst hR
  funext i
  show c0 + ∑ t : Fin T, ∑ _s : Fin 8,
      Ideal.div (∑ r : Fin B, a (ix2 ⟨t.val * B + r.val, tile_lt t.isLt r.isLt⟩ (i 0))) c8
    = c0 + ∑ e : Fin (T * B), a (ix2 e (i 0))
  simp only [eight_eighths]
  rw [sum_tiles T B fun e => a (ix2 e (i 0))]

/-- A sum over `a + b` indices is the sum over the first `a` plus the sum over the last `b`. -/
private theorem sum_append (a b : Nat) (F : Fin (a + b) → EReal) :
    ∑ k : Fin (a + b), F k
      = (∑ k : Fin a, F ⟨k.val, by omega⟩) + ∑ k : Fin b, F ⟨a + k.val, by omega⟩ := by
  rw [Fin.sum_univ_add]
  rfl

/-- The whole first matrix against a concatenation of four 64-column parts. -/
theorem sum256_split (F : Fin 256 → EReal) :
    ∑ k : Fin 256, F k = (((∑ k : Fin 64, F ⟨k.val, by omega⟩) + ∑ k : Fin 64, F ⟨64 + k.val, by omega⟩)
      + ∑ k : Fin 64, F ⟨128 + k.val, by omega⟩) + ∑ k : Fin 64, F ⟨192 + k.val, by omega⟩ := by
  have h1 : ∑ k : Fin 256, F k
      = (∑ k : Fin 192, F ⟨k.val, by omega⟩) + ∑ k : Fin 64, F ⟨192 + k.val, by omega⟩ :=
    sum_append 192 64 F
  have h2 : ∑ k : Fin 192, F ⟨k.val, by omega⟩
      = (∑ k : Fin 128, F ⟨k.val, by omega⟩) + ∑ k : Fin 64, F ⟨128 + k.val, by omega⟩ :=
    sum_append 128 64 fun k => F ⟨k.val, by omega⟩
  have h3 : ∑ k : Fin 128, F ⟨k.val, by omega⟩
      = (∑ k : Fin 64, F ⟨k.val, by omega⟩) + ∑ k : Fin 64, F ⟨64 + k.val, by omega⟩ :=
    sum_append 64 64 fun k => F ⟨k.val, by omega⟩
  rw [h1, h2, h3]

theorem sum192_split (F : Fin 192 → EReal) :
    ∑ k : Fin 192, F k = ((∑ k : Fin 64, F ⟨k.val, by omega⟩) + ∑ k : Fin 64, F ⟨64 + k.val, by omega⟩)
      + ∑ k : Fin 64, F ⟨128 + k.val, by omega⟩ := by
  have h2 : ∑ k : Fin 192, F k
      = (∑ k : Fin 128, F ⟨k.val, by omega⟩) + ∑ k : Fin 64, F ⟨128 + k.val, by omega⟩ :=
    sum_append 128 64 F
  have h3 : ∑ k : Fin 128, F ⟨k.val, by omega⟩
      = (∑ k : Fin 64, F ⟨k.val, by omega⟩) + ∑ k : Fin 64, F ⟨64 + k.val, by omega⟩ :=
    sum_append 64 64 fun k => F ⟨k.val, by omega⟩
  rw [h2, h3]

/-- A row of totals over a count is the mean row of the totals. -/
theorem div_asRow (tot : Arr (sh1 64)) (cnt : EReal) :
    (fun i => Ideal.div (asRow tot i) cnt : Arr (sh2 1 64)) = meanRow tot cnt := by
  funext i
  rfl

end Cert.Spec.Laws

end
-- ==== Proof.KernelValue.lean ====
/-
  The idealized kernel's run read as the layer's mathematics: with every edge index in range, its three results are the
  new node rows, the new edge rows and the new global row of `Cert.Spec`, as functions of its argument arrays.

  Region 0's rows are the edge perceptron in the kernel's form on the gathered rows, the row blocks of the first weight
  matrix and the effective bias, which is the perceptron of the concatenation (`edgeK_eq_edgeMLP`); region 1's likewise
  on the scatter-mean of region 0's rows; the tile sums' totals are the column totals (`totTiles_tilesOf`).
-/
import proofs.«417691_j25598005084727_2_alg».proof.Proof.Run
import proofs.«417691_j25598005084727_2_alg».proof.Proof.RunReads
import proofs.«417691_j25598005084727_2_alg».proof.Proof.RunEnd
import proofs.«417691_j25598005084727_2_alg».proof.Proof.ValDefs
import proofs.«417691_j25598005084727_2_alg».proof.Proof.EdgeValue
import proofs.«417691_j25598005084727_2_alg».proof.Proof.NodeValue
import proofs.«417691_j25598005084727_2_alg».proof.Proof.HostHead
import proofs.«417691_j25598005084727_2_alg».proof.Proof.HostMid
import proofs.«417691_j25598005084727_2_alg».proof.Proof.HostTail
import proofs.«417691_j25598005084727_2_alg».proof.Proof.SpecLaws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

section
variable (m : (ℓ : Loc nD τ sig) → Buf (Elt Ideal) ℓ) (c : Dev nD)

/-- The new edge rows at the end of @main. -/
theorem end_edge (h : InRange (aEI m c)) :
    (W10 m c main_v14_0 : Arr (sh2 800000 64)) = newEdge (aX m c) (aEI m c) (aEA m c) (aG m c) (aEW1 m c) (aEB1 m c) (aEW2 m c) (aEB2 m c) := by
  refine (W10_v14_0 m c).trans ((edge_rows_final (Hand.V4 m) c).trans ?_)
  rw [head_v4 m c h, head_v5 m c h, head_arg2 m c, head_v6 m c, head_v7 m c, head_v8 m c, head_v12 m c, head_arg6 m c,
    head_v13 m c]
  exact Laws.edgeK_eq_edgeMLP _ _ _ _ _ _ _ _

/-- Region 0's rows, as region 1's host stretch finds them. -/
theorem mid_edge (h : InRange (aEI m c)) :
    (W5 m c main_v14_0 : Arr (sh2 800000 64)) = newEdge (aX m c) (aEI m c) (aEA m c) (aG m c) (aEW1 m c) (aEB1 m c) (aEW2 m c) (aEB2 m c) := by
  refine (W5_v14_0 m c).trans ((edge_rows_final (Hand.V4 m) c).trans ?_)
  rw [head_v4 m c h, head_v5 m c h, head_arg2 m c, head_v6 m c, head_v7 m c, head_v8 m c, head_v12 m c, head_arg6 m c,
    head_v13 m c]
  exact Laws.edgeK_eq_edgeMLP _ _ _ _ _ _ _ _

/-- The kernel-form node rows on region 1's operands are the new node rows. -/
theorem node_rows (h : InRange (aEI m c)) :
    nodeK (Hand.V6 m c main_arg0 : Arr (sh2 50000 64)) (Hand.V6 m c main_v28) (Hand.V6 m c main_v29) (Hand.V6 m c main_v30) (Hand.V6 m c main_v34)
      (Hand.V6 m c main_arg10) (Hand.V6 m c main_v35) = newNode (aX m c) (aEI m c) (aEA m c) (aG m c) (aEW1 m c) (aEB1 m c) (aEW2 m c) (aEB2 m c) (aNW1 m c) (aNB1 m c) (aNW2 m c) (aNB2 m c) := by
  rw [mid_arg0 m c, mid_v28 m c (head_v3 m c), mid_v29 m c, mid_v30 m c, mid_v34 m c, mid_arg10 m c, mid_v35 m c, mid_edge m c h]
  exact Laws.nodeK_eq_nodeMLP _ _ _ _ _ _ _

/-- The new node rows at the end of @main. -/
theorem end_node (h : InRange (aEI m c)) :
    (W10 m c main_v36_0 : Arr (sh2 50000 64)) = newNode (aX m c) (aEI m c) (aEA m c) (aG m c) (aEW1 m c) (aEB1 m c) (aEW2 m c) (aEB2 m c) (aNW1 m c) (aNB1 m c) (aNW2 m c) (aNB2 m c) :=
  (W10_v36_0 m c).trans ((node_rows_final (Hand.V6 m) c).trans (node_rows m c h))

/-- The new global row at the end of @main. -/
theorem end_global (h : InRange (aEI m c)) :
    (W10 m c main_v51 : Arr (sh2 1 64)) = newGlobal (aX m c) (aEI m c) (aEA m c) (aG m c) (aEW1 m c) (aEB1 m c) (aEW2 m c) (aEB2 m c) (aNW1 m c) (aNB1 m c) (aNW2 m c) (aNB2 m c) (aGW1 m c) (aGB1 m c) (aGW2 m c) (aGB2 m c) := by
  refine (tail_v51 m c).trans ?_
  have hx : (W7 m c main_v36_1 : Arr (sh3 2 8 64)) = tilesOf 2 25000 (by norm_num) (newNode (aX m c) (aEI m c) (aEA m c) (aG m c) (aEW1 m c) (aEB1 m c) (aEW2 m c) (aEB2 m c) (aNW1 m c) (aNB1 m c) (aNW2 m c) (aNB2 m c)) :=
    (W7_v36_1 m c).trans ((node_tiles_final (Hand.V6 m) c).trans (by rw [node_rows m c h]))
  have he : (W7 m c main_v17 : Arr (sh2 1 64)) = asRow (colTotal (newEdge (aX m c) (aEI m c) (aEA m c) (aG m c) (aEW1 m c) (aEB1 m c) (aEW2 m c) (aEB2 m c))) := by
    refine (W7_v17 m c).trans ((mid_v17 m c).trans ?_)
    rw [show (W5 m c main_v14_1 : Arr (sh3 40 8 64)) = tilesOf 40 20000 (by norm_num) (newEdge (aX m c) (aEI m c) (aEA m c) (aG m c) (aEW1 m c) (aEB1 m c) (aEW2 m c) (aEB2 m c)) from
      (W5_v14_1 m c).trans ((edge_tiles_final (Hand.V4 m) c).trans (by
        rw [head_v4 m c h, head_v5 m c h, head_arg2 m c, head_v6 m c, head_v7 m c, head_v8 m c, head_v12 m c,
          head_arg6 m c, head_v13 m c, Laws.edgeK_eq_edgeMLP]; rfl)),
      Laws.totTiles_tilesOf]
  rw [hx, he, Laws.totTiles_tilesOf, Laws.div_asRow]
  rfl

end

/-- THE IDEALIZED KERNEL'S RUN, its results named by the layer's mathematics. -/
theorem kernel_run (m : (ℓ : Loc nD τ sig) → Buf (Elt Ideal) ℓ) (ρ : Dev nD → PrngReg) (h : ∀ c, InRange (aEI m c)) :
    θ_run (defs (F := Ideal)) (onTc (τ := τ) (main (F := Ideal))) ⟨m, fun _ => 0, ρ⟩ fun r => ∀ c : Dev nD,
      r.2.mem ((c.tc : Thread nD τ).loc main_v36_0) = newNode (aX m c) (aEI m c) (aEA m c) (aG m c) (aEW1 m c) (aEB1 m c) (aEW2 m c) (aEB2 m c) (aNW1 m c) (aNB1 m c) (aNW2 m c) (aNB2 m c)
      ∧ r.2.mem ((c.tc : Thread nD τ).loc main_v14_0) = newEdge (aX m c) (aEI m c) (aEA m c) (aG m c) (aEW1 m c) (aEB1 m c) (aEW2 m c) (aEB2 m c)
      ∧ r.2.mem ((c.tc : Thread nD τ).loc main_v51) = newGlobal (aX m c) (aEI m c) (aEA m c) (aG m c) (aEW1 m c) (aEB1 m c) (aEW2 m c) (aEB2 m c) (aNW1 m c) (aNB1 m c) (aNW2 m c) (aNB2 m c) (aGW1 m c) (aGB1 m c) (aGW2 m c) (aGB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r hr c => ?_) (run_named (F := Ideal) m ρ)
  obtain ⟨h0, h1, h2, hk⟩ := hr c
  exact ⟨h0.trans (end_node m c (h c)), h1.trans (end_edge m c (h c)), h2.trans (end_global m c (h c)), hk⟩

end Cert.KernelIdeal.Val

end
-- ==== Proof.RefValue.lean ====
/-
  The reference's run read back as the layer's mathematics: its three results are the new node rows, the new edge rows
  and the new global row of `Cert.Spec`, as functions of its argument arrays.
-/
import proofs.«417691_j25598005084727_2_alg».proof.Proof.RefRunP
import proofs.«417691_j25598005084727_2_alg».proof.Proof.RefRead
import proofs.«417691_j25598005084727_2_alg».proof.Proof.Spec
import proofs.«417691_j25598005084727_2_alg».proof.Proof.SpecLaws
import proofs.«417691_j25598005084727_2_alg».proof.Proof.LibGatherScatter

set_option maxRecDepth 16384

noncomputable section

namespace Cert.ReferenceIdeal.RefVal

open Cert.ReferenceIdeal Cert.Spec
open Idealize.ShloMosaic Idealize.ShloMosaic.TcCoe Idealize.ShloMosaic.ValueIdx
open Idealize.SL Idealize.SL.Sem

section
variable (m : (ℓ : Loc nD τ sig) → Buf (Elt Ideal) ℓ) (c : Dev nD)

abbrev rX : Arr (sh2 50000 64) := m ((c.tc : Thread nD τ).loc main_arg0)
abbrev rEI : Arr' (sh2 2 800000) := m ((c.tc : Thread nD τ).loc main_arg1)
abbrev rEA : Arr (sh2 800000 64) := m ((c.tc : Thread nD τ).loc main_arg2)
abbrev rG : Arr (sh2 1 64) := m ((c.tc : Thread nD τ).loc main_arg3)
abbrev rEW1 : Arr (sh2 256 128) := m ((c.tc : Thread nD τ).loc main_arg4)
abbrev rEB1 : Arr (sh1 128) := m ((c.tc : Thread nD τ).loc main_arg5)
abbrev rEW2 : Arr (sh2 128 64) := m ((c.tc : Thread nD τ).loc main_arg6)
abbrev rEB2 : Arr (sh1 64) := m ((c.tc : Thread nD τ).loc main_arg7)
abbrev rNW1 : Arr (sh2 192 128) := m ((c.tc : Thread nD τ).loc main_arg8)
abbrev rNB1 : Arr (sh1 128) := m ((c.tc : Thread nD τ).loc main_arg9)
abbrev rNW2 : Arr (sh2 128 64) := m ((c.tc : Thread nD τ).loc main_arg10)
abbrev rNB2 : Arr (sh1 64) := m ((c.tc : Thread nD τ).loc main_arg11)
abbrev rGW1 : Arr (sh2 192 128) := m ((c.tc : Thread nD τ).loc main_arg12)
abbrev rGB1 : Arr (sh1 128) := m ((c.tc : Thread nD τ).loc main_arg13)
abbrev rGW2 : Arr (sh2 128 64) := m ((c.tc : Thread nD τ).loc main_arg14)
abbrev rGB2 : Arr (sh1 64) := m ((c.tc : Thread nD τ).loc main_arg15)

end

open Cert.ReferenceIdeal.Gen Cert.ReferenceIdeal.Read Idealize.ShloMosaic.GatherScatter
open scoped BigOperators

/-! ## Parts laid side by side -/

/-- Part `p` of a row of 64-column parts laid side by side: column `64·p + k` of the whole is column `k` of the part. -/
theorem cat_at {α : Type} {R W : Nat} (xs : List ((s : Shape) × (s.Idx → α)))
    (h : Shape.Concatenates (xs.map (·.1)) (sh2 R W) 1) (p : Nat) (hp : p < xs.length) (x : (sh2 R 64).Idx → α)
    (hx : xs[p] = ⟨sh2 R 64, x⟩)
    (hpre : (((xs.take p).map (·.1)).map fun s => if h : s.rank = (sh2 R W).rank then s.size ((1 : Fin (sh2 R W).rank).cast h.symm) else 0).sum = 64 * p)
    (e : Fin R) (q : Fin W) (k : Fin 64) (hq : q.val = 64 * p + k.val) :
    concatenate (sh2 R W) 1 xs h (ix2 e q) = x (ix2 e k) :=
  concatenate_apply_piece 1 xs h (ix2 e q) p hp (sh2 R 64) x hx rfl (64 * p) hpre (ix2 e k)
    (fun b hb => by
      match b with
      | ⟨0, _⟩ => rfl
      | ⟨1, _⟩ => exact absurd rfl hb)
    hq.symm

/-! ## Where the layout operations read -/

section Indices

/-- Row 0 of the edge list, through the slice and the reshape. -/
theorem row0_idx (e : Fin 800000) : idx_main_v0 (idx_main_v1 (ix1 e)) = ix2 0 e := by
  funext a; refine Fin.ext ?_
  match a with
  | ⟨0, _⟩ => rfl
  | ⟨1, _⟩ => exact Nat.mod_eq_of_lt e.isLt

/-- Row 1 of the edge list, through the slice and the reshape. -/
theorem row1_idx (e : Fin 800000) : idx_main_v2 (idx_main_v3 (ix1 e)) = ix2 1 e := by
  funext a; refine Fin.ext ?_
  match a with
  | ⟨0, _⟩ => rfl
  | ⟨1, _⟩ => exact Nat.mod_eq_of_lt e.isLt

theorem col10_idx (e : Fin 800000) : idx_main_v10 (ix2 e 0) = ix1 e := by
  funext a; match a with | ⟨0, _⟩ => rfl
theorem col17_idx (e : Fin 800000) : idx_main_v17 (ix2 e 0) = ix1 e := by
  funext a; match a with | ⟨0, _⟩ => rfl
theorem col30_idx (e : Fin 800000) : idx_main_v30 (ix2 e 0) = ix1 e := by
  funext a; match a with | ⟨0, _⟩ => rfl
theorem col34_idx (e : Fin 800000) : idx_main_v34 (ix2 e 0) = ix1 e := by
  funext a; match a with | ⟨0, _⟩ => rfl

theorem g4_idx (e : Fin 800000) (k : Fin 64) : idx_main_v4 (ix2 e k) = ix2 0 k := by
  funext a; match a with | ⟨0, _⟩ => rfl | ⟨1, _⟩ => rfl
theorem g40_idx (n : Fin 50000) (k : Fin 64) : idx_main_v40 (ix2 n k) = ix2 0 k := by
  funext a; match a with | ⟨0, _⟩ => rfl | ⟨1, _⟩ => rfl
theorem b22_idx (e : Fin 800000) (j : Fin 128) : idx_main_v21 (idx_main_v22 (ix2 e j)) = ix1 j := by
  funext a; match a with | ⟨0, _⟩ => rfl
theorem b27_idx (e : Fin 800000) (f : Fin 64) : idx_main_v26 (idx_main_v27 (ix2 e f)) = ix1 f := by
  funext a; match a with | ⟨0, _⟩ => rfl
theorem b44_idx (n : Fin 50000) (j : Fin 128) : idx_main_v43 (idx_main_v44 (ix2 n j)) = ix1 j := by
  funext a; match a with | ⟨0, _⟩ => rfl
theorem b49_idx (n : Fin 50000) (f : Fin 64) : idx_main_v48 (idx_main_v49 (ix2 n f)) = ix1 f := by
  funext a; match a with | ⟨0, _⟩ => rfl
theorem b61_idx (z : Fin 1) (j : Fin 128) : idx_main_v61 (ix2 z j) = ix1 j := by
  funext a; match a with | ⟨0, _⟩ => rfl
theorem b65_idx (z : Fin 1) (f : Fin 64) : idx_main_v65 (ix2 z f) = ix1 f := by
  funext a; match a with | ⟨0, _⟩ => rfl
theorem t52_idx (z : Fin 1) (f : Fin 64) : idx_main_v52 (ix2 z f) = ix1 f := by
  funext a; match a with | ⟨0, _⟩ => rfl
theorem t56_idx (z : Fin 1) (f : Fin 64) : idx_main_v56 (ix2 z f) = ix1 f := by
  funext a; match a with | ⟨0, _⟩ => rfl
theorem d38_idx (n : Fin 50000) (f : Fin 64) : idx_main_v38 (ix2 n f) = ix2 n 0 := by
  funext a; match a with | ⟨0, _⟩ => rfl | ⟨1, _⟩ => rfl
theorem s51_idx (f : Fin 64) (k : Fin 50000) : idx_main_v51 (ix1 f) k = ix2 k f := by
  funext a; match a with | ⟨0, _⟩ => rfl | ⟨1, _⟩ => rfl
theorem s55_idx (f : Fin 64) (k : Fin 800000) : idx_main_v55 (ix1 f) k = ix2 k f := by
  funext a; match a with | ⟨0, _⟩ => rfl | ⟨1, _⟩ => rfl

theorem l20_idx (e : Fin 800000) (j : Fin 128) (k : Fin 256) : lidx_main_v20 (ix2 e j) k = ix2 e k := by
  funext a; match a with | ⟨0, _⟩ => rfl | ⟨1, _⟩ => rfl
theorem r20_idx (e : Fin 800000) (j : Fin 128) (k : Fin 256) : ridx_main_v20 (ix2 e j) k = ix2 k j := by
  funext a; match a with | ⟨0, _⟩ => rfl | ⟨1, _⟩ => rfl
theorem l25_idx (e : Fin 800000) (f : Fin 64) (k : Fin 128) : lidx_main_v25 (ix2 e f) k = ix2 e k := by
  funext a; match a with | ⟨0, _⟩ => rfl | ⟨1, _⟩ => rfl
theorem r25_idx (e : Fin 800000) (f : Fin 64) (k : Fin 128) : ridx_main_v25 (ix2 e f) k = ix2 k f := by
  funext a; match a with | ⟨0, _⟩ => rfl | ⟨1, _⟩ => rfl
theorem l42_idx (n : Fin 50000) (j : Fin 128) (k : Fin 192) : lidx_main_v42 (ix2 n j) k = ix2 n k := by
  funext a; match a with | ⟨0, _⟩ => rfl | ⟨1, _⟩ => rfl
theorem r42_idx (n : Fin 50000) (j : Fin 128) (k : Fin 192) : ridx_main_v42 (ix2 n j) k = ix2 k j := by
  funext a; match a with | ⟨0, _⟩ => rfl | ⟨1, _⟩ => rfl
theorem l47_idx (n : Fin 50000) (f : Fin 64) (k : Fin 128) : lidx_main_v47 (ix2 n f) k = ix2 n k := by
  funext a; match a with | ⟨0, _⟩ => rfl | ⟨1, _⟩ => rfl
theorem r47_idx (n : Fin 50000) (f : Fin 64) (k : Fin 128) : ridx_main_v47 (ix2 n f) k = ix2 k f := by
  funext a; match a with | ⟨0, _⟩ => rfl | ⟨1, _⟩ => rfl
theorem l60_idx (z : Fin 1) (j : Fin 128) (k : Fin 192) : lidx_main_v60 (ix2 z j) k = ix2 z k := by
  funext a; match a with | ⟨0, _⟩ => rfl | ⟨1, _⟩ => rfl
theorem r60_idx (z : Fin 1) (j : Fin 128) (k : Fin 192) : ridx_main_v60 (ix2 z j) k = ix2 k j := by
  funext a; match a with | ⟨0, _⟩ => rfl | ⟨1, _⟩ => rfl
theorem l64_idx (z : Fin 1) (f : Fin 64) (k : Fin 128) : lidx_main_v64 (ix2 z f) k = ix2 z k := by
  funext a; match a with | ⟨0, _⟩ => rfl | ⟨1, _⟩ => rfl
theorem r64_idx (z : Fin 1) (f : Fin 64) (k : Fin 128) : ridx_main_v64 (ix2 z f) k = ix2 k f := by
  funext a; match a with | ⟨0, _⟩ => rfl | ⟨1, _⟩ => rfl

end Indices

/-! ## The reference's stages at an index -/

section Stages
variable (x0 : Vec Ideal S50000x64 .f32) (x1 : Vec Ideal S2x800000 .i32) (x2 : Vec Ideal S800000x64 .f32)
  (x3 : Vec Ideal S1x64 .f32) (x4 : Vec Ideal S256x128 .f32) (x5 : Vec Ideal S128 .f32) (x6 : Vec Ideal S128x64 .f32)
  (x7 : Vec Ideal S64 .f32) (x8 : Vec Ideal S192x128 .f32) (x9 : Vec Ideal S128 .f32) (x10 : Vec Ideal S128x64 .f32)
  (x11 : Vec Ideal S64 .f32) (x12 : Vec Ideal S192x128 .f32) (x13 : Vec Ideal S128 .f32) (x14 : Vec Ideal S128x64 .f32)
  (x15 : Vec Ideal S64 .f32)

/-- The sender index as the row pick reads it: a negative one counted from the end. -/
theorem wrap0 (e : Fin 800000) : val_main_v9 (F := Ideal) x1 (ix1 e) = wrapIdx x1 0 e := by
  rw [val_main_v9_apply, val_main_v6_apply, val_main_v8_apply, val_main_v1_apply, val_main_v0_apply, val_main_v5_apply,
    val_main_c_apply, val_main_v7_apply, val_main_c_0_apply, row0_idx]
  rfl

/-- The receiver index as the row pick reads it. -/
theorem wrap1 (e : Fin 800000) : val_main_v16 (F := Ideal) x1 (ix1 e) = wrapIdx x1 1 e := by
  rw [val_main_v16_apply, val_main_v13_apply, val_main_v15_apply, val_main_v3_apply, val_main_v2_apply, val_main_v12_apply,
    val_main_c_1_apply, val_main_v14_apply, val_main_c_2_apply, row1_idx]
  rfl

/-- The senders' rows of the node array. -/
theorem gather0 (e : Fin 800000) (f : Fin 64) :
    val_main_v11 (F := Ideal) x0 x1 (ix2 e f) = gatherClamp x0 (wrapIdx x1 0) (ix2 e f) := by
  unfold val_main_v11
  refine (rowGather_apply (N := 50000) (C := 64) (M := 800000) (by decide) _ x0 (val_main_v10 (F := Ideal) x1) e f).trans ?_
  have hw : val_main_v10 (F := Ideal) x1 (ix2 e 0) = wrapIdx x1 0 e := by rw [val_main_v10_apply, col10_idx, wrap0]
  simp only [hw]
  rfl

/-- The receivers' rows of the node array. -/
theorem gather1 (e : Fin 800000) (f : Fin 64) :
    val_main_v18 (F := Ideal) x0 x1 (ix2 e f) = gatherClamp x0 (wrapIdx x1 1) (ix2 e f) := by
  unfold val_main_v18
  refine (rowGather_apply (N := 50000) (C := 64) (M := 800000) (by decide) _ x0 (val_main_v17 (F := Ideal) x1) e f).trans ?_
  have hw : val_main_v17 (F := Ideal) x1 (ix2 e 0) = wrapIdx x1 1 e := by rw [val_main_v17_apply, col17_idx, wrap1]
  simp only [hw]
  rfl

/-- The four parts of an edge's input row. -/
theorem cat19_0 (e : Fin 800000) (k : Fin 64) (h : k.val < 256) :
    val_main_v19 (F := Ideal) x0 x1 x2 x3 (ix2 e ⟨k.val, h⟩) = gatherClamp x0 (wrapIdx x1 0) (ix2 e k) := by
  unfold val_main_v19
  refine Eq.trans ?_ (gather0 x0 x1 e k)
  exact cat_at _ _ 0 (by show 0 < 4; omega) _ rfl rfl e _ k (by show k.val = 64 * 0 + k.val; omega)
theorem cat19_1 (e : Fin 800000) (k : Fin 64) (h : 64 + k.val < 256) :
    val_main_v19 (F := Ideal) x0 x1 x2 x3 (ix2 e ⟨64 + k.val, h⟩) = gatherClamp x0 (wrapIdx x1 1) (ix2 e k) := by
  unfold val_main_v19
  refine Eq.trans ?_ (gather1 x0 x1 e k)
  exact cat_at _ _ 1 (by show 1 < 4; omega) _ rfl rfl e _ k (by show 64 + k.val = 64 * 1 + k.val; omega)
theorem cat19_2 (e : Fin 800000) (k : Fin 64) (h : 128 + k.val < 256) :
    val_main_v19 (F := Ideal) x0 x1 x2 x3 (ix2 e ⟨128 + k.val, h⟩) = x2 (ix2 e k) := by
  unfold val_main_v19
  exact cat_at _ _ 2 (by show 2 < 4; omega) _ rfl rfl e _ k (by show 128 + k.val = 64 * 2 + k.val; omega)
theorem cat19_3 (e : Fin 800000) (k : Fin 64) (h : 192 + k.val < 256) :
    val_main_v19 (F := Ideal) x0 x1 x2 x3 (ix2 e ⟨192 + k.val, h⟩) = x3 (ix2 0 k) := by
  unfold val_main_v19
  refine Eq.trans ?_ ((val_main_v4_apply (F := Ideal) x3 (ix2 e k)).trans (congrArg x3 (g4_idx e k)))
  exact cat_at _ _ 3 (by show 3 < 4; omega) _ rfl rfl e _ k (by show 192 + k.val = 64 * 3 + k.val; omega)

/-- An edge's hidden row. -/
theorem hid_edge (e : Fin 800000) (j : Fin 128) :
    val_main_v23 (F := Ideal) x0 x1 x2 x3 x4 x5 (ix2 e j)
      = edgeHid (gatherClamp x0 (wrapIdx x1 0)) (gatherClamp x0 (wrapIdx x1 1)) x2 x3 x4 x5 e j := by
  rw [val_main_v23_apply, val_main_v20_apply, val_main_v22_apply, val_main_v21_apply, b22_idx, Cert.Spec.Laws.sum256_split]
  simp only [l20_idx, r20_idx, cat19_0, cat19_1, cat19_2, cat19_3]
  rfl

/-- An edge's new row. -/
theorem edge_row (e : Fin 800000) (f : Fin 64) :
    val_main_v28 (F := Ideal) x0 x1 x2 x3 x4 x5 x6 x7 (ix2 e f) = newEdge x0 x1 x2 x3 x4 x5 x6 x7 (ix2 e f) := by
  rw [val_main_v28_apply, val_main_v25_apply, val_main_v27_apply, val_main_v26_apply, b27_idx]
  simp only [l25_idx, r25_idx, val_main_v24_apply, hid_edge, val_main_call0_v0_apply, val_main_call0_cst_apply]
  rfl

theorem edge_eq : val_main_v28 (F := Ideal) x0 x1 x2 x3 x4 x5 x6 x7 = newEdge x0 x1 x2 x3 x4 x5 x6 x7 := by
  funext i
  obtain ⟨e, f, rfl⟩ : ∃ (e : Fin 800000) (f : Fin 64), i = ix2 e f := ⟨i 0, i 1, eq_ix2 i⟩
  exact edge_row x0 x1 x2 x3 x4 x5 x6 x7 e f

/-- The receiver index of an edge as the two scatters read it: row 1 of the edge list. -/
theorem col30 (j : Fin 800000) : val_main_v30 (F := Ideal) x1 (ix2 j 0) = x1 (ix2 1 j) := by
  rw [val_main_v30_apply, col30_idx, val_main_v3_apply, val_main_v2_apply, row1_idx]
theorem col34 (j : Fin 800000) : val_main_v34 (F := Ideal) x1 (ix2 j 0) = x1 (ix2 1 j) := by
  rw [val_main_v34_apply, col34_idx, val_main_v3_apply, val_main_v2_apply, row1_idx]

/-- The sum of the new rows of a node's incoming edges. -/
theorem sum_at (n : Fin 50000) (f : Fin 64) :
    val_main_v31 (F := Ideal) x0 x1 x2 x3 x4 x5 x6 x7 (ix2 n f)
      = c0 + ∑ e ∈ Finset.univ.filter (fun e : Fin 800000 => colInt x1 e = (n.val : Int)),
          newEdge x0 x1 x2 x3 x4 x5 x6 x7 (ix2 e f) := by
  unfold val_main_v31
  refine (rowScatterAdd_apply (φ := .f32) (N := 50000) (C := 64) (M := 800000) _ (val_main_v29 (F := Ideal))
    (val_main_v30 (F := Ideal) x1) (val_main_v28 (F := Ideal) x0 x1 x2 x3 x4 x5 x6 x7) n f).trans ?_
  rw [val_main_v29_apply, val_main_cst_apply, edge_eq]
  simp only [col30]
  rfl

/-- The number of a node's incoming edges, counted in ones. -/
theorem cnt_at (n : Fin 50000) :
    val_main_v35 (F := Ideal) x1 (ix2 n 0)
      = c0 + ∑ _e ∈ Finset.univ.filter (fun e : Fin 800000 => colInt x1 e = (n.val : Int)), c1 := by
  unfold val_main_v35
  refine (rowScatterAdd_apply (φ := .f32) (N := 50000) (C := 1) (M := 800000) _ (val_main_v33 (F := Ideal))
    (val_main_v34 (F := Ideal) x1) (val_main_v32 (F := Ideal)) n 0).trans ?_
  rw [val_main_v33_apply, val_main_cst_4_apply]
  simp only [col34, val_main_v32_apply, val_main_cst_3_apply]
  rfl

/-- The mean of a node's incoming edges' new rows. -/
theorem agg_at (n : Fin 50000) (f : Fin 64) :
    val_main_v39 (F := Ideal) x0 x1 x2 x3 x4 x5 x6 x7 (ix2 n f)
      = aggMean (colInt x1) (newEdge x0 x1 x2 x3 x4 x5 x6 x7) (ix2 n f) := by
  rw [val_main_v39_apply, val_main_v38_apply, d38_idx, val_main_v37_apply, sum_at, cnt_at, val_main_v36_apply,
    val_main_cst_5_apply]
  rfl

/-- The three parts of a node's input row. -/
theorem cat41_0 (n : Fin 50000) (k : Fin 64) (h : k.val < 192) :
    val_main_v41 (F := Ideal) x0 x1 x2 x3 x4 x5 x6 x7 (ix2 n ⟨k.val, h⟩) = x0 (ix2 n k) := by
  unfold val_main_v41
  exact cat_at _ _ 0 (by show 0 < 3; omega) _ rfl rfl n _ k (by show k.val = 64 * 0 + k.val; omega)
theorem cat41_1 (n : Fin 50000) (k : Fin 64) (h : 64 + k.val < 192) :
    val_main_v41 (F := Ideal) x0 x1 x2 x3 x4 x5 x6 x7 (ix2 n ⟨64 + k.val, h⟩)
      = aggMean (colInt x1) (newEdge x0 x1 x2 x3 x4 x5 x6 x7) (ix2 n k) := by
  unfold val_main_v41
  refine Eq.trans ?_ (agg_at x0 x1 x2 x3 x4 x5 x6 x7 n k)
  exact cat_at _ _ 1 (by show 1 < 3; omega) _ rfl rfl n _ k (by show 64 + k.val = 64 * 1 + k.val; omega)
theorem cat41_2 (n : Fin 50000) (k : Fin 64) (h : 128 + k.val < 192) :
    val_main_v41 (F := Ideal) x0 x1 x2 x3 x4 x5 x6 x7 (ix2 n ⟨128 + k.val, h⟩) = x3 (ix2 0 k) := by
  unfold val_main_v41
  refine Eq.trans ?_ ((val_main_v40_apply (F := Ideal) x3 (ix2 n k)).trans (congrArg x3 (g40_idx n k)))
  exact cat_at _ _ 2 (by show 2 < 3; omega) _ rfl rfl n _ k (by show 128 + k.val = 64 * 2 + k.val; omega)

/-- A node's hidden row. -/
theorem hid_node (n : Fin 50000) (j : Fin 128) :
    val_main_v45 (F := Ideal) x0 x1 x2 x3 x4 x5 x6 x7 x8 x9 (ix2 n j)
      = nodeHid x0 (aggMean (colInt x1) (newEdge x0 x1 x2 x3 x4 x5 x6 x7)) x3 x8 x9 n j := by
  rw [val_main_v45_apply, val_main_v42_apply, val_main_v44_apply, val_main_v43_apply, b44_idx, Cert.Spec.Laws.sum192_split]
  simp only [l42_idx, r42_idx, cat41_0, cat41_1, cat41_2]
  rfl

/-- A node's new row. -/
theorem node_row (n : Fin 50000) (f : Fin 64) :
    val_main_v50 (F := Ideal) x0 x1 x2 x3 x4 x5 x6 x7 x8 x9 x10 x11 (ix2 n f)
      = newNode x0 x1 x2 x3 x4 x5 x6 x7 x8 x9 x10 x11 (ix2 n f) := by
  rw [val_main_v50_apply, val_main_v47_apply, val_main_v49_apply, val_main_v48_apply, b49_idx]
  simp only [l47_idx, r47_idx, val_main_v46_apply, hid_node, val_main_call1_v0_apply, val_main_call1_cst_apply]
  rfl

theorem node_eq : val_main_v50 (F := Ideal) x0 x1 x2 x3 x4 x5 x6 x7 x8 x9 x10 x11
    = newNode x0 x1 x2 x3 x4 x5 x6 x7 x8 x9 x10 x11 := by
  funext i
  obtain ⟨n, f, rfl⟩ : ∃ (n : Fin 50000) (f : Fin 64), i = ix2 n f := ⟨i 0, i 1, eq_ix2 i⟩
  exact node_row x0 x1 x2 x3 x4 x5 x6 x7 x8 x9 x10 x11 n f

/-- The mean of the new node rows. -/
theorem mean_node (z : Fin 1) (k : Fin 64) :
    val_main_v54 (F := Ideal) x0 x1 x2 x3 x4 x5 x6 x7 x8 x9 x10 x11 (ix2 z k)
      = meanRow (colTotal (newNode x0 x1 x2 x3 x4 x5 x6 x7 x8 x9 x10 x11)) c50000 (ix2 z k) := by
  rw [val_main_v54_apply, val_main_v52_apply, t52_idx, val_main_v51_apply, val_main_cst_6_apply, val_main_v53_apply,
    val_main_cst_7_apply, node_eq]
  simp only [s51_idx]
  rfl

/-- The mean of the new edge rows. -/
theorem mean_edge (z : Fin 1) (k : Fin 64) :
    val_main_v58 (F := Ideal) x0 x1 x2 x3 x4 x5 x6 x7 (ix2 z k)
      = meanRow (colTotal (newEdge x0 x1 x2 x3 x4 x5 x6 x7)) c800000 (ix2 z k) := by
  rw [val_main_v58_apply, val_main_v56_apply, t56_idx, val_main_v55_apply, val_main_cst_8_apply, val_main_v57_apply,
    val_main_cst_9_apply, edge_eq]
  simp only [s55_idx]
  rfl

/-- The global perceptron's input row: the global row, then the two means. -/
theorem cat59_at (q : Fin 192) :
    val_main_v59 (F := Ideal) x0 x1 x2 x3 x4 x5 x6 x7 x8 x9 x10 x11 (ix2 0 q)
      = cat3 x3 (meanRow (colTotal (newNode x0 x1 x2 x3 x4 x5 x6 x7 x8 x9 x10 x11)) c50000)
          (meanRow (colTotal (newEdge x0 x1 x2 x3 x4 x5 x6 x7)) c800000) q := by
  unfold val_main_v59 cat3
  by_cases h : q.val < 64
  · rw [dif_pos h]
    exact cat_at _ _ 0 (by show 0 < 3; omega) _ rfl rfl 0 q ⟨q.val, h⟩ (by show q.val = 64 * 0 + q.val; omega)
  · rw [dif_neg h]
    by_cases h2 : q.val < 128
    · rw [dif_pos h2]
      refine Eq.trans ?_ (mean_node x0 x1 x2 x3 x4 x5 x6 x7 x8 x9 x10 x11 0 ⟨q.val - 64, by omega⟩)
      exact cat_at _ _ 1 (by show 1 < 3; omega) _ rfl rfl 0 q ⟨q.val - 64, by omega⟩
        (by show q.val = 64 * 1 + (q.val - 64); omega)
    · rw [dif_neg h2]
      refine Eq.trans ?_ (mean_edge x0 x1 x2 x3 x4 x5 x6 x7 0 ⟨q.val - 128, by have := q.isLt; omega⟩)
      exact cat_at _ _ 2 (by show 2 < 3; omega) _ rfl rfl 0 q ⟨q.val - 128, by have := q.isLt; omega⟩
        (by show q.val = 64 * 2 + (q.val - 128); omega)

/-- The new global row. -/
theorem global_row (f : Fin 64) :
    val_main_v66 (F := Ideal) x0 x1 x2 x3 x4 x5 x6 x7 x8 x9 x10 x11 x12 x13 x14 x15 (ix2 0 f)
      = newGlobal x0 x1 x2 x3 x4 x5 x6 x7 x8 x9 x10 x11 x12 x13 x14 x15 (ix2 0 f) := by
  rw [val_main_v66_apply, val_main_v64_apply, val_main_v65_apply, b65_idx]
  simp only [l64_idx, r64_idx, val_main_v63_apply, val_main_v62_apply, val_main_v60_apply, val_main_v61_apply, b61_idx,
    l60_idx, r60_idx, cat59_at, val_main_call2_v0_apply, val_main_call2_cst_apply]
  rfl

theorem global_eq : val_main_v66 (F := Ideal) x0 x1 x2 x3 x4 x5 x6 x7 x8 x9 x10 x11 x12 x13 x14 x15
    = newGlobal x0 x1 x2 x3 x4 x5 x6 x7 x8 x9 x10 x11 x12 x13 x14 x15 := by
  funext i
  obtain ⟨z, f, rfl⟩ : ∃ (z : Fin 1) (f : Fin 64), i = ix2 z f := ⟨i 0, i 1, eq_ix2 i⟩
  obtain rfl : z = 0 := Subsingleton.elim _ _
  exact global_row x0 x1 x2 x3 x4 x5 x6 x7 x8 x9 x10 x11 x12 x13 x14 x15 f

end Stages

/-- THE REFERENCE'S RUN, its results named by the layer's mathematics. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = newNode (rX m c) (rEI m c) (rEA m c) (rG m c) (rEW1 m c) (rEB1 m c) (rEW2 m c) (rEB2 m c) (rNW1 m c) (rNB1 m c) (rNW2 m c) (rNB2 m c)
      ∧ r.2.mem ((c.tc : Thread nD τ).loc main_v28) = newEdge (rX m c) (rEI m c) (rEA m c) (rG m c) (rEW1 m c) (rEB1 m c) (rEW2 m c) (rEB2 m c)
      ∧ r.2.mem ((c.tc : Thread nD τ).loc main_v66) = newGlobal (rX m c) (rEI m c) (rEA m c) (rG m c) (rEW1 m c) (rEB1 m c) (rEW2 m c) (rEB2 m c) (rNW1 m c) (rNB1 m c) (rNW2 m c) (rNB2 m c) (rGW1 m c) (rGB1 m c) (rGW2 m c) (rGB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run (defs (F := Ideal)) _ _).mono (fun _ h c => ⟨(h c).1.trans ?_, (h c).2.1.trans ?_, (h c).2.2.1.trans ?_,
    (h c).2.2.2⟩) (Cert.ReferenceIdeal.ValueP.run (F := Ideal) m ρ)
  · rw [Read.val_main_v50_eq]
    exact node_eq _ _ _ _ _ _ _ _ _ _ _ _
  · exact (Read.val_main_v28_eq (F := Ideal) _ _ _ _ _ _ _ _).trans (edge_eq _ _ _ _ _ _ _ _)
  · rw [Read.val_main_v66_eq]
    exact global_eq _ _ _ _ _ _ _ _ _ _ _ _ _ _ _ _

end Cert.ReferenceIdeal.RefVal

end
-- ==== Proof.PreDecode.lean ====
/-
  The precondition's last conjunct, decoded: `jnp.all((edge_index >= 0) & (edge_index < 50000))` being true says that
  every entry of the edge list, read signed, lies in `[0, 50000)`.
-/
import proofs.«417691_j25598005084727_2_alg».proof.Pre_finite_inputs
import proofs.«417691_j25598005084727_2_alg».proof.Proof.Gen.Pre_finite_inputs
import proofs.«417691_j25598005084727_2_alg».proof.Proof.SpecMore
import Idealize.ShloMosaic.Lib.ReduceAll
import Idealize.ShloMosaic.Lib.Affine

noncomputable section

namespace Cert.PreDecode

open Idealize.ShloMosaic Idealize.ShloMosaic.ValueIdx Cert.Spec Cert.Pre_finite_inputs

variable [hP : Cert.Pre_finite_inputs.Facts] {F : FTy → Type} [FloatOps F]

instance : Subsingleton S_.Idx := ⟨fun a b => funext fun d => d.elim0⟩

/-- The last part of the printed predicate is true only if the edge list is in range. -/
theorem inRange_of_part4 (a1 : IVec S2x800000 32) (a15 : FVec F S64 .f32) (u v : IVec S_ 1)
    (h : fn_part4 (F := F) a1 a15 u v = fun _ => 1#1) : InRange a1 := by
  intro k e
  have h0 := congrFun h ix0
  unfold fn_part4 at h0
  dsimp only at h0
  have h1 := (IntOp.andi_eq_one.1 h0).2
  have h2 := Host.reduce_andi_all _ _ _ _ _ h1 (ix2 k e)
  obtain ⟨hge, hlt⟩ := IntOp.andi_eq_one.1 h2
  have e1 : BitVec.ofBool ((0#32 : BitVec 32).sle (a1 (ix2 k e))) = 1#1 := hge
  have e2 : BitVec.ofBool ((a1 (ix2 k e)).slt (50000#32 : BitVec 32)) = 1#1 := hlt
  have f1 : (0#32 : BitVec 32).sle (a1 (ix2 k e)) = true := by
    cases hb : (0#32 : BitVec 32).sle (a1 (ix2 k e)) with
    | true => rfl
    | false => rw [hb] at e1; exact absurd e1 (by decide)
  have f2 : (a1 (ix2 k e)).slt (50000#32 : BitVec 32) = true := by
    cases hb : (a1 (ix2 k e)).slt (50000#32 : BitVec 32) with
    | true => rfl
    | false => rw [hb] at e2; exact absurd e2 (by decide)
  rw [BitVec.sle_iff_toInt_le] at f1
  rw [BitVec.slt_iff_toInt_lt] at f2
  have z0 : (0#32 : BitVec 32).toInt = 0 := by decide
  have z1 : (50000#32 : BitVec 32).toInt = 50000 := by decide
  exact ⟨by omega, by omega⟩

/-- The printed predicate is true only if the edge list is in range. -/
theorem inRange_of_fn (a0 : FVec F S50000x64 .f32) (a1 : IVec S2x800000 32) (a2 : FVec F S800000x64 .f32) (a3 : FVec F S1x64 .f32) (a4 : FVec F S256x128 .f32) (a5 : FVec F S128 .f32) (a6 : FVec F S128x64 .f32) (a7 : FVec F S64 .f32) (a8 : FVec F S192x128 .f32) (a9 : FVec F S128 .f32) (a10 : FVec F S128x64 .f32) (a11 : FVec F S64 .f32) (a12 : FVec F S192x128 .f32) (a13 : FVec F S128 .f32) (a14 : FVec F S128x64 .f32) (a15 : FVec F S64 .f32)
    (h : fn (F := F) a0 a1 a2 a3 a4 a5 a6 a7 a8 a9 a10 a11 a12 a13 a14 a15 = fun _ => 1#1) : InRange a1 := by
  unfold fn at h; dsimp only at h
  unfold fn_part1 at h; dsimp only at h
  unfold fn_part2 at h; dsimp only at h
  unfold fn_part3 at h; dsimp only at h
  exact inRange_of_part4 a1 a15 _ _ h

end Cert.PreDecode

end
-- ==== Proof.BitsEdgeDefs.lean ====
/-
  Region 0's definitions: what the edge kernel's body stores, each window's block at a grid point, and the pipeline's
  proof data at the buffer contents `V` the region is entered with.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows the body stores into its first output buffer: the perceptron's rows of the block. -/
def edgeRows (x0 x1 x2 : Vec F S20000x64 .f32) (w3 w4 w5 : Vec F S64x128 .f32) (b6 : Vec F S1x128 .f32)
    (w7 : Vec F S128x64 .f32) (b8 : Vec F S1x64 .f32) : Vec F S20000x64 .f32 :=
  k0_pay2 x0 x1 x2 w3 w4 w5 b6 w7 b8

/-- What the body stores into its second output buffer: the block's column sums over eight, in eight rows. -/
def edgeTile (x0 x1 x2 : Vec F S20000x64 .f32) (w3 w4 w5 : Vec F S64x128 .f32) (b6 : Vec F S1x128 .f32)
    (w7 : Vec F S128x64 .f32) (b8 : Vec F S1x64 .f32) : Vec F S1x8x64 .f32 :=
  k0_pay1 (k0_pay3 x0 x1 x2 w3 w4 w5 b6 w7 b8) (Scalar.ofBits .f32 0x41000000#32)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core `c`: the arrays as the region finds them; after the body at point `t` each
    input's buffer holds its block and the two outputs' the block's new rows and the eighths of their column sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => edgeRows (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => edgeTile (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

theorem after0_9 (c : Dev nD) (t : Fin cfg0.N) : (dat0 V c).after 9 t
    = edgeRows (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

theorem after0_10 (c : Dev nD) (t : Fin cfg0.N) : (dat0 V c).after 10 t
    = edgeTile (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

end

end Cert.Kernel.Hand

end
-- ==== Proof.BitsNodeDefs.lean ====
/-
  Region 1's definitions: what the node kernel's body stores, each window's block at a grid point, and the pipeline's
  proof data at the buffer contents `V` the region is entered with.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows the body stores into its first output buffer: the perceptron's rows of the block. -/
def nodeRows (x0 x1 : Vec F S25000x64 .f32) (w2 w3 : Vec F S64x128 .f32) (b4 : Vec F S1x128 .f32)
    (w5 : Vec F S128x64 .f32) (b6 : Vec F S1x64 .f32) : Vec F S25000x64 .f32 :=
  k1_pay1 x0 x1 w2 w3 b4 w5 b6

/-- What the body stores into its second output buffer: the block's column sums over eight, in eight rows. -/
def nodeTile (x0 x1 : Vec F S25000x64 .f32) (w2 w3 : Vec F S64x128 .f32) (b4 : Vec F S1x128 .f32)
    (w5 : Vec F S128x64 .f32) (b6 : Vec F S1x64 .f32) : Vec F S1x8x64 .f32 :=
  k1_pay2 x0 x1 w2 w3 b4 w5 b6

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body at point `t` each
    input's buffer holds its block and the two outputs' the block's new rows and the eighths of their column sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => nodeRows (iblk1 V c 0 t) (iblk1 V c 1 t) (iblk1 V c 2 t) (iblk1 V c 3 t) (iblk1 V c 4 t) (iblk1 V c 5 t) (iblk1 V c 6 t)
    | ⟨8, _⟩ => nodeTile (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

theorem after1_7 (c : Dev nD) (t : Fin cfg1.N) : (dat1 V c).after 7 t
    = nodeRows (iblk1 V c 0 t) (iblk1 V c 1 t) (iblk1 V c 2 t) (iblk1 V c 3 t) (iblk1 V c 4 t) (iblk1 V c 5 t) (iblk1 V c 6 t) := by
  dsimp only [dat1]

theorem after1_8 (c : Dev nD) (t : Fin cfg1.N) : (dat1 V c).after 8 t
    = nodeTile (iblk1 V c 0 t) (iblk1 V c 1 t) (iblk1 V c 2 t) (iblk1 V c 3 t) (iblk1 V c 4 t) (iblk1 V c 5 t) (iblk1 V c 6 t) := by
  dsimp only [dat1]

end

end Cert.Kernel.Hand

end
-- ==== Proof.BitsRunDefs.lean ====
/-
  The buffer contents at every boundary of @main, as a fold from the launch memory: a host stretch applies its
  operations; a kernel region leaves its input arrays as they were and each output array at what the grid's
  write-backs leave.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.Kernel.Regions
import proofs.«417691_j25598005084727_2_alg».proof.Proof.BitsEdgeDefs
import proofs.«417691_j25598005084727_2_alg».proof.Proof.BitsNodeDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ)

/-- Core `c`'s buffers at launch. -/
abbrev W0 (c : Dev nD) : Valuation τ sig (Elt F) := fun b => m (c, b)
/-- After the index rows are sliced out. -/
abbrev W1 (c : Dev nD) : Valuation τ sig (Elt F) := StableHlo.after hostOps0 (W0 m c)
/-- After the sender rows are taken. -/
abbrev W2 (c : Dev nD) : Valuation τ sig (Elt F) := StableHlo.after hostOps0_1 (W1 m c)
/-- After the receiver rows are taken. -/
abbrev W3 (c : Dev nD) : Valuation τ sig (Elt F) := StableHlo.after hostOps0_2 (W2 m c)
/-- After the edge weights are cut and the effective bias is made: region 0's entry. -/
abbrev W4 (c : Dev nD) : Valuation τ sig (Elt F) := StableHlo.after hostOps0_3 (W3 m c)
/-- The same read at the TensorCore's references. -/
abbrev V4 : (c : Dev nD) → (b : Ref sig .tc) → Buf (Elt F) ((c : Thread nD τ).loc b) := fun c b => W4 m c b
/-- At region 0's exit. -/
def W5 (c : Dev nD) : Valuation τ sig (Elt F) :=
  Pipeline.withArrays spec0 c (W4 m c) fun w => (dat0 (V4 m) c).arrAt w cfg0.N
/-- After the edge totals, the scatter-mean and the node weights: region 1's entry. -/
abbrev W6 (c : Dev nD) : Valuation τ sig (Elt F) := StableHlo.after hostOps1 (W5 m c)
/-- The same read at the TensorCore's references. -/
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
/-- After the node totals, the means and the global first layer. -/
abbrev W8 (c : Dev nD) : Valuation τ sig (Elt F) := StableHlo.after hostOps2 (W7 m c)
/-- After the global rectifier. -/
abbrev W9 (c : Dev nD) : Valuation τ sig (Elt F) := StableHlo.after hostOps2_1 (W8 m c)
/-- After the global second layer: the end of @main. -/
abbrev W10 (c : Dev nD) : Valuation τ sig (Elt F) := StableHlo.after hostOps2_2 (W9 m c)

/-! ### What each boundary keeps -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W6_of (c : Dev nD) (r : Ref sig .tc) (h : r ∉ hostOps1_W) : W6 m c r = W5 m c r :=
  StableHlo.after_of_writes_sub hostOps1 _ hostOps1_writes h
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h
theorem W10_of (c : Dev nD) (r : Ref sig .tc) (h : r ∉ hostOps2_2_W) : W10 m c r = W9 m c r :=
  StableHlo.after_of_writes_sub hostOps2_2 _ hostOps2_2_writes h

/-- Region 0 leaves window `w`'s array at what the grid's write-backs make of it. -/
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
/-- Region 0 leaves every other buffer as it found it. -/
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
/-- Region 1 leaves window `w`'s array at what the grid's write-backs make of it. -/
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
/-- Region 1 leaves every other buffer as it found it. -/
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- An input window's array is not changed by its region. -/
theorem W5_in (c : Dev nD) (w : Fin cfg0.W) (hw : (cfg0.win w).isOut = false) :
    W5 m c (Proc.devRef .tc (Pipeline.arrRef spec0 w)) = W4 m c (Proc.devRef .tc (Pipeline.arrRef spec0 w)) :=
  (W5_arr m c w).trans (((dat0 (V4 m) c).arrAt_in w hw _).trans (A_eq0 (V4 m) c w))
theorem W7_in (c : Dev nD) (w : Fin cfg1.W) (hw : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hw _).trans (A_eq1 (V6 m) c w))

end

end Cert.Kernel.Hand

end
-- ==== Proof.BitsEdgeBody.lean ====
/-
  The edge kernel's body on whole staging buffers: it reads its nine input blocks, stores the block's new edge rows
  (`edgeRows`) into the first output buffer and eight copies of an eighth of their column sums (`edgeTile`) into the
  second, and leaves the inputs as they were.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.BitsEdgeDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-buffer access, as a constant function. -/
theorem zero_off2 : (![0, 0] : Fin 2 → ℕ) = fun _ => 0 := by
  funext a; fin_cases a <;> rfl

/-- The zero offsets of a rank-3 whole-buffer access, as a constant function. -/
theorem zero_off3 : (![0, 0, 0] : Fin 3 → ℕ) = fun _ => 0 := by
  funext a; fin_cases a <;> rfl

set_option maxHeartbeats 1000000 in
/-- The body's triple on whole staging memrefs. -/
theorem sound_edge (c : Dev nD) (E : Set ℕ) (i : grid0.Coords)
    (arg1 : Memref sig .tc .vmem S20000x64 .f32) (harg1 : arg1.IsWhole) (arg2 : Memref sig .tc .vmem S20000x64 .f32) (harg2 : arg2.IsWhole)
    (arg3 : Memref sig .tc .vmem S20000x64 .f32) (harg3 : arg3.IsWhole) (arg4 : Memref sig .tc .vmem S64x128 .f32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S1x128 .f32) (harg7 : arg7.IsWhole) (arg8 : Memref sig .tc .vmem S128x64 .f32) (harg8 : arg8.IsWhole)
    (arg9 : Memref sig .tc .vmem S1x64 .f32) (harg9 : arg9.IsWhole) (arg10 : Memref sig .tc .vmem S20000x64 .f32) (harg10 : arg10.IsWhole)
    (arg11 : Memref sig .tc .vmem S1x8x64 .f32) (harg11 : arg11.IsWhole)
    (x0 x1 x2 : Vec F S20000x64 .f32) (w3 w4 w5 : Vec F S64x128 .f32) (b6 : Vec F S1x128 .f32)
    (w7 : Vec F S128x64 .f32) (b8 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w3 ∗ owns (c : Thread nD τ) arg5 fullShare w4 ∗ owns (c : Thread nD τ) arg6 fullShare w5
        ∗ owns (c : Thread nD τ) arg7 fullShare b6 ∗ owns (c : Thread nD τ) arg8 fullShare w7 ∗ owns (c : Thread nD τ) arg9 fullShare b8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w3 ∗ owns (c : Thread nD τ) arg5 fullShare w4 ∗ owns (c : Thread nD τ) arg6 fullShare w5
            ∗ owns (c : Thread nD τ) arg7 fullShare b6 ∗ owns (c : Thread nD τ) arg8 fullShare w7 ∗ owns (c : Thread nD τ) arg9 fullShare b8
            ∗ owns (c : Thread nD τ) arg10 fullShare (edgeRows x0 x1 x2 w3 w4 w5 b6 w7 b8)
            ∗ owns (c : Thread nD τ) arg11 fullShare (edgeTile x0 x1 x2 w3 w4 w5 b6 w7 b8)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10 arg11 harg11) K := by
  simp only [cc0__edge_kernel_eq_skeleton]; unfold cc0__edge_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, Hk⟩
  subst hf1 hf2 hf3 hf4 hf5 hf6 hf7 hf8 hf9
  sl_exec
  sl_step
  iapply Hk
  -- the nine inputs come back as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  -- each output was stored whole, once: it holds the stored payload, whose arguments are the inputs read whole
  isplitl [H10]
  · iexists _; isplitr
    swap; · iexact H10
    ipureintro
    rw [View.read_writes_eq_canon _ _ _ (fun y => ⟨_, List.mem_singleton_self _, View.mem_set_unit_zero zero_off2 inb_S20000x64_S20000x64_0_0 y⟩),
      View.canon_unit_zero zero_off2]
    unfold edgeRows
    simp only [View.readAt_eq_ld, View.ld_unit_zero (S := S20000x64) zero_off2, View.ld_unit_zero (S := S64x128) zero_off2,
      View.ld_unit_zero (S := S1x128) zero_off2, View.ld_unit_zero (S := S128x64) zero_off2, View.ld_unit_zero (S := S1x64) zero_off2]
  iexists _; isplitr
  swap; · iexact H11
  ipureintro
  rw [View.read_writes_eq_canon _ _ _ (fun y => ⟨_, List.mem_singleton_self _, View.mem_set_unit_zero zero_off3 inb_S1x8x64_S1x8x64_0_0_0 y⟩),
    View.canon_unit_zero zero_off3]
  unfold edgeTile
  simp only [View.readAt_eq_ld, View.ld_unit_zero (S := S20000x64) zero_off2, View.ld_unit_zero (S := S64x128) zero_off2,
      View.ld_unit_zero (S := S1x128) zero_off2, View.ld_unit_zero (S := S128x64) zero_off2, View.ld_unit_zero (S := S1x64) zero_off2]
  -- the divisor the body binds is the constant eight of the stated tile
  rfl

end Cert.Kernel.Hand

end
-- ==== Proof.BitsEdgeData.lean ====
/-
  Region 0 (the edge kernel over its 40 row tiles) as the pipeline sees it, at the buffer contents `V` the region is
  entered with: each window's block at a grid point, what the body leaves in every staging buffer there, and the body
  obligation at every point.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.BitsEdgeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer

At a point where the window was fetched, the transfer put its block there. At a point where it was not, its block index
has not moved since the point before, and the body left the buffer as it found it: so the buffer still holds the block. -/

theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := by
    intro s; rw [after0_0]; rfl
  rw [(dat0 V c).before_in_eq_fetched 0 rfl (fun _ => rfl) (fun _ _ _ => rfl) keep t d]
  rfl

theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := by
    intro s; rw [after0_1]; rfl
  rw [(dat0 V c).before_in_eq_fetched 1 rfl (fun _ => rfl) (fun _ _ _ => rfl) keep t d]
  rfl

theorem before0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := by
    intro s; rw [after0_2]; rfl
  rw [(dat0 V c).before_in_eq_fetched 2 rfl (fun _ => rfl) (fun _ _ _ => rfl) keep t d]
  rfl

theorem before0_3 (c : Dev nD) (t : Fin cfg0.N) (d) : (dat0 V c).before 3 t d = iblk0 V c 3 t := by
  have keep : ∀ s, (cfg0.win 3).cut (cfg0.grid.coords s) ((dat0 V c).after 3 s) = (dat0 V c).blockOf 3 s := by
    intro s; rw [after0_3]; rfl
  rw [(dat0 V c).before_in_eq_fetched 3 rfl (fun _ => rfl) (fun _ _ _ => rfl) keep t d]
  rfl

theorem before0_4 (c : Dev nD) (t : Fin cfg0.N) (d) : (dat0 V c).before 4 t d = iblk0 V c 4 t := by
  have keep : ∀ s, (cfg0.win 4).cut (cfg0.grid.coords s) ((dat0 V c).after 4 s) = (dat0 V c).blockOf 4 s := by
    intro s; rw [after0_4]; rfl
  rw [(dat0 V c).before_in_eq_fetched 4 rfl (fun _ => rfl) (fun _ _ _ => rfl) keep t d]
  rfl

theorem before0_5 (c : Dev nD) (t : Fin cfg0.N) (d) : (dat0 V c).before 5 t d = iblk0 V c 5 t := by
  have keep : ∀ s, (cfg0.win 5).cut (cfg0.grid.coords s) ((dat0 V c).after 5 s) = (dat0 V c).blockOf 5 s := by
    intro s; rw [after0_5]; rfl
  rw [(dat0 V c).before_in_eq_fetched 5 rfl (fun _ => rfl) (fun _ _ _ => rfl) keep t d]
  rfl

theorem before0_6 (c : Dev nD) (t : Fin cfg0.N) (d) : (dat0 V c).before 6 t d = iblk0 V c 6 t := by
  have keep : ∀ s, (cfg0.win 6).cut (cfg0.grid.coords s) ((dat0 V c).after 6 s) = (dat0 V c).blockOf 6 s := by
    intro s; rw [after0_6]; rfl
  rw [(dat0 V c).before_in_eq_fetched 6 rfl (fun _ => rfl) (fun _ _ _ => rfl) keep t d]
  rfl

theorem before0_7 (c : Dev nD) (t : Fin cfg0.N) (d) : (dat0 V c).before 7 t d = iblk0 V c 7 t := by
  have keep : ∀ s, (cfg0.win 7).cut (cfg0.grid.coords s) ((dat0 V c).after 7 s) = (dat0 V c).blockOf 7 s := by
    intro s; rw [after0_7]; rfl
  rw [(dat0 V c).before_in_eq_fetched 7 rfl (fun _ => rfl) (fun _ _ _ => rfl) keep t d]
  rfl

theorem before0_8 (c : Dev nD) (t : Fin cfg0.N) (d) : (dat0 V c).before 8 t d = iblk0 V c 8 t := by
  have keep : ∀ s, (cfg0.win 8).cut (cfg0.grid.coords s) ((dat0 V c).after 8 s) = (dat0 V c).blockOf 8 s := by
    intro s; rw [after0_8]; rfl
  rw [(dat0 V c).before_in_eq_fetched 8 rfl (fun _ => rfl) (fun _ _ _ => rfl) keep t d]
  rfl

/-! ## The body at a point -/

/-- What the body is entered with at point `t`: the invariant, what the core owes, and every window's current buffer. -/
def edgePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the same invariant and debt, and every buffer at what the body leaves there. -/
def edgePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: its nine input buffers hold their blocks, so the body's triple applies at those blocks; the
    invariant and the debt are not touched. -/
theorem edge_body_at (c : Dev nD) (t : Fin cfg0.N) :
    edgePre V c t ⊢ wp frame (wpE (defs₀ (F := F)) Variants.none c none) Set.univ (bodyAt0 t) (fun _ => edgePost V c t) := by
  unfold edgePre edgePost bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_edge c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact edge_body_at V c t

end

end Cert.Kernel.Hand

end
-- ==== Proof.BitsNodeBody.lean ====
/-
  The node kernel's body on whole staging buffers: it reads its seven input blocks, stores the block's new node rows
  (`nodeRows`) into the first output buffer and eight copies of an eighth of their column sums (`nodeTile`) into the
  second, and leaves the inputs as they were.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.BitsNodeDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle, all zero, are the constant zero function (rank two, rank three). -/
private theorem nodeOff2 : (![0, 0] : Fin 2 → ℕ) = fun _ => 0 := funext fun a => by fin_cases a <;> rfl

private theorem nodeOff3 : (![0, 0, 0] : Fin 3 → ℕ) = fun _ => 0 := funext fun a => by fin_cases a <;> rfl

set_option maxHeartbeats 1000000 in
/-- The body's triple on whole staging memrefs. -/
theorem sound_node (c : Dev nD) (E : Set ℕ) (i : grid1.Coords)
    (arg1 : Memref sig .tc .vmem S25000x64 .f32) (harg1 : arg1.IsWhole) (arg2 : Memref sig .tc .vmem S25000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S25000x64 .f32) (harg8 : arg8.IsWhole)
    (arg9 : Memref sig .tc .vmem S1x8x64 .f32) (harg9 : arg9.IsWhole)
    (x0 x1 : Vec F S25000x64 .f32) (w2 w3 : Vec F S64x128 .f32) (b4 : Vec F S1x128 .f32)
    (w5 : Vec F S128x64 .f32) (b6 : Vec F S1x64 .f32) (K : PUnit → sProp 𝕄) :
    iprop(owns (c : Thread nD τ) arg1 fullShare x0 ∗ owns (c : Thread nD τ) arg2 fullShare x1
        ∗ owns (c : Thread nD τ) arg3 fullShare w2 ∗ owns (c : Thread nD τ) arg4 fullShare w3
        ∗ owns (c : Thread nD τ) arg5 fullShare b4 ∗ owns (c : Thread nD τ) arg6 fullShare w5 ∗ owns (c : Thread nD τ) arg7 fullShare b6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare w2 ∗ owns (c : Thread nD τ) arg4 fullShare w3
            ∗ owns (c : Thread nD τ) arg5 fullShare b4 ∗ owns (c : Thread nD τ) arg6 fullShare w5 ∗ owns (c : Thread nD τ) arg7 fullShare b6
            ∗ owns (c : Thread nD τ) arg8 fullShare (nodeRows x0 x1 w2 w3 b4 w5 b6)
            ∗ owns (c : Thread nD τ) arg9 fullShare (nodeTile x0 x1 w2 w3 b4 w5 b6)) -∗ K ⟨⟩))
      ⊢ wp frame (wpE (defs₀ (F := F)) Variants.none c none) E
          (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    unfold nodeRows
    rw [View.read_writes_eq_canon _ _ _
        (fun y => ⟨_, List.mem_singleton_self _, View.mem_set_unit_zero nodeOff2 inb_S25000x64_S25000x64_0_0 y⟩),
      View.canon_unit_zero nodeOff2]
    simp only [View.readAt_eq_ld, View.ld_unit_zero (S := S25000x64) nodeOff2, View.ld_unit_zero (S := S64x128) nodeOff2,
      View.ld_unit_zero (S := S1x128) nodeOff2, View.ld_unit_zero (S := S128x64) nodeOff2,
      View.ld_unit_zero (S := S1x64) nodeOff2]
  iexists _; isplitr
  swap; · iexact H9
  ipureintro
  unfold nodeTile
  rw [View.read_writes_eq_canon _ _ _
      (fun y => ⟨_, List.mem_singleton_self _, View.mem_set_unit_zero nodeOff3 inb_S1x8x64_S1x8x64_0_0_0 y⟩),
    View.canon_unit_zero nodeOff3]
  simp only [View.readAt_eq_ld, View.ld_unit_zero (S := S25000x64) nodeOff2, View.ld_unit_zero (S := S64x128) nodeOff2,
    View.ld_unit_zero (S := S1x128) nodeOff2, View.ld_unit_zero (S := S128x64) nodeOff2,
    View.ld_unit_zero (S := S1x64) nodeOff2]

end Cert.Kernel.Hand

end
-- ==== Proof.BitsNodeData.lean ====
/-
  Region 1 (the node kernel over its 2 row tiles) as the pipeline sees it, at the buffer contents `V` the region is
  entered with: each window's block at a grid point, what the body leaves in every staging buffer there, and the body
  obligation at every point.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.BitsNodeDefs
import proofs.«417691_j25598005084727_2_alg».proof.Proof.BitsNodeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The input windows' buffers as the body finds them

An input window never idles and is not cut, and the body leaves its block in place; so wherever the body is called
the window's current buffer holds the block of the window's array at that point — fetched there, or (the weights
after the first point) still there from the fetch at the first point, the block index not having moved. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation at a point -/

/-- What the body is called with at point `t`: the invariant, the core's debt, and the nine current staging buffers,
    the windows one by one. -/
def nodePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns: the same, each buffer at what the proof data says the body leaves there. -/
def nodePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the seven inputs' buffers hold their blocks, so the body's triple on whole memrefs applies
    at those blocks; the invariant and the core's debt pass through unread. -/
theorem sound_nodeAt (c : Dev nD) (t : Fin cfg1.N) :
    nodePre V c t ⊢ wp frame (wpE (defs₀ (F := F)) Variants.none c none) Set.univ (bodyAt1 t) (fun _ => nodePost V c t) := by
  unfold nodePre nodePost bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_node c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_nodeAt V c t

end

end Cert.Kernel.Hand

end
-- ==== Proof.BitsRun.lean ====
/-
  @main from the launch to the return: a host segment per stretch of host operations and a region per kernel call, chained
  over the buffer contents `W0 … W10`; every weakly fair execution terminates without a fault, and at the end every
  unscoped buffer of the TensorCore holds what the fold `W10` says.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.Kernel.Regions
import proofs.«417691_j25598005084727_2_alg».proof.Proof.BitsRunDefs
import proofs.«417691_j25598005084727_2_alg».proof.Proof.BitsEdgeData
import proofs.«417691_j25598005084727_2_alg».proof.Proof.BitsNodeData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a core holds between two items of @main -/

/-- No variant is chosen, no level is assigned, no core waits on another. -/
abbrev noVar : Variants := Variants.none
abbrev noPairs : GSem nD τ sig → Finset Unit := fun _ => ∅
abbrev lvl0 : GSem nD τ sig → Unit → ℕ := fun _ _ => 0

/-- Beside its buffers a core keeps its generator register, at whatever state, and the record that it owes nothing. -/
abbrev side (c : Dev nD) : sProp 𝕄 :=
  iprop((∃ r, prngReg c r) ∗ ∃ W, owes (c : Thread nD τ) (0 : CellTallies nD τ sig Unit) W)

/-- A TensorCore buffer that no kernel region scopes is one of those a core holds between items. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A stretch of host operations, run from the contents `W c` of the unscoped buffers: it ends with them at
    `StableHlo.after ops (W c)`, the register and the empty debt untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs lvl0 :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W side

section
variable (m : (ℓ : Loc nD τ sig) → Buf (Elt F) ℓ)

/-- The exit contents of the two regions, read at the TensorCore's references. -/
abbrev E5 : (c : Dev nD) → (b : Ref sig .tc) → Buf (Elt F) ((c : Thread nD τ).loc b) := fun c b => W5 m c b
abbrev E7 : (c : Dev nD) → (b : Ref sig .tc) → Buf (Elt F) ((c : Thread nD τ).loc b) := fun c b => W7 m c b

/-- The proof data of both pipelines: the edge region's at the contents it is entered from, the node region's at its own. -/
def pdats : (p : Fin 2) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c

/-! ## The two kernel regions -/

set_option backward.isDefEq.respectTransparency.types false in
/-- THE EDGE REGION. Entered with every unscoped buffer at `W4`: its eleven arrays are taken out of them, the rest
    passes by; the register goes through the pipeline's invariant; at the exit the arrays come back at what the forty
    write-backs left, which is `W5` by its definition. -/
def reg0 : Pipeline.RegionSeg (pcfgs (F := F)) adm (pdats m) () defs₀ noVar noPairs lvl0 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ noPairs lvl0 0 fun _ _ => rfl
  pre c := iprop(StableHlo.held (c : Thread nD τ) (Pipeline.ucRefs τ sig) (W4 m c) ∗ side c)
  post c := iprop(StableHlo.held (c : Thread nD τ) (Pipeline.ucRefs τ sig) (W5 m c) ∗ side c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    have take := Pipeline.arrays_of_unscopedBufs (p := 0) (pcfgs (F := F)) adm (pdats m) launch0.win launch0.arr_whole c
      ((pdats m 0 c).share_full fun _ => rfl) (V4 m c) fun _ => rfl
    rw [Pipeline.unscopedBufs_held] at take
    rw [Pipeline.ownSems0_none]
    iintro ⟨⟨Hbufs, Hgen, Hdebt⟩, -, -⟩
    ihave Hparts := take $$ Hbufs
    icases Hparts with ⟨Harr, Hby⟩
    imodintro
    isplitl [Harr]; · iexact Harr
    isplitr
    · -- there is no prefetched table
      unfold Pipeline.prefHeld; rw [show (Finset.univ : Finset (Fin 0)) = ∅ from rfl, BI.bigSep_empty]; iempintro
    isplitl [Hdebt]
    · -- owing nothing is within any bound
      unfold Pipeline.Dat.owesAt Pipeline.owesWithin
      icases Hdebt with ⟨%S, Hdebt⟩
      iexists S
      isplitr; · ipureintro; exact fun _ _ => Or.inl trivial
      iexact Hdebt
    isplitl [Hgen]; · iexact Hgen
    iexact Hby
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have give := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (E5 m c) ((pdats m 0 c).arrAt · cfg0.N) (fun w => (W5_arr m c w).symm)
      (fun b hb => W5_of_ne m c b fun w e => hb (Finset.mem_image.mpr ⟨w, Finset.mem_univ _, e⟩))
    rw [Pipeline.unscopedBufs_held] at give
    iintro ⟨Harr, Hdebt, Hgen, Hby⟩
    imodintro
    isplitl [Harr Hby]
    · iapply give; isplitl [Harr] <;> iassumption
    isplitl [Hgen]; · iexact Hgen
    unfold Pipeline.Dat.owesAt Pipeline.owesWithin
    icases Hdebt with ⟨%S, -, Hdebt⟩
    iexists S; iexact Hdebt

set_option backward.isDefEq.respectTransparency.types false in
/-- THE NODE REGION. The same account over its nine arrays and two tiles: entered at `W6`, left at `W7`. -/
def reg1 : Pipeline.RegionSeg (pcfgs (F := F)) adm (pdats m) () defs₀ noVar noPairs lvl0 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ noPairs lvl0 1 fun _ _ => rfl
  pre c := iprop(StableHlo.held (c : Thread nD τ) (Pipeline.ucRefs τ sig) (W6 m c) ∗ side c)
  post c := iprop(StableHlo.held (c : Thread nD τ) (Pipeline.ucRefs τ sig) (W7 m c) ∗ side c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    have take := Pipeline.arrays_of_unscopedBufs (p := 1) (pcfgs (F := F)) adm (pdats m) launch1.win launch1.arr_whole c
      ((pdats m 1 c).share_full fun _ => rfl) (V6 m c) fun _ => rfl
    rw [Pipeline.unscopedBufs_held] at take
    rw [Pipeline.ownSems0_none]
    iintro ⟨⟨Hbufs, Hgen, Hdebt⟩, -, -⟩
    ihave Hparts := take $$ Hbufs
    icases Hparts with ⟨Harr, Hby⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%S, Hdebt⟩
      iexists S
      isplitr; · ipureintro; exact fun _ _ => Or.inl trivial
      iexact Hdebt
    isplitl [Hgen]; · iexact Hgen
    iexact Hby
  hin c := by
    rw [show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    have give := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (E7 m c) ((pdats m 1 c).arrAt · cfg1.N) (fun w => (W7_arr m c w).symm)
      (fun b hb => W7_of_ne m c b fun w e => hb (Finset.mem_image.mpr ⟨w, Finset.mem_univ _, e⟩))
    rw [Pipeline.unscopedBufs_held] at give
    iintro ⟨Harr, Hdebt, Hgen, Hby⟩
    imodintro
    isplitl [Harr Hby]
    · iapply give; isplitl [Harr] <;> iassumption
    isplitl [Hgen]; · iexact Hgen
    unfold Pipeline.Dat.owesAt Pipeline.owesWithin
    icases Hdebt with ⟨%S, -, Hdebt⟩
    iexists S; iexact Hdebt

/-! ## @main as ten items -/

/-- Four host stretches, the edge region, one stretch, the node region, three stretches: each host stretch starts from
    the contents the item before it left. -/
abbrev segs : List (Pipeline.Seg (pcfgs (F := F)) adm (pdats m) () defs₀ noVar noPairs lvl0) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .host (stretch hostOps0_3 hostOps0_3_sub hostOps0_3_fresh (W3 m)),
    .region (reg0 m),
    .host (stretch hostOps1 hostOps1_sub hostOps1_fresh (W5 m)),
    .region (reg1 m),
    .host (stretch hostOps2 hostOps2_sub hostOps2_fresh (W7 m)),
    .host (stretch hostOps2_1 hostOps2_1_sub hostOps2_1_fresh (W8 m)),
    .host (stretch hostOps2_2 hostOps2_2_sub hostOps2_2_fresh (W9 m)) ]

/-- @main is those ten items run one after the other. -/
theorem main_run (c : Dev nD) : main (F := F) c = Pipeline.Seg.run (segs m) := (main_chain c).trans (by chain_rfl)

end

section
variable (m : (ℓ : Loc nD τ sig) → Buf (Elt F) ℓ) (ρ : Dev nD → PrngReg)

set_option backward.isDefEq.respectTransparency.types false in
/-- THE RUN: from any memory with zero counters every weakly fair execution of @main terminates, nothing faulting, and
    every unscoped buffer ends at the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ noVar noPairs lvl0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ side c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        -- the last stretch's end, with the empty debt set apart
        show iprop(StableHlo.held (c : Thread nD τ) (Pipeline.ucRefs τ sig) (W10 m c) ∗ side c)
          ⊢ iprop((StableHlo.held (c : Thread nD τ) (Pipeline.ucRefs τ sig) (W10 m c) ∗ ∃ r, prngReg c r)
              ∗ ∃ W, owes (c : Thread nD τ) (0 : CellTallies nD τ sig Unit) W)
        iintro ⟨Hbufs, Hgen, Hdebt⟩
        isplitl [Hbufs Hgen]
        · isplitl [Hbufs] <;> iassumption
        iexact Hdebt⟩)
    (hinit := by
      refine Pipeline.initEach noPairs lvl0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hgen, -⟩, -⟩
      imodintro
      isplitl [Hbufs]; · iexact Hbufs
      isplitl [Hgen]; · iexists _; iexact Hgen
      iexists ∅; iexact Hdebt)
    (QY := fun c s => ∀ b ∈ Pipeline.ucRefs τ sig, s.mem (((c : Thread nD τ)).1, b) = W10 m c b)
    (hfin := fun c s' => by
      iintro ⟨⟨Hbufs, -⟩, Hstate⟩
      unfold StableHlo.held
      imodintro
      iapply (pointsTo_read_all (Pipeline.ucRefs τ sig) (fun b => (((c : Thread nD τ)).1, b)) (W10 m c) s')
      isplitl [Hbufs] <;> iassumption)
    (hQ := fun s h c => h c)

end

end Cert.Kernel.Hand

end
-- ==== Proof.BitsRunReads.lean ====
/-
  What the fold of buffer contents says at the buffers the claims speak of: an argument array is written by no host
  operation and is no region's output, so it ends as launched; a region's output array that nothing later writes ends at
  what the region's write-backs left.
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.Kernel.Regions
import proofs.«417691_j25598005084727_2_alg».proof.Proof.BitsRunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (c : Dev nD)

/-- A buffer that no host stretch writes and that both regions leave alone ends as launched. -/
theorem W10_keep (r : Ref sig .tc)
    (hW : r ∉ hostOps0_W ++ (hostOps0_1_W ++ (hostOps0_2_W ++ (hostOps0_3_W ++ (hostOps1_W ++ (hostOps2_W ++ (hostOps2_1_W ++ hostOps2_2_W)))))))
    (h5 : W5 m c r = W4 m c r) (h7 : W7 m c r = W6 m c r) : W10 m c r = m ((c : Thread nD τ).loc r) := by
  simp only [List.mem_append, not_or] at hW
  obtain ⟨a0, a1, a2, a3, a4, a5, a6, a7⟩ := hW
  calc W10 m c r = W9 m c r := W10_of m c r a7
    _ = W8 m c r := W9_of m c r a6
    _ = W7 m c r := W8_of m c r a5
    _ = W6 m c r := h7
    _ = W5 m c r := W6_of m c r a4
    _ = W4 m c r := h5
    _ = W3 m c r := W4_of m c r a3
    _ = W2 m c r := W3_of m c r a2
    _ = W1 m c r := W2_of m c r a1
    _ = W0 m c r := W1_of m c r a0
    _ = m ((c : Thread nD τ).loc r) := rfl

/-- The new edge rows are not touched after region 0. -/
theorem W10_v14_0 : W10 m c main_v14_0 = (dat0 (V4 m) c).arrAt 9 cfg0.N :=
  calc W10 m c main_v14_0 = W9 m c main_v14_0 := W10_of m c _ (by decide)
    _ = W8 m c main_v14_0 := W9_of m c _ (by decide)
    _ = W7 m c main_v14_0 := W8_of m c _ (by decide)
    _ = W6 m c main_v14_0 := W7_of_ne m c _ (by decide)
    _ = W5 m c main_v14_0 := W6_of m c _ (by decide)
    _ = (dat0 (V4 m) c).arrAt 9 cfg0.N := W5_arr m c 9

/-- The new node rows are not touched after region 1. -/
theorem W10_v36_0 : W10 m c main_v36_0 = (dat1 (V6 m) c).arrAt 7 cfg1.N :=
  calc W10 m c main_v36_0 = W9 m c main_v36_0 := W10_of m c _ (by decide)
    _ = W8 m c main_v36_0 := W9_of m c _ (by decide)
    _ = W7 m c main_v36_0 := W8_of m c _ (by decide)
    _ = (dat1 (V6 m) c).arrAt 7 cfg1.N := W7_arr m c 7

theorem W5_v14_0 : W5 m c main_v14_0 = (dat0 (V4 m) c).arrAt 9 cfg0.N := W5_arr m c 9
theorem W5_v14_1 : W5 m c main_v14_1 = (dat0 (V4 m) c).arrAt 10 cfg0.N := W5_arr m c 10
theorem W7_v36_1 : W7 m c main_v36_1 = (dat1 (V6 m) c).arrAt 8 cfg1.N := W7_arr m c 8
/-- Region 1 does not touch the edge totals. -/
theorem W7_v17 : W7 m c main_v17 = W6 m c main_v17 := W7_of_ne m c _ (by decide)

end

end Cert.Kernel.Hand

end
-- ==== Proof.BitsRunEnd.lean ====
/-
  The run's end, read at the buffers the claims speak of: the three results at the fold's last contents, and every
  argument array as launched (no host operation writes one, and a region only reads it through an input window).
-/
import proofs.«417691_j25598005084727_2_alg».proof.Proof.Gen.Kernel.Launch
import proofs.«417691_j25598005084727_2_alg».proof.Proof.Gen.Kernel.Skeleton
import proofs.«417691_j25598005084727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417691_j25598005084727_2_alg».proof.Proof.Gen.Kernel.Regions
import proofs.«417691_j25598005084727_2_alg».proof.Proof.BitsRun
import proofs.«417691_j25598005084727_2_alg».proof.Proof.BitsRunReads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-- THE RUN with its results named by the fold and its arguments kept. -/
theorem run_named : θ_run defs (onTc (τ := τ) (main (F := F))) ⟨m, fun _ => 0, ρ⟩ (fun r => ∀ c : Dev nD,
      r.2.mem ((c.tc : Thread nD τ).loc main_v36_0) = W10 m c main_v36_0
      ∧ r.2.mem ((c.tc : Thread nD τ).loc main_v14_0) = W10 m c main_v14_0
      ∧ r.2.mem ((c.tc : Thread nD τ).loc main_v51) = W10 m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r hr c => ?_) (run_all (F := F) m ρ)
  have g := hr c
  exact ⟨g _ (unscoped_mem main_v36_0 (by decide)), g _ (unscoped_mem main_v14_0 (by decide)),
      g _ (unscoped_mem main_v51 (by decide)),
      (g _ (unscoped_mem main_arg0 (by decide))).trans (W10_keep m c main_arg0 (by decide) (W5_of_ne m c _ (by decide)) (W7_in m c 0 rfl)),
      (g _ (unscoped_mem main_arg1 (by decide))).trans (W10_keep m c main_arg1 (by decide) (W5_of_ne m c _ (by decide)) (W7_of_ne m c _ (by decide))),
      (g _ (unscoped_mem main_arg2 (by decide))).trans (W10_keep m c main_arg2 (by decide) (W5_in m c 2 rfl) (W7_of_ne m c _ (by decide))),
      (g _ (unscoped_mem main_arg3 (by decide))).trans (W10_keep m c main_arg3 (by decide) (W5_of_ne m c _ (by decide)) (W7_of_ne m c _ (by decide))),
      (g _ (unscoped_mem main_arg4 (by decide))).trans (W10_keep m c main_arg4 (by decide) (W5_of_ne m c _ (by decide)) (W7_of_ne m c _ (by decide))),
      (g _ (unscoped_mem main_arg5 (by decide))).trans (W10_keep m c main_arg5 (by decide) (W5_of_ne m c _ (by decide)) (W7_of_ne m c _ (by decide))),
      (g _ (unscoped_mem main_arg6 (by decide))).trans (W10_keep m c main_arg6 (by decide) (W5_in m c 7 rfl) (W7_of_ne m c _ (by decide))),
      (g _ (unscoped_mem main_arg7 (by decide))).trans (W10_keep m c main_arg7 (by decide) (W5_of_ne m c _ (by decide)) (W7_of_ne m c _ (by decide))),
      (g _ (unscoped_mem main_arg8 (by decide))).trans (W10_keep m c main_arg8 (by decide) (W5_of_ne m c _ (by decide)) (W7_of_ne m c _ (by decide))),
      (g _ (unscoped_mem main_arg9 (by decide))).trans (W10_keep m c main_arg9 (by decide) (W5_of_ne m c _ (by decide)) (W7_of_ne m c _ (by decide))),
      (g _ (unscoped_mem main_arg10 (by decide))).trans (W10_keep m c main_arg10 (by decide) (W5_of_ne m c _ (by decide)) (W7_in m c 5 rfl)),
      (g _ (unscoped_mem main_arg11 (by decide))).trans (W10_keep m c main_arg11 (by decide) (W5_of_ne m c _ (by decide)) (W7_of_ne m c _ (by decide))),
      (g _ (unscoped_mem main_arg12 (by decide))).trans (W10_keep m c main_arg12 (by decide) (W5_of_ne m c _ (by decide)) (W7_of_ne m c _ (by decide))),
      (g _ (unscoped_mem main_arg13 (by decide))).trans (W10_keep m c main_arg13 (by decide) (W5_of_ne m c _ (by decide)) (W7_of_ne m c _ (by decide))),
      (g _ (unscoped_mem main_arg14 (by decide))).trans (W10_keep m c main_arg14 (by decide) (W5_of_ne m c _ (by decide)) (W7_of_ne m c _ (by decide))),
      (g _ (unscoped_mem main_arg15 (by decide))).trans (W10_keep m c main_arg15 (by decide) (W5_of_ne m c _ (by decide)) (W7_of_ne m c _ (by decide)))⟩

/-- THE FRAME: every weakly fair execution terminates without a fault and leaves the argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r hr c => (hr c).2.2.2) (run_named m ρ)

end

end Cert.Kernel.Hand

end
-- ==== Proof.lean ====
/-
  One graph-network layer: the Pallas kernel against its jnp reference, over the extended reals.

  Both programs compute, from the node rows `x`, the edge list, the edge rows, the global row and the three perceptrons'
  weights: the new edge rows (a perceptron of [x[row] | x[col] | edge | global]), the new node rows (a perceptron of
  [x | mean of the incoming edges' new rows | global]) and the new global row (a perceptron of [global | mean of new node
  rows | mean of new edge rows]).  The kernel takes the rows of `x` with a fill value outside the array where the
  reference clamps, so the two agree where every edge index names a node: the precondition says so.  The kernel
  multiplies the parts of a concatenation with the matching row blocks of the weight matrix and adds the global row's
  part into the bias once; it accumulates the edge rows and a column of ones in one scatter; and it leaves column sums
  per row tile, in eighths, which the host adds up.  Each of these is the reference's value by commutativity and
  associativity of the extended reals' sum alone, so finiteness of the inputs is not used.

  The frames: @main is host operations around two kernel regions; each region's body reads its input blocks and stores
  its two output blocks whole, and no argument array is written.
-/
import proofs.«417691_j25598005084727_2_alg».proof.Defs
import proofs.«417691_j25598005084727_2_alg».proof.Proof.Gen.Kernel
import proofs.«417691_j25598005084727_2_alg».proof.Proof.Gen.KernelIdeal
import proofs.«417691_j25598005084727_2_alg».proof.Proof.Gen.ReferenceIdeal
import proofs.«417691_j25598005084727_2_alg».proof.Proof.Gen.Pre_finite_inputs
import proofs.«417691_j25598005084727_2_alg».proof.Proof.KernelValue
import proofs.«417691_j25598005084727_2_alg».proof.Proof.RefValue
import proofs.«417691_j25598005084727_2_alg».proof.Proof.PreDecode
import proofs.«417691_j25598005084727_2_alg».proof.Proof.RunEnd
import proofs.«417691_j25598005084727_2_alg».proof.Proof.BitsRunEnd

noncomputable section

namespace Cert.Proof

open Idealize.ShloMosaic Idealize.SL.Sem Cert.Spec

/-- The word-level kernel runs and keeps its arguments. -/
theorem frame_k : Cert.frame_Kernel := fun m ρ _ => Cert.Kernel.Hand.frame_all (F := Bits) m ρ

/-- The idealized kernel runs and keeps its arguments. -/
theorem frame_ki : Cert.frame_KernelIdeal := fun m ρ _ => Cert.KernelIdeal.Hand.frame_all (F := Ideal) m ρ

/-- The reference runs and keeps its arguments: its run with the results dropped. -/
theorem frame_ri : Cert.frame_ReferenceIdeal := fun m ρ _ =>
  (θ_run Cert.ReferenceIdeal.defs _ _).mono (fun _ h c => (h c).2.2.2) (Cert.ReferenceIdeal.RefVal.ref_run m ρ)

/-- The precondition bounds the edge list. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) : InRange (Cert.KernelIdeal.Val.aEI m c) :=
  Cert.PreDecode.inRange_of_fn _ _ _ _ _ _ _ _ _ _ _ _ _ _ _ _ (h c)

/-- Both idealized programs end with the layer's three results, as one function of arguments that agree. -/
theorem algebraic : Cert.algebraic_KernelIdeal_ReferenceIdeal := by
  intro m ρ m' ρ' hpre hagree
  refine ⟨_, _, _, Cert.KernelIdeal.Val.kernel_run m ρ (inRange_of_pre m hpre), ?_⟩
  refine (θ_run Cert.ReferenceIdeal.defs _ _).mono (fun r h c => ?_) (Cert.ReferenceIdeal.RefVal.ref_run m' ρ')
  obtain ⟨h0, h1, h2, hk⟩ := h c
  obtain ⟨e0, e1, e2, e3, e4, e5, e6, e7, e8, e9, e10, e11, e12, e13, e14, e15⟩ := hagree c
  have q0 : Cert.ReferenceIdeal.RefVal.rX m' c = Cert.KernelIdeal.Val.aX m c := e0
  have q1 : Cert.ReferenceIdeal.RefVal.rEI m' c = Cert.KernelIdeal.Val.aEI m c := e1
  have q2 : Cert.ReferenceIdeal.RefVal.rEA m' c = Cert.KernelIdeal.Val.aEA m c := e2
  have q3 : Cert.ReferenceIdeal.RefVal.rG m' c = Cert.KernelIdeal.Val.aG m c := e3
  have q4 : Cert.ReferenceIdeal.RefVal.rEW1 m' c = Cert.KernelIdeal.Val.aEW1 m c := e4
  have q5 : Cert.ReferenceIdeal.RefVal.rEB1 m' c = Cert.KernelIdeal.Val.aEB1 m c := e5
  have q6 : Cert.ReferenceIdeal.RefVal.rEW2 m' c = Cert.KernelIdeal.Val.aEW2 m c := e6
  have q7 : Cert.ReferenceIdeal.RefVal.rEB2 m' c = Cert.KernelIdeal.Val.aEB2 m c := e7
  have q8 : Cert.ReferenceIdeal.RefVal.rNW1 m' c = Cert.KernelIdeal.Val.aNW1 m c := e8
  have q9 : Cert.ReferenceIdeal.RefVal.rNB1 m' c = Cert.KernelIdeal.Val.aNB1 m c := e9
  have q10 : Cert.ReferenceIdeal.RefVal.rNW2 m' c = Cert.KernelIdeal.Val.aNW2 m c := e10
  have q11 : Cert.ReferenceIdeal.RefVal.rNB2 m' c = Cert.KernelIdeal.Val.aNB2 m c := e11
  have q12 : Cert.ReferenceIdeal.RefVal.rGW1 m' c = Cert.KernelIdeal.Val.aGW1 m c := e12
  have q13 : Cert.ReferenceIdeal.RefVal.rGB1 m' c = Cert.KernelIdeal.Val.aGB1 m c := e13
  have q14 : Cert.ReferenceIdeal.RefVal.rGW2 m' c = Cert.KernelIdeal.Val.aGW2 m c := e14
  have q15 : Cert.ReferenceIdeal.RefVal.rGB2 m' c = Cert.KernelIdeal.Val.aGB2 m c := e15
  refine ⟨h0.trans ?_, h1.trans ?_, h2.trans ?_, hk⟩ <;>
    simp only [q0, q1, q2, q3, q4, q5, q6, q7, q8, q9, q10, q11, q12, q13, q14, q15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
